-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S32x2048x2048 : Shape := ⟨3, ![32, 2048, 2048]⟩
abbrev S64x32 : Shape := ⟨2, ![64, 32]⟩
abbrev S32 : Shape := ⟨1, ![32]⟩
abbrev S32x32 : Shape := ⟨2, ![32, 32]⟩
abbrev S32x512 : Shape := ⟨2, ![32, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel
  bcast_S_S32x2048x2048 : S_.BroadcastsInDim S32x2048x2048 (![] : Fin 0 → Fin S32x2048x2048.rank)
  reducesTo_S32x2048x2048_S_d0_1_2 : S32x2048x2048.ReducesTo [0, 1, 2] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x512 : S_.BroadcastsInDim S32x512 (![] : Fin 0 → Fin S32x512.rank)
  reducesTo_S32x512_S_d0_1 : S32x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S512 .f32) (main_arg8 : FVec F S512x1 .f32) (main_arg9 : FVec F S1 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x1 .f32 := Host.absf main_arg8
  let main_cst_14 : FVec F S_ .f32 := constant S_ .f32 0x7F800000#32
  let main_v40 : FVec F S512x1 .f32 := broadcastInDim S512x1 ![] bcast_S_S512x1 main_cst_14
  let main_v41 : IVec S512x1 1 := cmpf .olt main_v39 main_v40
  let main_c_15 : IVec S_ 1 := constantI S_ 1 1#1
  let main_v42 : IVec S_ 1 := (fun x v => Host.reduce IntOp.andi x v reducesTo_S512x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S32x32 .f32) (main_arg5 : FVec F S32 .f32) (main_arg6 : FVec F S32x512 .f32) (main_arg7 : FVec F S512 .f32) (main_arg8 : FVec F S512x1 .f32) (main_arg9 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x512 .f32 := Host.absf main_arg6
  let main_cst_10 : FVec F S_ .f32 := constant S_ .f32 0x7F800000#32
  let main_v30 : FVec F S32x512 .f32 := broadcastInDim S32x512 ![] bcast_S_S32x512 main_cst_10
  let main_v31 : IVec S32x512 1 := cmpf .olt main_v29 main_v30
  let main_c_11 : IVec S_ 1 := constantI S_ 1 1#1
  let main_v32 : IVec S_ 1 := (fun x v => Host.reduce IntOp.andi x v reducesTo_S32x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S32x2048x64 .f32) (main_arg1 : FVec F S32x2048x2048 .f32) (main_arg2 : FVec F S64x32 .f32) (main_arg3 : FVec F S32 .f32) (main_arg4 : FVec F S32x32 .f32) (main_arg5 : FVec F S32 .f32) (main_arg6 : FVec F S32x512 .f32) (main_arg7 : FVec F S512 .f32) (main_arg8 : FVec F S512x1 .f32) (main_arg9 : FVec F S1 .f32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S32x2048x2048 .f32 := Host.absf main_arg1
  let main_cst_0 : FVec F S_ .f32 := constant S_ .f32 0x7F800000#32
  let main_v5 : FVec F S32x2048x2048 .f32 := broadcastInDim S32x2048x2048 ![] bcast_S_S32x2048x2048 main_cst_0
  let main_v6 : IVec S32x2048x2048 1 := cmpf .olt main_v4 main_v5
  let main_c_1 : IVec S_ 1 := constantI S_ 1 1#1
  let main_v7 : IVec S_ 1 := (fun x v => Host.reduce IntOp.andi x v reducesTo_S32x2048x2048_S_d0_1_2 h_S_) main_v6 main_c_1
  let main_v8 : IVec S_ 1 := andi main_v3 main_v7
  let main_v9 : FVec F S64x32 .f32 := Host.absf main_arg2
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_v13 main_v16
-- ==== Kernel.lean ====
abbrev S32x2048x64 : Shape := ⟨3, ![32, 2048, 64]⟩
abbrev S32x2048x2048 : Shape := ⟨3, ![32, 2048, 2048]⟩
abbrev S64x32 : Shape := ⟨2, ![64, 32]⟩
abbrev S32 : Shape := ⟨1, ![32]⟩
abbrev S32x32 : Shape := ⟨2, ![32, 32]⟩
abbrev S32x512 : Shape := ⟨2, ![32, 512]⟩
abbrev S512 : Shape := ⟨1, ![512]⟩
abbrev S512x1 : Shape := ⟨2, ![512, 1]⟩
abbrev S1 : Shape := ⟨1, ![1]⟩
abbrev S1x32 : Shape := ⟨2, ![1, 32]⟩
abbrev S32x2048x32 : Shape := ⟨3, ![32, 2048, 32]⟩
abbrev S1x2048x64 : Shape := ⟨3, ![1, 2048, 64]⟩
abbrev S1x512x2048 : Shape := ⟨3, ![1, 512, 2048]⟩
abbrev S1x512x32 : Shape := ⟨3, ![1, 512, 32]⟩
abbrev S2048x32 : Shape := ⟨2, ![2048, 32]⟩
abbrev S2048x64 : Shape := ⟨2, ![2048, 64]⟩
abbrev S512x2048 : Shape := ⟨2, ![512, 2048]⟩
abbrev S512x32 : Shape := ⟨2, ![512, 32]⟩
abbrev S32x1x32 : Shape := ⟨3, ![32, 1, 32]⟩
abbrev S1x2048x32 : Shape := ⟨3, ![1, 2048, 32]⟩
abbrev S1x1x32 : Shape := ⟨3, ![1, 1, 32]⟩
abbrev S1x512 : Shape := ⟨2, ![1, 512]⟩
abbrev S_ : Shape := ⟨0, ![]⟩
abbrev S32x1 : Shape := ⟨2, ![32, 1]⟩
abbrev S1x1 : Shape := ⟨2, ![1, 1]⟩

abbrev nBuf : Space → Nat
  | .hbm => 26
  | .vmem => 18
  | .smem => 0
  | _ => 0

abbrev bufTy : (tb : Table) → Fin (tcTables nBuf tb) → BufTy
  | .hbm, ⟨0, _⟩ => ⟨S32x2048x64, .f32⟩
  | .hbm, ⟨1, _⟩ => ⟨S32x2048x2048, .f32⟩
  | .hbm, ⟨2, _⟩ => ⟨S64x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x512, .f32⟩
  | .hbm, ⟨7, _⟩ => ⟨S512, .f32⟩
  | .hbm, ⟨8, _⟩ => ⟨S512x1, .f32⟩
  | .hbm, ⟨9, _⟩ => ⟨S1, .f32⟩
  | .hbm, ⟨10, _⟩ => ⟨S1x32, .f32⟩
  | .hbm, ⟨11, _⟩ => ⟨S32x2048x32, .f32⟩
  | .hbm, ⟨12, _⟩ => ⟨S1x32, .f32⟩
  | .hbm, ⟨13, _⟩ => ⟨S32x1x32, .f32⟩
  | .hbm, ⟨14, _⟩ => ⟨S32x32, .f32⟩
  | .hbm, ⟨15, _⟩ => ⟨S32x512, .f32⟩
  | .hbm, ⟨16, _⟩ => ⟨S1x512, .f32⟩
  | .hbm, ⟨17, _⟩ => ⟨S32x512, .f32⟩
  | .hbm, ⟨18, _⟩ => ⟨S32x512, .f32⟩
  | .hbm, ⟨19, _⟩ => ⟨S_, .f32⟩
  | .hbm, ⟨20, _⟩ => ⟨S32x512, .f32⟩
  | .hbm, ⟨21, _⟩ => ⟨S32x512, .f32⟩
  | .hbm, ⟨22, _⟩ => ⟨S32x1, .f32⟩
  | .hbm, ⟨23, _⟩ => ⟨S1x1, .f32⟩
  | .hbm, ⟨24, _⟩ => ⟨S32x1, .f32⟩
  | .hbm, ⟨25, _⟩ => ⟨S32x1, .f32⟩
  | .local _ .vmem, ⟨0, _⟩ => ⟨S1x2048x64, .f32⟩
  | .local _ .vmem, ⟨1, _⟩ => ⟨S1x2048x64, .f32⟩
  | .local _ .vmem, ⟨2, _⟩ => ⟨S1x512x2048, .f32⟩
  | .local _ .vmem, ⟨3, _⟩ => ⟨S1x512x2048, .f32⟩
  | .local _ .vmem, ⟨4, _⟩ => ⟨S64x32, .f32⟩
  | .local _ .vmem, ⟨5, _⟩ => ⟨S1x32, .f32⟩
  | .local _ .vmem, ⟨6, _⟩ => ⟨S1x512x32, .f32⟩
  | .local _ .vmem, ⟨7, _⟩ => ⟨S1x512x32, .f32⟩
  | .local _ .vmem, ⟨8, _⟩ => ⟨S2048x32, .f32⟩
  | .local _ .vmem, ⟨9, _⟩ => ⟨S1x2048x32, .f32⟩
  | .local _ .vmem, ⟨10, _⟩ => ⟨S1x2048x32, .f32⟩
  | .local _ .vmem, ⟨11, _⟩ => ⟨S1x512x2048, .f32⟩
  | .local _ .vmem, ⟨12, _⟩ => ⟨S1x512x2048, .f32⟩
  | .local _ .vmem, ⟨13, _⟩ => ⟨S32x32, .f32⟩
  | .local _ .vmem, ⟨14, _⟩ => ⟨S1x32, .f32⟩
  | .local _ .vmem, ⟨15, _⟩ => ⟨S1x1x32, .f32⟩
  | .local _ .vmem, ⟨16, _⟩ => ⟨S1x1x32, .f32⟩
  | .local _ .vmem, ⟨17, _⟩ => ⟨S2048x32, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_cst : Ref sig .tc := ⟨.hbm, 19, rfl⟩
abbrev main_call0_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S32_S1x32 : S32.ShapeCasts S1x32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S1x512x32_S1x512x32_0_0_0 : ∀ a, (![0, 0, 0] : Fin 3 → Nat) a + S1x512x32.size a ≤ S1x512x32.size a
  h_S1x512x32 : 0 < S1x512x32.numel
  shapeCasts_S1x512x32_S512x32 : S1x512x32.ShapeCasts S512x32
  shapeCasts_S512x32_S1x512x32 : S512x32.ShapeCasts S1x512x32
  inb_S1x2048x32_S1x2048x32_0_0_0 : ∀ a, (![0, 0, 0] : Fin 3 → Nat) a + S1x2048x32.size a ≤ S1x2048x32.size a
  h_S1x2048x32 : 0 < S1x2048x32.numel
  shapeCasts_S1x2048x32_S2048x32 : S1x2048x32.ShapeCasts S2048x32
  inb_S32x32_S32x32_0_0 : ∀ a, (![0, 0] : Fin 2 → Nat) a + S32x32.size a ≤ S32x32.size a
  h_S32x32 : 0 < S32x32.numel
  inb_S1x1x32_S1x1x32_0_0_0 : ∀ a, (![0, 0, 0] : Fin 3 → Nat) a + S1x1x32.size a ≤ S1x1x32.size a
  h_S1x1x32 : 0 < S1x1x32.numel
  shapeCasts_S1x1x32_S1x32 : S1x1x32.ShapeCasts S1x32
  shapeCasts_S1x32_S1x1x32 : S1x32.ShapeCasts S1x1x32
  reduces_S512x32_S32 : S512x32.Reduces [0] S32
  shapeCasts_S32x1x32_S32x32 : S32x1x32.ShapeCasts S32x32
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S_S32x512 : S_.BroadcastsInDim S32x512 (![] : Fin 0 → Fin S32x512.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  dot_S2048x64_S64x32_S2048x32_1_0_0_1_n_n_wf : DotDims.WF S2048x64 S64x32 S2048x32 [1] [0] [0] [1] [] []
  dot_S512x2048_S2048x32_S512x32_1_0_0_1_n_n_wf : DotDims.WF S512x2048 S2048x32 S512x32 [1] [0] [0] [1] [] []
  dot_S2048x32_S32x32_S2048x32_1_0_0_1_n_n_wf : DotDims.WF S2048x32 S32x32 S2048x32 [1] [0] [0] [1] [] []
  dot_S32x32_S32x512_S32x512_1_0_0_1_n_n_wf : DotDims.WF S32x32 S32x512 S32x512 [1] [0] [0] [1] [] []
  dot_S32x512_S512x1_S32x1_1_0_0_1_n_n_wf : DotDims.WF S32x512 S512x1 S32x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S32x2048x64.size a
  hwx0_0 : ∀ i : grid0.Coords, EltTy.bits .f32 = 32 ∨ (Rect.block (s := S32x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S32x2048x2048.size a
  hwx0_1 : ∀ i : grid0.Coords, EltTy.bits .f32 = 32 ∨ (Rect.block (s := S32x2048x2048) S1x512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x32.size a ≤ S32x2048x32.size a
  hwx0_4 : ∀ i : grid0.Coords, EltTy.bits .f32 = 32 ∨ (Rect.block (s := S32x2048x32) S1x512x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x32.size a ≤ S32x2048x32.size a
  hwx1_0 : ∀ i : grid1.Coords, EltTy.bits .f32 = 32 ∨ (Rect.block (s := S32x2048x32) S1x2048x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x2048.size a ≤ S32x2048x2048.size a
  hwx1_1 : ∀ i : grid1.Coords, EltTy.bits .f32 = 32 ∨ (Rect.block (s := S32x2048x2048) S1x512x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x32.size a ≤ S32x1x32.size a
  hwx1_4 : ∀ i : grid1.Coords, EltTy.bits .f32 = 32 ∨ (Rect.block (s := S32x1x32) S1x1x32.size (cc1_transform_4 i) (hinb1_4 i)).WholeWords (EltTy.packing .f32)

variable [Facts₀]

def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S512x2048_S2048x32_S512x32_1_0_0_1_n_n : DotDims S512x2048 S2048x32 S512x32 where
  lhsContracting := [1]
  rhsContracting := [0]
  lhsNonContracting := [0]
  rhsNonContracting := [1]
  lhsBatch := []
  rhsBatch := []
  wf := dot_S512x2048_S2048x32_S512x32_1_0_0_1_n_n_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def dot_S32x32_S32x512_S32x512_1_0_0_1_n_n : DotDims S32x32 S32x512 S32x512 where
  lhsContracting := [1]
  rhsContracting := [0]
  lhsNonContracting := [0]
  rhsNonContracting := [1]
  lhsBatch := []
  rhsBatch := []
  wf := dot_S32x32_S32x512_S32x512_1_0_0_1_n_n_wf
def dot_S32x512_S512x1_S32x1_1_0_0_1_n_n : DotDims S32x512 S512x1 S32x1 where
  lhsContracting := [1]
  rhsContracting := [0]
  lhsNonContracting := [0]
  rhsNonContracting := [1]
  lhsBatch := []
  rhsBatch := []
  wf := dot_S32x512_S512x1_S32x1_1_0_0_1_n_n_wf

abbrev win0_0 : Pipeline.Window sig grid0 :=
  Pipeline.Window.ofSpec (Memref.whole main_arg0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S1x2048x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x1x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S32x2048x64 : Shape := ⟨3, ![32, 2048, 64]⟩
abbrev S32x2048x2048 : Shape := ⟨3, ![32, 2048, 2048]⟩
abbrev S64x32 : Shape := ⟨2, ![64, 32]⟩
abbrev S32 : Shape := ⟨1, ![32]⟩
abbrev S32x32 : Shape := ⟨2, ![32, 32]⟩
abbrev S32x512 : Shape := ⟨2, ![32, 512]⟩
abbrev S512 : Shape := ⟨1, ![512]⟩
abbrev S512x1 : Shape := ⟨2, ![512, 1]⟩
abbrev S1 : Shape := ⟨1, ![1]⟩
abbrev S32x2048x32 : Shape := ⟨3, ![32, 2048, 32]⟩
abbrev S1x1x32 : Shape := ⟨3, ![1, 1, 32]⟩
abbrev S_ : Shape := ⟨0, ![]⟩
abbrev S1x512 : Shape := ⟨2, ![1, 512]⟩
abbrev S32x1 : Shape := ⟨2, ![32, 1]⟩
abbrev S1x1 : Shape := ⟨2, ![1, 1]⟩

abbrev nBuf : Space → Nat
  | .hbm => 39
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x2048, .f32⟩
  | .hbm, ⟨2, _⟩ => ⟨S64x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x512, .f32⟩
  | .hbm, ⟨7, _⟩ => ⟨S512, .f32⟩
  | .hbm, ⟨8, _⟩ => ⟨S512x1, .f32⟩
  | .hbm, ⟨9, _⟩ => ⟨S1, .f32⟩
  | .hbm, ⟨10, _⟩ => ⟨S32x2048x32, .f32⟩
  | .hbm, ⟨11, _⟩ => ⟨S32x2048x32, .f32⟩
  | .hbm, ⟨12, _⟩ => ⟨S1x1x32, .f32⟩
  | .hbm, ⟨13, _⟩ => ⟨S32x2048x32, .f32⟩
  | .hbm, ⟨14, _⟩ => ⟨S32x2048x32, .f32⟩
  | .hbm, ⟨15, _⟩ => ⟨S_, .f32⟩
  | .hbm, ⟨16, _⟩ => ⟨S32x2048x32, .f32⟩
  | .hbm, ⟨17, _⟩ => ⟨S32x2048x32, .f32⟩
  | .hbm, ⟨18, _⟩ => ⟨S32x2048x32, .f32⟩
  | .hbm, ⟨19, _⟩ => ⟨S32x2048x32, .f32⟩
  | .hbm, ⟨20, _⟩ => ⟨S1x1x32, .f32⟩
  | .hbm, ⟨21, _⟩ => ⟨S32x2048x32, .f32⟩
  | .hbm, ⟨22, _⟩ => ⟨S32x2048x32, .f32⟩
  | .hbm, ⟨23, _⟩ => ⟨S_, .f32⟩
  | .hbm, ⟨24, _⟩ => ⟨S32x2048x32, .f32⟩
  | .hbm, ⟨25, _⟩ => ⟨S32x2048x32, .f32⟩
  | .hbm, ⟨26, _⟩ => ⟨S_, .f32⟩
  | .hbm, ⟨27, _⟩ => ⟨S32x32, .f32⟩
  | .hbm, ⟨28, _⟩ => ⟨S32x512, .f32⟩
  | .hbm, ⟨29, _⟩ => ⟨S1x512, .f32⟩
  | .hbm, ⟨30, _⟩ => ⟨S32x512, .f32⟩
  | .hbm, ⟨31, _⟩ => ⟨S32x512, .f32⟩
  | .hbm, ⟨32, _⟩ => ⟨S_, .f32⟩
  | .hbm, ⟨33, _⟩ => ⟨S32x512, .f32⟩
  | .hbm, ⟨34, _⟩ => ⟨S32x512, .f32⟩
  | .hbm, ⟨35, _⟩ => ⟨S32x1, .f32⟩
  | .hbm, ⟨36, _⟩ => ⟨S1x1, .f32⟩
  | .hbm, ⟨37, _⟩ => ⟨S32x1, .f32⟩
  | .hbm, ⟨38, _⟩ => ⟨S32x1, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call2_cst : Ref sig .tc := ⟨.hbm, 32, rfl⟩
abbrev main_call2_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S32x2048x32_0_1_2 : S1x1x32.BroadcastsInDim S32x2048x32 (![0, 1, 2] : Fin 3 → Fin S32x2048x32.rank)
  bcast_S_S32x2048x32 : S_.BroadcastsInDim S32x2048x32 (![] : Fin 0 → Fin S32x2048x32.rank)
  reducesTo_S32x2048x32_S32x32_d1 : S32x2048x32.ReducesTo [1] S32x32
  h_S_ : 0 < S_.numel
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S_S32x512 : S_.BroadcastsInDim S32x512 (![] : Fin 0 → Fin S32x512.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  dot_S32x2048x64_S64x32_S32x2048x32_2_0_01_1_n_n_wf : DotDims.WF S32x2048x64 S64x32 S32x2048x32 [2] [0] [0, 1] [1] [] []
  dot_S32x2048x2048_S32x2048x32_S32x2048x32_2_1_1_2_0_0_wf : DotDims.WF S32x2048x2048 S32x2048x32 S32x2048x32 [2] [1] [1] [2] [0] [0]
  dot_S32x2048x32_S32x32_S32x2048x32_2_0_01_1_n_n_wf : DotDims.WF S32x2048x32 S32x32 S32x2048x32 [2] [0] [0, 1] [1] [] []
  dot_S32x32_S32x512_S32x512_1_0_0_1_n_n_wf : DotDims.WF S32x32 S32x512 S32x512 [1] [0] [0] [1] [] []
  dot_S32x512_S512x1_S32x1_1_0_0_1_n_n_wf : DotDims.WF S32x512 S512x1 S32x1 [1] [0] [0] [1] [] []

variable [Facts₀]

def dot_S32x2048x64_S64x32_S32x2048x32_2_0_01_1_n_n : DotDims S32x2048x64 S64x32 S32x2048x32 where
  lhsContracting := [2]
  rhsContracting := [0]
  lhsNonContracting := [0, 1]
  rhsNonContracting := [1]
  lhsBatch := []
  rhsBatch := []
  wf := dot_S32x2048x64_S64x32_S32x2048x32_2_0_01_1_n_n_wf
def dot_S32x2048x2048_S32x2048x32_S32x2048x32_2_1_1_2_0_0 : DotDims S32x2048x2048 S32x2048x32 S32x2048x32 where
  lhsContracting := [2]
  rhsContracting := [1]
  lhsNonContracting := [1]
  rhsNonContracting := [2]
  lhsBatch := [0]
  rhsBatch := [0]
  wf := dot_S32x2048x2048_S32x2048x32_S32x2048x32_2_1_1_2_0_0_wf
def dot_S32x2048x32_S32x32_S32x2048x32_2_0_01_1_n_n : DotDims S32x2048x32 S32x32 S32x2048x32 where
  lhsContracting := [2]
  rhsContracting := [0]
  lhsNonContracting := [0, 1]
  rhsNonContracting := [1]
  lhsBatch := []
  rhsBatch := []
  wf := dot_S32x2048x32_S32x32_S32x2048x32_2_0_01_1_n_n_wf
def dot_S32x32_S32x512_S32x512_1_0_0_1_n_n : DotDims S32x32 S32x512 S32x512 where
  lhsContracting := [1]
  rhsContracting := [0]
  lhsNonContracting := [0]
  rhsNonContracting := [1]
  lhsBatch := []
  rhsBatch := []
  wf := dot_S32x32_S32x512_S32x512_1_0_0_1_n_n_wf
def dot_S32x512_S512x1_S32x1_1_0_0_1_n_n : DotDims S32x512 S512x1 S32x1 where
  lhsContracting := [1]
  rhsContracting := [0]
  lhsNonContracting := [0]
  rhsNonContracting := [1]
  lhsBatch := []
  rhsBatch := []
  wf := dot_S32x512_S512x1_S32x1_1_0_0_1_n_n_wf

class Facts : Prop extends Facts₀ where

variable [Facts]
-- ==== Proof.K.Region0.lean ====
/-
  The first graph-convolution layer as a region of @main: what each grid point (batch b, row tile n) finds in
  its buffers and what it leaves.  The projection X[b]·W1 is computed once per batch, at row tile 0, into a
  scratch buffer that the three later tiles of the batch read back; every tile then stores
  max(A[b, tile n]·(X[b]·W1) + b1, 0) into its output block.  The scratch therefore holds, between two
  points of one batch, the projection of that batch's block of X, and anything between two batches.
-/
import proofs.«152775_j41695542509689_1_alg».proof.Proof.Gen.Kernel.Launch
import proofs.«152775_j41695542509689_1_alg».proof.Proof.Gen.Kernel.Skeleton
import proofs.«152775_j41695542509689_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the pipeline stages -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first point of the batch that point `t` belongs to: four row tiles per batch. -/
def bf0 (t : Fin cfg0.N) : Fin cfg0.N := ⟨4 * (t.val / 4), by have := t.isLt; have h : cfg0.N = 128 := N_0; omega⟩

/-! ## The body's accesses: every load and store moves a whole buffer -/

abbrev rX0 : Rect S1x2048x64 := Rect.unit (s := S1x2048x64) ![0, 0, 0] S1x2048x64.size inb_S1x2048x64_S1x2048x64_0_0_0
abbrev rA0 : Rect S1x512x2048 := Rect.unit (s := S1x512x2048) ![0, 0, 0] S1x512x2048.size inb_S1x512x2048_S1x512x2048_0_0_0
abbrev rW0 : Rect S64x32 := Rect.unit (s := S64x32) ![0, 0] S64x32.size inb_S64x32_S64x32_0_0
abbrev rB0 : Rect S1x32 := Rect.unit (s := S1x32) ![0, 0] S1x32.size inb_S1x32_S1x32_0_0
abbrev rO0 : Rect S1x512x32 := Rect.unit (s := S1x512x32) ![0, 0, 0] S1x512x32.size inb_S1x512x32_S1x512x32_0_0_0
abbrev rS0 : Rect S2048x32 := Rect.unit (s := S2048x32) ![0, 0] S2048x32.size inb_S2048x32_S2048x32_0_0

/-- The scratch after the projection is stored: X-block · W1, from the staged blocks of X and W1. -/
def proj0 (x : Vec F S1x2048x64 .f32) (w : Vec F S64x32 .f32) : Vec F S2048x32 .f32 :=
  View.canon [⟨rS0, k0_pay1 (View.ld x rX0) (View.ld w rW0)⟩]

/-- The output block a point stores: from its tile of A, the scratch and the bias row. -/
def out0 (a : Vec F S1x512x2048 .f32) (s : Vec F S2048x32 .f32) (b : Vec F S1x32 .f32) : Vec F S1x512x32 .f32 :=
  View.canon [⟨rO0, k0_pay2 (View.ld a rA0) (View.ld s rS0) (View.ld b rB0)⟩]

/-- The scratch while point `t` computes its output (and after it): the projection of its batch's block of X. -/
def scr0 (c : Dev nD) (t : Fin cfg0.N) : Vec F S2048x32 .f32 :=
  proj0 (iblk0 V c 0 (bf0 t)) (iblk0 V c 2 (bf0 t))

/-! ## The body's branch on the row tile -/

/-- The condition of the body's one conditional: the row-tile coordinate is zero (the scalar chain of the printed
    body substituted). -/
abbrev cond0 (i : grid0.Coords) : Prop :=
  (Scalar.cmpi .ne (Scalar.extui (Scalar.cmpi .eq (BitVec.ofNat 32 (i 1).val) 0#32)) 0#32) = 1#1

/-- It holds at the first row tile of every batch: the points ≡ 0 (mod 4), decided over the grid. -/
theorem hcond0 : ∀ t : Fin cfg0.N, cond0 (grid0.coords t) ↔ t.val % 4 = 0 :=
  (by decide +kernel : ∀ t : Fin grid0.N, cond0 (grid0.coords t) ↔ t.val % 4 = 0)

/-! ## The scratch operand and the other scoped buffers -/

abbrev scM0 : Memref sig .tc .vmem S2048x32 .f32 := Memref.whole cc0_scratch0

/-- The scoped buffers of the core that this region neither stages nor uses: each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class invariant with the scratch operand spelt as an owned memref. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; try rfl

/-! ## Each whole-buffer store covers its buffer -/

/-- The one store into the scratch is through the whole-shape rectangle, so it covers the scratch. -/
theorem coverS0 (p : Vec F S2048x32 .f32) (y : S2048x32.Idx) :
    ∃ pc ∈ ([⟨rS0, p⟩] : List (View.Piece (Elt F) S2048x32 .f32)), y ∈ pc.1.set :=
  View.cover_of_tiled [⟨rS0, p⟩] S2048x32.size (by rfl) y

/-- The one store into the output block is through the whole-shape rectangle, so it covers the block. -/
theorem coverO0 (p : Vec F S1x512x32 .f32) (y : S1x512x32.Idx) :
    ∃ pc ∈ ([⟨rO0, p⟩] : List (View.Piece (Elt F) S1x512x32 .f32)), y ∈ pc.1.set :=
  View.cover_of_tiled [⟨rO0, p⟩] S1x512x32.size (by rfl) y

/-! ## The body's two runs -/

set_option maxHeartbeats 2000000 in
/-- FIRST TILE of a batch. On whole memrefs, the four inputs at read contents and the output block and the scratch at
    anything, the body stores the projection into the scratch, reads it back and stores the output block. -/
theorem sound_first0 (c : Dev nD) (E : Set ℕ) (i : grid0.Coords) (hc : cond0 i)
    (arg2 : Memref sig .tc .vmem S1x2048x64 .f32) (harg2 : arg2.IsWhole)
    (arg3 : Memref sig .tc .vmem S1x512x2048 .f32) (harg3 : arg3.IsWhole)
    (arg4 : Memref sig .tc .vmem S64x32 .f32) (harg4 : arg4.IsWhole)
    (arg5 : Memref sig .tc .vmem S1x32 .f32) (harg5 : arg5.IsWhole)
    (arg6 : Memref sig .tc .vmem S1x512x32 .f32) (harg6 : arg6.IsWhole)
    (arg7 : Memref sig .tc .vmem S2048x32 .f32) (harg7 : arg7.IsWhole)
    (x : Vec F S1x2048x64 .f32) (a : Vec F S1x512x2048 .f32) (w : Vec F S64x32 .f32) (b : Vec F S1x32 .f32)
    (K : PUnit → sProp 𝕄) :
    iprop(owns (c : Thread nD τ) arg2 fullShare x ∗ owns (c : Thread nD τ) arg3 fullShare a
        ∗ owns (c : Thread nD τ) arg4 fullShare w ∗ owns (c : Thread nD τ) arg5 fullShare b
        ∗ (∃ d, owns (c : Thread nD τ) arg6 fullShare d) ∗ (∃ d, owns (c : Thread nD τ) arg7 fullShare d)
        ∗ (iprop(owns (c : Thread nD τ) arg2 fullShare x ∗ owns (c : Thread nD τ) arg3 fullShare a
            ∗ owns (c : Thread nD τ) arg4 fullShare w ∗ owns (c : Thread nD τ) arg5 fullShare b
            ∗ owns (c : Thread nD τ) arg6 fullShare (out0 a (proj0 x w) b)
            ∗ owns (c : Thread nD τ) arg7 fullShare (proj0 x w)) -∗ K ⟨⟩))
      ⊢ wp frame (wpE (defs₀ (F := F)) Variants.none c none) E
          (cc0__gcn1_kernel i arg2 harg2 arg3 harg3 arg4 harg4 arg5 harg5 arg6 harg6 arg7 harg7) K := by
  simp only [cc0__gcn1_kernel_eq_skeleton]; unfold cc0__gcn1_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf2 hf3 hf4 hf5
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.readCov_eq_canon_ld _ _ _ (coverS0 _)]
    exact View.read_writes_eq_canon _ _ _ (coverO0 _)
  iexists _; isplitr
  swap; · iexact H7
  ipureintro
  sl_unfold_run_names
  exact View.read_writes_eq_canon _ _ _ (coverS0 _)

set_option maxHeartbeats 2000000 in
/-- A LATER TILE of a batch. The conditional is skipped: the body reads the scratch as it finds it and stores the
    output block; the scratch and the four inputs are left as they were. -/
theorem sound_rest0 (c : Dev nD) (E : Set ℕ) (i : grid0.Coords) (hc : ¬cond0 i)
    (arg2 : Memref sig .tc .vmem S1x2048x64 .f32) (harg2 : arg2.IsWhole)
    (arg3 : Memref sig .tc .vmem S1x512x2048 .f32) (harg3 : arg3.IsWhole)
    (arg4 : Memref sig .tc .vmem S64x32 .f32) (harg4 : arg4.IsWhole)
    (arg5 : Memref sig .tc .vmem S1x32 .f32) (harg5 : arg5.IsWhole)
    (arg6 : Memref sig .tc .vmem S1x512x32 .f32) (harg6 : arg6.IsWhole)
    (arg7 : Memref sig .tc .vmem S2048x32 .f32) (harg7 : arg7.IsWhole)
    (x : Vec F S1x2048x64 .f32) (a : Vec F S1x512x2048 .f32) (w : Vec F S64x32 .f32) (b : Vec F S1x32 .f32)
    (s : Vec F S2048x32 .f32) (K : PUnit → sProp 𝕄) :
    iprop(owns (c : Thread nD τ) arg2 fullShare x ∗ owns (c : Thread nD τ) arg3 fullShare a
        ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg2 fullShare x ∗ owns (c : Thread nD τ) arg3 fullShare a
            ∗ owns (c : Thread nD τ) arg4 fullShare w ∗ owns (c : Thread nD τ) arg5 fullShare b
            ∗ owns (c : Thread nD τ) arg6 fullShare (out0 a s b)
            ∗ owns (c : Thread nD τ) arg7 fullShare s) -∗ K ⟨⟩))
      ⊢ wp frame (wpE (defs₀ (F := F)) Variants.none c none) E
          (cc0__gcn1_kernel i arg2 harg2 arg3 harg3 arg4 harg4 arg5 harg5 arg6 harg6 arg7 harg7) K := by
  simp only [cc0__gcn1_kernel_eq_skeleton]; unfold cc0__gcn1_kernel_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf2 hf3 hf4 hf5 hf7
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverO0 _)
  iexists f7; isplitr; · ipureintro; rfl
  iexact H7

/-- The invariant before point `n`: between two batches (n ≡ 0 mod 4) the scratch holds anything; inside a batch
    it holds the projection of the batch's block of X. -/
def Phi0 (c : Dev nD) (n : ℕ) (hn : n ≤ cfg0.N) : sProp 𝕄 :=
  if h4 : n % 4 = 0 then Pipeline.ΦA spec0 c
  else iprop(iprop(owns (c : Thread nD τ) scM0 fullShare
      (proj0 (iblk0 V c 0 ⟨4 * (n / 4), by have h : cfg0.N = 128 := N_0; omega⟩) (iblk0 V c 2 ⟨4 * (n / 4), by have h : cfg0.N = 128 := N_0; omega⟩)) ∗ others0 c)
    ∗ (∃ r, prngReg c r))

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 (iblk0 V c 1 t) (scr0 V c t) (iblk0 V c 3 t)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) :
    (dat0 V c).after 4 t = out0 (iblk0 V c 1 t) (scr0 V c t) (iblk0 V c 3 t) := by dsimp only [dat0]

/-! ## What the proof data says, window by window -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]

/-- Each input window's current staging buffer holds its block at every point, fetched there or not: the body leaves
    the block in place, and where the pipeline does not fetch, the block index has not moved. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The invariant, case by case -/

/-- The projection of the block of X (and of W1) staged at point `k`: what the scratch holds through `k`'s batch. -/
def scrAt (c : Dev nD) (k : Fin cfg0.N) : Vec F S2048x32 .f32 := proj0 (iblk0 V c 0 k) (iblk0 V c 2 k)

theorem scr0_eq (c : Dev nD) (t : Fin cfg0.N) : scr0 V c t = scrAt V c (bf0 t) := rfl

/-- Between two batches the invariant is the class's. -/
theorem Phi0_zero (c : Dev nD) (n : ℕ) (hn : n ≤ cfg0.N) (h : n % 4 = 0) : Phi0 V c n hn = Pipeline.ΦA spec0 c := by
  unfold Phi0; rw [dif_pos h]

/-- Inside a batch the scratch holds the projection staged at the batch's first point. -/
theorem Phi0_pos (c : Dev nD) (n : ℕ) (hn : n ≤ cfg0.N) (h : ¬n % 4 = 0) (hk : 4 * (n / 4) < cfg0.N) :
    Phi0 V c n hn = iprop(iprop(owns (c : Thread nD τ) scM0 fullShare (scrAt V c ⟨4 * (n / 4), hk⟩) ∗ others0 c)
      ∗ (∃ r, prngReg c r)) := by
  unfold Phi0; rw [dif_neg h]; rfl

theorem Phi_castSucc (c : Dev nD) (t : Fin cfg0.N) :
    (dat0 V c).Φ t.castSucc = Phi0 V c t.val (Nat.le_of_lt t.isLt) := by
  dsimp only [dat0]; simp only [Fin.coe_castSucc]

theorem Phi_succ (c : Dev nD) (t : Fin cfg0.N) : (dat0 V c).Φ t.succ = Phi0 V c (t.val + 1) t.isLt := rfl

/-- The scratch named by the batch's first point is what the invariant wants after a later tile: the same name while
    the batch goes on (4·⌊(t+1)/4⌋ = 4·⌊t/4⌋), and no name once the batch's last tile is done. -/
theorem Phi0_step (c : Dev nD) (t : Fin cfg0.N) (hk : 4 * (t.val / 4) < cfg0.N) :
    iprop(iprop(owns (c : Thread nD τ) scM0 fullShare (scrAt V c ⟨4 * (t.val / 4), hk⟩) ∗ others0 c) ∗ (∃ r, prngReg c r))
      ⊢ Phi0 V c (t.val + 1) t.isLt := by
  by_cases h1 : (t.val + 1) % 4 = 0
  · rw [Phi0_zero V c _ _ h1, PhiA0_eq]
    iintro ⟨⟨HS, Hoth⟩, Hg⟩
    isplitl [HS Hoth]
    · isplitl [HS]
      · iexists _; iexact HS
      iexact Hoth
    iexact Hg
  · have hk1 : 4 * ((t.val + 1) / 4) < cfg0.N := by
      have := t.isLt; have hN : cfg0.N = 128 := N_0; omega
    rw [Phi0_pos V c _ _ h1 hk1]
    have e : (⟨4 * ((t.val + 1) / 4), hk1⟩ : Fin cfg0.N) = ⟨4 * (t.val / 4), hk⟩ := Fin.ext (by
      show 4 * ((t.val + 1) / 4) = 4 * (t.val / 4); omega)
    rw [e]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 2000000 in
/-- The body at any point. The inputs' memrefs hold their blocks. At a batch's first tile the scratch comes at anything
    and leaves at the projection of this point's blocks, which is the batch's name for it; at a later tile it comes
    under the batch's name, is read, and leaves unchanged. The core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    after0_0, after0_1, after0_2, after0_3, after0_4, Phi_castSucc, Phi_succ, scr0_eq]
  have hN : cfg0.N = 128 := N_0
  have ht := t.isLt
  by_cases h : t.val % 4 = 0
  · have h1 : ¬(t.val + 1) % 4 = 0 := by omega
    have hk1 : 4 * ((t.val + 1) / 4) < cfg0.N := by omega
    rw [Phi0_zero V c _ _ h, PhiA0_eq, Phi0_pos V c _ _ h1 hk1]
    have e1 : bf0 t = t := Fin.ext (by show 4 * (t.val / 4) = t.val; omega)
    have e2 : (⟨4 * ((t.val + 1) / 4), hk1⟩ : Fin cfg0.N) = t := Fin.ext (by
      show 4 * ((t.val + 1) / 4) = t.val; omega)
    rw [e1, e2]
    unfold scrAt
    iintro ⟨⟨⟨HS, Hoth⟩, Hg⟩, Ho, ⟨%d0, H0⟩, ⟨%d1, H1⟩, ⟨%d2, H2⟩, ⟨%d3, H3⟩, ⟨%d4, H4⟩⟩
    iapply (sound_first0 c Set.univ (grid0.coords t) ((hcond0 t).mpr h) _ _ _ _ _ _ _ _ _ _ _ _
      (iblk0 V c 0 t) (iblk0 V c 1 t) (iblk0 V c 2 t) (iblk0 V c 3 t) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4
  · have hk : 4 * (t.val / 4) < cfg0.N := by omega
    rw [Phi0_pos V c _ _ h hk, show bf0 t = ⟨4 * (t.val / 4), hk⟩ from rfl]
    iintro ⟨⟨⟨HS, Hoth⟩, Hg⟩, Ho, ⟨%d0, H0⟩, ⟨%d1, H1⟩, ⟨%d2, H2⟩, ⟨%d3, H3⟩, ⟨%d4, H4⟩⟩
    iapply (sound_rest0 c Set.univ (grid0.coords t) (fun hc => h ((hcond0 t).mp hc)) _ _ _ _ _ _ _ _ _ _ _ _
      (iblk0 V c 0 t) (iblk0 V c 1 t) (iblk0 V c 2 t) (iblk0 V c 3 t) (scrAt V c ⟨4 * (t.val / 4), hk⟩) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hoth Hg]
    · iapply (Phi0_step V c t hk)
      isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4

/-! ## What the region owes the launch -/

/-- The body obligation at every point. -/
theorem body_obligation0 (c : Dev nD) : BodyObligation (dat0 (F := F) V c) (defs₀ (F := F)) Variants.none () Set.univ := by
  intro t
  rw [bigSep_W0, bigSep_W0]
  exact sound_body0 V c t

/-- The class invariant is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- After the last point the invariant gives the class invariant back. -/
theorem hout0 (c : Dev nD) : (dat0 V c).Φ (Fin.last cfg0.N) ⊢ Pipeline.ΦA spec0 c := by
  rw [show (dat0 V c).Φ (Fin.last cfg0.N) = Phi0 V c cfg0.N (Nat.le_refl _) from rfl,
    Phi0_zero V c _ _ (by have hN : cfg0.N = 128 := N_0; omega)]

end Cert.Kernel.Hand

end
-- ==== Proof.K.Region1.lean ====
/-
  The second graph-convolution layer with the sum pool, as a region of @main.  Per batch b the projection
  H1[b]·W2 is computed once, at row tile 0, into a scratch buffer, and the pooled output block of the batch is
  reset to zero there; every row tile n then adds the column sums of max(A[b, tile n]·(H1[b]·W2) + b2, 0) to
  that block, which the pipeline writes back after the batch's fourth tile.  So inside a batch the scratch holds
  the projection of the batch's block of H1 and the output buffer holds the sum over the tiles done so far.
-/
import proofs.«152775_j41695542509689_1_alg».proof.Proof.Gen.Kernel.Launch
import proofs.«152775_j41695542509689_1_alg».proof.Proof.Gen.Kernel.Skeleton
import proofs.«152775_j41695542509689_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the pipeline stages -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first point of the batch that point `t` belongs to: four row tiles per batch. -/
def bf1 (t : Fin cfg1.N) : Fin cfg1.N := ⟨4 * (t.val / 4), by have := t.isLt; have h : cfg1.N = 128 := N_1; omega⟩

/-! ## The body's accesses: every load and store moves a whole buffer -/

abbrev rH1 : Rect S1x2048x32 := Rect.unit (s := S1x2048x32) ![0, 0, 0] S1x2048x32.size inb_S1x2048x32_S1x2048x32_0_0_0
abbrev rA1 : Rect S1x512x2048 := Rect.unit (s := S1x512x2048) ![0, 0, 0] S1x512x2048.size inb_S1x512x2048_S1x512x2048_0_0_0
abbrev rW1 : Rect S32x32 := Rect.unit (s := S32x32) ![0, 0] S32x32.size inb_S32x32_S32x32_0_0
abbrev rB1 : Rect S1x32 := Rect.unit (s := S1x32) ![0, 0] S1x32.size inb_S1x32_S1x32_0_0
abbrev rO1 : Rect S1x1x32 := Rect.unit (s := S1x1x32) ![0, 0, 0] S1x1x32.size inb_S1x1x32_S1x1x32_0_0_0
abbrev rS1 : Rect S2048x32 := Rect.unit (s := S2048x32) ![0, 0] S2048x32.size inb_S2048x32_S2048x32_0_0

/-- The scratch after the projection is stored: H1-block · W2, from the staged blocks of H1 and W2. -/
def proj1 (h : Vec F S1x2048x32 .f32) (w : Vec F S32x32 .f32) : Vec F S2048x32 .f32 :=
  View.canon [⟨rS1, k1_pay1 (View.ld h rH1) (View.ld w rW1)⟩]

/-- The pooled block as the batch's first tile resets it: zero. -/
def zero1 : Vec F S1x1x32 .f32 := View.canon [⟨rO1, k1_pay2 (F := F)⟩]

/-- The pooled block after one tile's update: what it held plus the tile's column sums. -/
def step1 (a : Vec F S1x512x2048 .f32) (s : Vec F S2048x32 .f32) (b : Vec F S1x32 .f32) (prev : Vec F S1x1x32 .f32) : Vec F S1x1x32 .f32 :=
  View.canon [⟨rO1, k1_pay3 (View.ld a rA1) (View.ld s rS1) (View.ld b rB1) (View.ld prev rO1)⟩]

/-- The scratch while point `t` computes (and after it): the projection of its batch's block of H1. -/
def scr1 (c : Dev nD) (t : Fin cfg1.N) : Vec F S2048x32 .f32 :=
  proj1 (iblk1 V c 0 (bf1 t)) (iblk1 V c 2 (bf1 t))

/-- The pooled output buffer after point `n`: the batch's first tile starts from zero, a later tile from what
    the tile before it left. -/
def acc1 (c : Dev nD) : (n : ℕ) → (hn : n < cfg1.N) → Vec F S1x1x32 .f32
  | 0, hn => step1 (iblk1 V c 1 ⟨0, hn⟩) (scr1 V c ⟨0, hn⟩) (iblk1 V c 3 ⟨0, hn⟩) zero1
  | n + 1, hn => step1 (iblk1 V c 1 ⟨n + 1, hn⟩) (scr1 V c ⟨n + 1, hn⟩) (iblk1 V c 3 ⟨n + 1, hn⟩)
      (if (n + 1) % 4 = 0 then zero1 else acc1 c n (Nat.lt_of_succ_lt hn))

theorem acc1_zero (c : Dev nD) (hn : 0 < cfg1.N) :
    acc1 V c 0 hn = step1 (iblk1 V c 1 ⟨0, hn⟩) (scr1 V c ⟨0, hn⟩) (iblk1 V c 3 ⟨0, hn⟩) zero1 := rfl

theorem acc1_succ (c : Dev nD) (n : ℕ) (hn : n + 1 < cfg1.N) :
    acc1 V c (n + 1) hn = step1 (iblk1 V c 1 ⟨n + 1, hn⟩) (scr1 V c ⟨n + 1, hn⟩) (iblk1 V c 3 ⟨n + 1, hn⟩)
      (if (n + 1) % 4 = 0 then zero1 else acc1 V c n (Nat.lt_of_succ_lt hn)) := rfl

/-! ## The scratch operand and the other scoped buffers -/

abbrev scM1 : Memref sig .tc .vmem S2048x32 .f32 := Memref.whole cc1_scratch0

/-- The scoped buffers of the core that this region neither stages nor uses (region 0's staging buffers and
    scratch): each whole at some contents.  `scopedRest1_eq` lists them before this region's own scratch. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

namespace R1

/-! ## The branch on the row tile -/

/-- The condition of the body's conditional: the row-tile coordinate is zero. -/
abbrev cond1 (i : grid1.Coords) : Prop :=
  (Scalar.cmpi .ne (Scalar.extui (Scalar.cmpi .eq (BitVec.ofNat 32 (i 1).val) 0#32)) 0#32) = 1#1

/-- It holds exactly at the first tile of each batch. -/
theorem hcond1 : ∀ t : Fin cfg1.N, cond1 (grid1.coords t) ↔ t.val % 4 = 0 :=
  (by decide +kernel : ∀ t : Fin grid1.N, cond1 (grid1.coords t) ↔ t.val % 4 = 0)

/-! ## Whole-buffer rectangles: zero offsets, and a first piece that covers -/

theorem zoff2 : (![0, 0] : Fin 2 → ℕ) = fun _ => 0 := funext fun a => by fin_cases a <;> rfl
theorem zoff3 : (![0, 0, 0] : Fin 3 → ℕ) = fun _ => 0 := funext fun a => by fin_cases a <;> rfl

/-- A list of pieces whose first is stored through the whole-buffer rectangle covers the buffer. -/
theorem cover_head {S : Shape} {e : EltTy} {off : Fin S.rank → ℕ} (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self, View.mem_set_unit_zero h inb y⟩

/-! ## The kernel function on whole memrefs -/

set_option maxHeartbeats 2000000 in
/-- At a batch's first tile: the projection goes to the scratch, the pooled buffer is reset to zero, read back and
    updated with the tile's column sums. -/
theorem sound_first1 (c : Dev nD) (E : Set ℕ) (i : grid1.Coords) (hc : cond1 i)
    (arg2 : Memref sig .tc .vmem S1x2048x32 .f32) (harg2 : arg2.IsWhole) (arg3 : Memref sig .tc .vmem S1x512x2048 .f32) (harg3 : arg3.IsWhole)
    (arg4 : Memref sig .tc .vmem S32x32 .f32) (harg4 : arg4.IsWhole) (arg5 : Memref sig .tc .vmem S1x32 .f32) (harg5 : arg5.IsWhole)
    (arg6 : Memref sig .tc .vmem S1x1x32 .f32) (harg6 : arg6.IsWhole) (arg7 : Memref sig .tc .vmem S2048x32 .f32) (harg7 : arg7.IsWhole)
    (h : Vec F S1x2048x32 .f32) (a : Vec F S1x512x2048 .f32) (w : Vec F S32x32 .f32) (b : Vec F S1x32 .f32)
    (K : PUnit → sProp 𝕄) :
    iprop(owns (c : Thread nD τ) arg2 fullShare h ∗ owns (c : Thread nD τ) arg3 fullShare a ∗ owns (c : Thread nD τ) arg4 fullShare w
        ∗ owns (c : Thread nD τ) arg5 fullShare b ∗ (∃ d, owns (c : Thread nD τ) arg6 fullShare d) ∗ (∃ d, owns (c : Thread nD τ) arg7 fullShare d)
        ∗ (iprop(owns (c : Thread nD τ) arg2 fullShare h ∗ owns (c : Thread nD τ) arg3 fullShare a ∗ owns (c : Thread nD τ) arg4 fullShare w
            ∗ owns (c : Thread nD τ) arg5 fullShare b ∗ owns (c : Thread nD τ) arg6 fullShare (step1 a (proj1 h w) b zero1)
            ∗ owns (c : Thread nD τ) arg7 fullShare (proj1 h w)) -∗ K ⟨⟩))
      ⊢ wp frame (wpE (defs₀ (F := F)) Variants.none c none) E
          (cc1__gcn2_pool_kernel i arg2 harg2 arg3 harg3 arg4 harg4 arg5 harg5 arg6 harg6 arg7 harg7) K := by
  simp only [cc1__gcn2_pool_kernel_eq_skeleton]; unfold cc1__gcn2_pool_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf2 hf3 hf4 hf5
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (cover_head zoff3 _ _ _), View.canon_cons_unit_zero (S := S1x1x32) zoff3]
    unfold step1
    rw [View.canon_unit_zero (S := S1x1x32) zoff3]
    rw [View.readCov_eq_canon_ld _ _ _ (cover_head zoff2 _ _ _), View.readCov_eq_canon_ld _ _ _ (cover_head zoff3 _ _ _)]
    rfl
  iexists _; isplitr
  swap; · iexact H7
  ipureintro
  sl_unfold_run_names
  exact View.read_writes_eq_canon _ _ _ (cover_head zoff2 _ _ _)

set_option maxHeartbeats 2000000 in
/-- At a later tile of a batch: the scratch is read, the pooled buffer is read and updated. -/
theorem sound_other1 (c : Dev nD) (E : Set ℕ) (i : grid1.Coords) (hc : ¬cond1 i)
    (arg2 : Memref sig .tc .vmem S1x2048x32 .f32) (harg2 : arg2.IsWhole) (arg3 : Memref sig .tc .vmem S1x512x2048 .f32) (harg3 : arg3.IsWhole)
    (arg4 : Memref sig .tc .vmem S32x32 .f32) (harg4 : arg4.IsWhole) (arg5 : Memref sig .tc .vmem S1x32 .f32) (harg5 : arg5.IsWhole)
    (arg6 : Memref sig .tc .vmem S1x1x32 .f32) (harg6 : arg6.IsWhole) (arg7 : Memref sig .tc .vmem S2048x32 .f32) (harg7 : arg7.IsWhole)
    (h : Vec F S1x2048x32 .f32) (a : Vec F S1x512x2048 .f32) (w : Vec F S32x32 .f32) (b : Vec F S1x32 .f32)
    (prev : Vec F S1x1x32 .f32) (s : Vec F S2048x32 .f32)
    (K : PUnit → sProp 𝕄) :
    iprop(owns (c : Thread nD τ) arg2 fullShare h ∗ owns (c : Thread nD τ) arg3 fullShare a ∗ owns (c : Thread nD τ) arg4 fullShare w
        ∗ owns (c : Thread nD τ) arg5 fullShare b ∗ owns (c : Thread nD τ) arg6 fullShare prev ∗ owns (c : Thread nD τ) arg7 fullShare s
        ∗ (iprop(owns (c : Thread nD τ) arg2 fullShare h ∗ owns (c : Thread nD τ) arg3 fullShare a ∗ owns (c : Thread nD τ) arg4 fullShare w
            ∗ owns (c : Thread nD τ) arg5 fullShare b ∗ owns (c : Thread nD τ) arg6 fullShare (step1 a s b prev)
            ∗ owns (c : Thread nD τ) arg7 fullShare s) -∗ K ⟨⟩))
      ⊢ wp frame (wpE (defs₀ (F := F)) Variants.none c none) E
          (cc1__gcn2_pool_kernel i arg2 harg2 arg3 harg3 arg4 harg4 arg5 harg5 arg6 harg6 arg7 harg7) K := by
  simp only [cc1__gcn2_pool_kernel_eq_skeleton]; unfold cc1__gcn2_pool_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf2 hf3 hf4 hf5 hf6 hf7
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_head zoff3 _ _ _)
  iexists f7; isplitr; · ipureintro; rfl
  iexact H7

end R1

open R1

/-- The class invariant with the scratch operand spelt as an owned memref (the scratch is the LAST of the scoped
    buffers this region does not stage). -/
theorem PhiA1_eq (c : Dev nD) :
    (Pipeline.ΦA spec1 c : sProp 𝕄)
      = iprop(iprop(others1 c ∗ (∃ d, owns (c : Thread nD τ) scM1 fullShare d)) ∗ (∃ r, prngReg c r)) := by
  unfold Pipeline.ΦA others1; rw [scopedRest1_eq]; simp only [scM1, owns_whole]
  refine BI.equiv_iff.mp ⟨(?_ : (_ : sProp 𝕄) ⊢ _), (?_ : (_ : sProp 𝕄) ⊢ _)⟩
  · iintro ⟨⟨H1, H2, H3, H4, H5, H6, H7, H8, H9, H10⟩, Hg⟩
    isplitr [Hg]
    · isplitr [H10]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      · iexact H10
    · iexact Hg
  · iintro ⟨⟨⟨H1, H2, H3, H4, H5, H6, H7, H8, H9⟩, H10⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · iexact Hg

/-- The invariant before point `n`: between two batches (n ≡ 0 mod 4) the scratch holds anything; inside a batch
    it holds the projection of the batch's block of H1. -/
def Phi1 (c : Dev nD) (n : ℕ) (hn : n ≤ cfg1.N) : sProp 𝕄 :=
  if h4 : n % 4 = 0 then Pipeline.ΦA spec1 c
  else iprop(iprop(others1 c ∗ owns (c : Thread nD τ) scM1 fullShare
      (proj1 (iblk1 V c 0 ⟨4 * (n / 4), by have h : cfg1.N = 128 := N_1; omega⟩) (iblk1 V c 2 ⟨4 * (n / 4), by have h : cfg1.N = 128 := N_1; omega⟩)))
    ∗ (∃ r, prngReg c r))

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) : (dat1 V c).after 4 t = acc1 V c t.val t.isLt := by dsimp only [dat1]

namespace R1

/-! ## What the body finds in each staging buffer -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]

/-- Each input window's current staging buffer holds its block at every point, fetched there or not: where it is
    not fetched its block index has not moved. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- Inside a batch (not at its first tile) the pooled output's current staging buffer holds what the tile before
    left: the point is not the first, and the buffer was not written back in between (a write-back only follows a
    batch's fourth tile). -/
theorem before1_4 (c : Dev nD) (t : Fin cfg1.N) (h4 : ¬t.val % 4 = 0) (d) :
    (dat1 V c).before 4 t d = acc1 V c (t.val - 1) (Nat.lt_of_le_of_lt (Nat.sub_le _ _) t.isLt) := by
  rw [Dat.before_out_kept _ 4 rfl t (by omega)
    (Bool.eq_false_iff.mpr fun h => by have := (flush1_4 _).mp h; dsimp only at this; omega)
    (fun _ => rfl) (fun _ _ => rfl)]
  dsimp only [dat1]

/-! ## The accumulator and the invariant, point by point -/

/-- At a batch's first tile the batch's first point is the point itself. -/
theorem bf1_first (t : Fin cfg1.N) (h4 : t.val % 4 = 0) : bf1 t = t :=
  Fin.ext (by unfold bf1; dsimp only; omega)

/-- The accumulator after a batch's first tile: one update of zero. -/
theorem acc1_first (c : Dev nD) (t : Fin cfg1.N) (h4 : t.val % 4 = 0) :
    acc1 V c t.val t.isLt
      = step1 (iblk1 V c 1 t) (proj1 (iblk1 V c 0 t) (iblk1 V c 2 t)) (iblk1 V c 3 t) zero1 := by
  obtain ⟨n, hn⟩ := t
  cases n with
  | zero => rw [acc1_zero]; unfold scr1; rw [bf1_first ⟨0, hn⟩ h4]
  | succ n => rw [acc1_succ, if_pos h4]; unfold scr1; rw [bf1_first ⟨n + 1, hn⟩ h4]

/-- The accumulator after a later tile: one update of what the tile before left. -/
theorem acc1_other (c : Dev nD) (t : Fin cfg1.N) (h4 : ¬t.val % 4 = 0) :
    acc1 V c t.val t.isLt
      = step1 (iblk1 V c 1 t) (scr1 V c t) (iblk1 V c 3 t)
          (acc1 V c (t.val - 1) (Nat.lt_of_le_of_lt (Nat.sub_le _ _) t.isLt)) := by
  obtain ⟨n, hn⟩ := t
  cases n with
  | zero => exact absurd (Nat.zero_mod 4) h4
  | succ n => rw [acc1_succ, if_neg h4]; rfl

/-- Between two batches the invariant is the class's. -/
theorem Phi1_pos (c : Dev nD) (n : ℕ) (hn : n ≤ cfg1.N) (h4 : n % 4 = 0) : Phi1 V c n hn = Pipeline.ΦA spec1 c := by
  unfold Phi1; rw [dif_pos h4]

/-- Before a later tile of a batch the scratch holds the batch's projection. -/
theorem Phi1_at_other (c : Dev nD) (t : Fin cfg1.N) (h4 : ¬t.val % 4 = 0) :
    Phi1 V c t.val (Nat.le_of_lt t.isLt)
      = iprop(iprop(others1 c ∗ owns (c : Thread nD τ) scM1 fullShare (scr1 V c t)) ∗ (∃ r, prngReg c r)) := by
  unfold Phi1; rw [dif_neg h4]; rfl

/-- After a batch's first tile the scratch holds the projection computed there. -/
theorem Phi1_succ_first (c : Dev nD) (t : Fin cfg1.N) (h4 : t.val % 4 = 0) :
    Phi1 V c (t.val + 1) t.isLt
      = iprop(iprop(others1 c ∗ owns (c : Thread nD τ) scM1 fullShare (proj1 (iblk1 V c 0 t) (iblk1 V c 2 t))) ∗ (∃ r, prngReg c r)) := by
  have hN : cfg1.N = 128 := N_1
  have hlt := t.isLt
  have e : (⟨4 * ((t.val + 1) / 4), by omega⟩ : Fin cfg1.N) = t := Fin.ext (by dsimp only; omega)
  unfold Phi1; rw [dif_neg (by omega), e]

/-- After a later tile that is not the batch's last the scratch still holds the batch's projection. -/
theorem Phi1_succ_other (c : Dev nD) (t : Fin cfg1.N) (h4 : ¬t.val % 4 = 0) (h5 : ¬(t.val + 1) % 4 = 0) :
    Phi1 V c (t.val + 1) t.isLt
      = iprop(iprop(others1 c ∗ owns (c : Thread nD τ) scM1 fullShare (scr1 V c t)) ∗ (∃ r, prngReg c r)) := by
  have hN : cfg1.N = 128 := N_1
  have hlt := t.isLt
  have e : (⟨4 * ((t.val + 1) / 4), by omega⟩ : Fin cfg1.N) = bf1 t := Fin.ext (by unfold bf1; dsimp only; omega)
  unfold Phi1; rw [dif_neg h5, e]; rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4000000 in
/-- The body at any point.  The inputs' memrefs hold their blocks.  At a batch's first tile the invariant hands the
    scratch at anything and takes it back at the projection; the pooled buffer is found at anything.  At a later
    tile the scratch is handed at the projection and the pooled buffer holds what the tile before left; after the
    batch's last tile the scratch's contents are forgotten. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    show (dat1 V c).Φ t.castSucc = Phi1 V c t.val (Nat.le_of_lt t.isLt) from rfl,
    show (dat1 V c).Φ t.succ = Phi1 V c (t.val + 1) t.isLt from rfl,
    after1_0, after1_1, after1_2, after1_3, after1_4]
  have hN : t.val < 128 := lt_of_lt_of_eq t.isLt (show cfg1.N = 128 from N_1)
  by_cases h4 : t.val % 4 = 0
  · rw [Phi1_pos V c _ _ h4, PhiA1_eq, Phi1_succ_first V c t h4, acc1_first V c t h4]
    iintro ⟨⟨⟨Hot, ⟨%ds, HS⟩⟩, Hg⟩, Ho, ⟨%d0, H0⟩, ⟨%d1, H1⟩, ⟨%d2, H2⟩, ⟨%d3, H3⟩, ⟨%d4, H4⟩⟩
    iapply (sound_first1 c Set.univ (grid1.coords t) ((hcond1 t).mpr h4)
      (win1_0.stage (cfg1.slots t 0)) (hstage1_0 ((cfg1.slots t 0).cast nbuf1_0))
      (win1_1.stage (cfg1.slots t 1)) (hstage1_1 ((cfg1.slots t 1).cast nbuf1_1))
      (win1_2.stage (cfg1.slots t 2)) (hstage1_2 ((cfg1.slots t 2).cast nbuf1_2))
      (win1_3.stage (cfg1.slots t 3)) (hstage1_3 ((cfg1.slots t 3).cast nbuf1_3))
      (win1_4.stage (cfg1.slots t 4)) (hstage1_4 ((cfg1.slots t 4).cast nbuf1_4))
      (Memref.whole cc1_scratch0) (Memref.isWhole_whole _)
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, H4, HS⟩
    isplitl [Hot HS Hg]
    · isplitr [Hg]
      · isplitl [Hot]; · iexact Hot
        iexact HS
      · iexact Hg
    isplitl [Ho]; · iexact Ho
    isplitl [H0]; · iexact H0
    isplitl [H1]; · iexact H1
    isplitl [H2]; · iexact H2
    isplitl [H3]; · iexact H3
    iexact H4
  · rw [Phi1_at_other V c t h4, acc1_other V c t h4]
    simp only [before1_4 V c t h4]
    by_cases h5 : (t.val + 1) % 4 = 0
    · rw [Phi1_pos V c _ _ h5, PhiA1_eq]
      iintro ⟨⟨⟨Hot, HS⟩, Hg⟩, Ho, ⟨%d0, H0⟩, ⟨%d1, H1⟩, ⟨%d2, H2⟩, ⟨%d3, H3⟩, ⟨%d4, H4⟩⟩
      iapply (sound_other1 c Set.univ (grid1.coords t) (fun h => h4 ((hcond1 t).mp h))
        (win1_0.stage (cfg1.slots t 0)) (hstage1_0 ((cfg1.slots t 0).cast nbuf1_0))
        (win1_1.stage (cfg1.slots t 1)) (hstage1_1 ((cfg1.slots t 1).cast nbuf1_1))
        (win1_2.stage (cfg1.slots t 2)) (hstage1_2 ((cfg1.slots t 2).cast nbuf1_2))
        (win1_3.stage (cfg1.slots t 3)) (hstage1_3 ((cfg1.slots t 3).cast nbuf1_3))
        (win1_4.stage (cfg1.slots t 4)) (hstage1_4 ((cfg1.slots t 4).cast nbuf1_4))
        (Memref.whole cc1_scratch0) (Memref.isWhole_whole _)
        (iblk1 V c 0 t) (iblk1 V c 1 t) (iblk1 V c 2 t) (iblk1 V c 3 t)
        (acc1 V c (t.val - 1) (Nat.lt_of_le_of_lt (Nat.sub_le _ _) t.isLt)) (scr1 V c t) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hot HS Hg]
      · isplitr [Hg]
        · isplitl [Hot]; · iexact Hot
          iexists _; iexact HS
        · iexact Hg
      isplitl [Ho]; · iexact Ho
      isplitl [H0]; · iexact H0
      isplitl [H1]; · iexact H1
      isplitl [H2]; · iexact H2
      isplitl [H3]; · iexact H3
      iexact H4
    · rw [Phi1_succ_other V c t h4 h5]
      iintro ⟨⟨⟨Hot, HS⟩, Hg⟩, Ho, ⟨%d0, H0⟩, ⟨%d1, H1⟩, ⟨%d2, H2⟩, ⟨%d3, H3⟩, ⟨%d4, H4⟩⟩
      iapply (sound_other1 c Set.univ (grid1.coords t) (fun h => h4 ((hcond1 t).mp h))
        (win1_0.stage (cfg1.slots t 0)) (hstage1_0 ((cfg1.slots t 0).cast nbuf1_0))
        (win1_1.stage (cfg1.slots t 1)) (hstage1_1 ((cfg1.slots t 1).cast nbuf1_1))
        (win1_2.stage (cfg1.slots t 2)) (hstage1_2 ((cfg1.slots t 2).cast nbuf1_2))
        (win1_3.stage (cfg1.slots t 3)) (hstage1_3 ((cfg1.slots t 3).cast nbuf1_3))
        (win1_4.stage (cfg1.slots t 4)) (hstage1_4 ((cfg1.slots t 4).cast nbuf1_4))
        (Memref.whole cc1_scratch0) (Memref.isWhole_whole _)
        (iblk1 V c 0 t) (iblk1 V c 1 t) (iblk1 V c 2 t) (iblk1 V c 3 t)
        (acc1 V c (t.val - 1) (Nat.lt_of_le_of_lt (Nat.sub_le _ _) t.isLt)) (scr1 V c t) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hot HS Hg]
      · isplitr [Hg]
        · isplitl [Hot]; · iexact Hot
          iexact HS
        · iexact Hg
      isplitl [Ho]; · iexact Ho
      isplitl [H0]; · iexact H0
      isplitl [H1]; · iexact H1
      isplitl [H2]; · iexact H2
      isplitl [H3]; · iexact H3
      iexact H4

end R1

/-! ## What the region owes the launch -/

/-- The body obligation at every point. -/
theorem body_obligation1 (c : Dev nD) : BodyObligation (dat1 (F := F) V c) (defs₀ (F := F)) Variants.none () Set.univ := by
  intro t
  rw [bigSep_W1, bigSep_W1]
  exact sound_body1 V c t

/-- The class invariant is the invariant before the first point. -/
theorem hin1 (c : Dev nD) : Pipeline.ΦA spec1 c ⊢ (dat1 V c).Φ 0 := by
  rw [show (dat1 V c).Φ 0 = Phi1 V c 0 (Nat.zero_le _) from rfl, Phi1_pos V c 0 _ (Nat.zero_mod 4)]

/-- After the last point the invariant gives the class invariant back. -/
theorem hout1 (c : Dev nD) : (dat1 V c).Φ (Fin.last cfg1.N) ⊢ Pipeline.ΦA spec1 c := by
  have hN : cfg1.N = 128 := N_1
  rw [show (dat1 V c).Φ (Fin.last cfg1.N) = Phi1 V c cfg1.N (Nat.le_refl _) from rfl, Phi1_pos V c _ _ (by omega)]

end Cert.Kernel.Hand

end
-- ==== Proof.K.Run.lean ====
/-
  The whole run of @main: the contents of every buffer of a core at each boundary between two items of @main
  (a stretch of host operations, or one of the two kernel regions), folded from the launch memory; the two
  regions as segments over those contents; and the run itself, whose final state holds every buffer at the
  fold's last stage.  The frame claim (the arguments end as launched) and the value of the result are both
  read off that last stage.
-/
import proofs.«152775_j41695542509689_1_alg».proof.Proof.Gen.Kernel.Launch
import proofs.«152775_j41695542509689_1_alg».proof.Proof.Gen.Kernel.Skeleton
import proofs.«152775_j41695542509689_1_alg».proof.Proof.Gen.Kernel.Points
import proofs.«152775_j41695542509689_1_alg».proof.Proof.Gen.Kernel.Regions
import proofs.«152775_j41695542509689_1_alg».proof.Proof.K.Region0
import proofs.«152775_j41695542509689_1_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the bias row of layer 1 is reshaped (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline's write-backs leave, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the bias row of layer 2 is reshaped (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
/-- After the dense head's three stretches of host operations. -/
abbrev W5 : Dev nD → Valuation τ sig (Elt F) := fun c => StableHlo.after hostOps2 (W4 m c)
abbrev W6 : Dev nD → Valuation τ sig (Elt F) := fun c => StableHlo.after hostOps2_1 (W5 m c)
abbrev W7 : Dev nD → Valuation τ sig (Elt F) := fun c => StableHlo.after hostOps2_2 (W6 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

/-! ## The proof data of both pipelines, each at its region's entry contents -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

/-! ## What each item leaves unchanged

A stretch of host operations leaves every buffer it does not write; a region leaves every buffer that is no
window's array, and the array of an INPUT window as well (the pipeline only reads it). -/

/-- At region 0's exit each of its arrays holds what the pipeline leaves, every other buffer what it held at entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- The same at region 1's exit. -/
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- The first stretch writes the reshaped bias row of layer 1 only. -/
theorem W1_of (c : Dev nD) (r : Ref sig .tc) (h : r ∉ hostOps0_W) :
    W1 m c (Proc.devRef .tc r) = m ((c : Thread nD τ).loc r) :=
  StableHlo.after_of_writes_sub hostOps0 _ hostOps0_writes h
/-- The second stretch writes the reshaped bias row of layer 2 only. -/
theorem W3_of (c : Dev nD) (r : Ref sig .tc) (h : r ∉ hostOps1_W) :
    W3 m c (Proc.devRef .tc r) = W2 m c (Proc.devRef .tc r) :=
  StableHlo.after_of_writes_sub hostOps1 _ hostOps1_writes h
/-- The dense head's three stretches write their own intermediate values and the result only. -/
theorem W7_of (c : Dev nD) (r : Ref sig .tc) (h2 : r ∉ hostOps2_W) (h21 : r ∉ hostOps2_1_W) (h22 : r ∉ hostOps2_2_W) :
    W7 m c (Proc.devRef .tc r) = W4 m c (Proc.devRef .tc r) :=
  (StableHlo.after_of_writes_sub hostOps2_2 _ hostOps2_2_writes h22).trans <|
    (StableHlo.after_of_writes_sub hostOps2_1 _ hostOps2_1_writes h21).trans <|
      StableHlo.after_of_writes_sub hostOps2 _ hostOps2_writes h2
/-- Region 0 leaves the array of an input window as it found it: the write-backs folded over an input are none. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
/-- Region 1 likewise. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))

/-! ## The thread state between two items -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (each region's
    invariant takes it in and gives it back) and the core owing nothing. -/
abbrev R (c : Dev nD) : sProp 𝕄 := iprop((∃ r, prngReg c r) ∗ ∃ W, owes (c : Thread nD τ) (0 : CellTallies nD τ sig Unit) W)
/-- A stretch of host operations as a segment: over the unscoped buffers from the contents `W`, `R` riding along;
    it ends with those buffers at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without what the core owes: every unscoped buffer at the last stage, the generator
    register at some state. -/
abbrev Tₙ (c : Dev nD) : sProp 𝕄 := iprop(StableHlo.held (c : Thread nD τ) (Pipeline.ucRefs τ sig) (W7 m c) ∗ ∃ r, prngReg c r)

/-- The last stretch's exit state is the last thread state beside the core owing nothing. -/
theorem hlast (c : Dev nD) :
    (iprop(StableHlo.held (c : Thread nD τ) (Pipeline.ucRefs τ sig) (W7 m c) ∗ R c) : sProp 𝕄)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The two regions as segments -/

set_option backward.isDefEq.respectTransparency.types false in
/-- Region 0 over the thread state: entered from every unscoped buffer at `W1`, left at `W2`.  Its arrays are split
    out of the unscoped buffers and put back at the exit contents; the generator register and the scoped buffers
    no window stages make the class invariant, which is the region's invariant before its first point, and the
    invariant after its last point gives them back; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V1 m) c).Φ 0 from rfl]
    refine BIBase.Entails.trans ?_ (hin0 (V1 m) c)
    unfold Pipeline.ΦA
    iintro ⟨Hp, -, Hr⟩
    isplitl [Hr]; · iexact Hr
    iexact Hp
  hout c := by
    rw [Pipeline.ownSems0_none, show (pdats m 0 c).Φ (Fin.last _) = (dat0 (V1 m) c).Φ (Fin.last cfg0.N) from rfl]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`, in the same way. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    refine BIBase.Entails.trans ?_ (hin1 (V3 m) c)
    unfold Pipeline.ΦA
    iintro ⟨Hp, -, Hr⟩
    isplitl [Hr]; · iexact Hr
    iexact Hp
  hout c := by
    rw [Pipeline.ownSems0_none, show (pdats m 1 c).Φ (Fin.last _) = (dat1 (V3 m) c).Φ (Fin.last cfg1.N) from rfl]
    refine BIBase.Entails.trans (hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments -/

/-- @main's seven items in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)) ]

/-- @main is the run of the segments: it is the chain of its seven items, and so is the segments' run. -/
theorem main_run (c : Dev nD) : main (F := F) c = Pipeline.Seg.run (segs m) := by
  rw [main_chain c, Pipeline.Seg.run_eq_chain]
  rfl

/-! ## The run -/

set_option backward.isDefEq.respectTransparency.types false in
/-- Every weakly fair execution of @main from memory `m` with zero counters terminates, and in every final
    state each unscoped buffer of each core holds the fold's last stage. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => hlast m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- No item of @main writes an argument: at the last stage each argument's buffer is as launched. -/
theorem W7_main_arg0 (c : Dev nD) : W7 m c (Proc.devRef .tc main_arg0) = m ((c : Thread nD τ).loc main_arg0) :=
  (W7_of m c main_arg0 (by decide) (by decide) (by decide)).trans <| (W4_of_ne m c main_arg0 (by decide)).trans <|
    (W3_of m c main_arg0 (by decide)).trans <| (W2_in m c 0 rfl).trans <| W1_of m c main_arg0 (by decide)
theorem W7_main_arg1 (c : Dev nD) : W7 m c (Proc.devRef .tc main_arg1) = m ((c : Thread nD τ).loc main_arg1) :=
  (W7_of m c main_arg1 (by decide) (by decide) (by decide)).trans <| (W4_in m c 1 rfl).trans <|
    (W3_of m c main_arg1 (by decide)).trans <| (W2_in m c 1 rfl).trans <| W1_of m c main_arg1 (by decide)
theorem W7_main_arg2 (c : Dev nD) : W7 m c (Proc.devRef .tc main_arg2) = m ((c : Thread nD τ).loc main_arg2) :=
  (W7_of m c main_arg2 (by decide) (by decide) (by decide)).trans <| (W4_of_ne m c main_arg2 (by decide)).trans <|
    (W3_of m c main_arg2 (by decide)).trans <| (W2_in m c 2 rfl).trans <| W1_of m c main_arg2 (by decide)
theorem W7_main_arg3 (c : Dev nD) : W7 m c (Proc.devRef .tc main_arg3) = m ((c : Thread nD τ).loc main_arg3) :=
  (W7_of m c main_arg3 (by decide) (by decide) (by decide)).trans <| (W4_of_ne m c main_arg3 (by decide)).trans <|
    (W3_of m c main_arg3 (by decide)).trans <| (W2_of_ne m c main_arg3 (by decide)).trans <| W1_of m c main_arg3 (by decide)
theorem W7_main_arg4 (c : Dev nD) : W7 m c (Proc.devRef .tc main_arg4) = m ((c : Thread nD τ).loc main_arg4) :=
  (W7_of m c main_arg4 (by decide) (by decide) (by decide)).trans <| (W4_in m c 2 rfl).trans <|
    (W3_of m c main_arg4 (by decide)).trans <| (W2_of_ne m c main_arg4 (by decide)).trans <| W1_of m c main_arg4 (by decide)
theorem W7_main_arg5 (c : Dev nD) : W7 m c (Proc.devRef .tc main_arg5) = m ((c : Thread nD τ).loc main_arg5) :=
  (W7_of m c main_arg5 (by decide) (by decide) (by decide)).trans <| (W4_of_ne m c main_arg5 (by decide)).trans <|
    (W3_of m c main_arg5 (by decide)).trans <| (W2_of_ne m c main_arg5 (by decide)).trans <| W1_of m c main_arg5 (by decide)
theorem W7_main_arg6 (c : Dev nD) : W7 m c (Proc.devRef .tc main_arg6) = m ((c : Thread nD τ).loc main_arg6) :=
  (W7_of m c main_arg6 (by decide) (by decide) (by decide)).trans <| (W4_of_ne m c main_arg6 (by decide)).trans <|
    (W3_of m c main_arg6 (by decide)).trans <| (W2_of_ne m c main_arg6 (by decide)).trans <| W1_of m c main_arg6 (by decide)
theorem W7_main_arg7 (c : Dev nD) : W7 m c (Proc.devRef .tc main_arg7) = m ((c : Thread nD τ).loc main_arg7) :=
  (W7_of m c main_arg7 (by decide) (by decide) (by decide)).trans <| (W4_of_ne m c main_arg7 (by decide)).trans <|
    (W3_of m c main_arg7 (by decide)).trans <| (W2_of_ne m c main_arg7 (by decide)).trans <| W1_of m c main_arg7 (by decide)
theorem W7_main_arg8 (c : Dev nD) : W7 m c (Proc.devRef .tc main_arg8) = m ((c : Thread nD τ).loc main_arg8) :=
  (W7_of m c main_arg8 (by decide) (by decide) (by decide)).trans <| (W4_of_ne m c main_arg8 (by decide)).trans <|
    (W3_of m c main_arg8 (by decide)).trans <| (W2_of_ne m c main_arg8 (by decide)).trans <| W1_of m c main_arg8 (by decide)
theorem W7_main_arg9 (c : Dev nD) : W7 m c (Proc.devRef .tc main_arg9) = m ((c : Thread nD τ).loc main_arg9) :=
  (W7_of m c main_arg9 (by decide) (by decide) (by decide)).trans <| (W4_of_ne m c main_arg9 (by decide)).trans <|
    (W3_of m c main_arg9 (by decide)).trans <| (W2_of_ne m c main_arg9 (by decide)).trans <| W1_of m c main_arg9 (by decide)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame claim at any instance: the run terminates and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W7_main_arg0 m c),
      (h c _ (mem_uc main_arg1 (by decide))).trans (W7_main_arg1 m c),
      (h c _ (mem_uc main_arg2 (by decide))).trans (W7_main_arg2 m c),
      (h c _ (mem_uc main_arg3 (by decide))).trans (W7_main_arg3 m c),
      (h c _ (mem_uc main_arg4 (by decide))).trans (W7_main_arg4 m c),
      (h c _ (mem_uc main_arg5 (by decide))).trans (W7_main_arg5 m c),
      (h c _ (mem_uc main_arg6 (by decide))).trans (W7_main_arg6 m c),
      (h c _ (mem_uc main_arg7 (by decide))).trans (W7_main_arg7 m c),
      (h c _ (mem_uc main_arg8 (by decide))).trans (W7_main_arg8 m c),
      (h c _ (mem_uc main_arg9 (by decide))).trans (W7_main_arg9 m c)⟩) (run_all m ρ)

/-- The run with the result named: the result buffer ends at the fold's last stage, the arguments as launched. -/
theorem run_value : θ_run defs (onTc (τ := τ) (main (F := F))) ⟨m, fun _ => 0, ρ⟩ (fun r => ∀ c : Dev nD,
      r.2.mem ((c.tc : Thread nD τ).loc main_v13) = W7 m c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v13 (by decide)),
      (h c _ (mem_uc main_arg0 (by decide))).trans (W7_main_arg0 m c),
      (h c _ (mem_uc main_arg1 (by decide))).trans (W7_main_arg1 m c),
      (h c _ (mem_uc main_arg2 (by decide))).trans (W7_main_arg2 m c),
      (h c _ (mem_uc main_arg3 (by decide))).trans (W7_main_arg3 m c),
      (h c _ (mem_uc main_arg4 (by decide))).trans (W7_main_arg4 m c),
      (h c _ (mem_uc main_arg5 (by decide))).trans (W7_main_arg5 m c),
      (h c _ (mem_uc main_arg6 (by decide))).trans (W7_main_arg6 m c),
      (h c _ (mem_uc main_arg7 (by decide))).trans (W7_main_arg7 m c),
      (h c _ (mem_uc main_arg8 (by decide))).trans (W7_main_arg8 m c),
      (h c _ (mem_uc main_arg9 (by decide))).trans (W7_main_arg9 m c)⟩) (run_all m ρ)

end Cert.Kernel.Hand

end
-- ==== Proof.KI.Region0.lean ====
/-
  The first graph-convolution layer as a region of @main: what each grid point (batch b, row tile n) finds in
  its buffers and what it leaves.  The projection X[b]·W1 is computed once per batch, at row tile 0, into a
  scratch buffer that the three later tiles of the batch read back; every tile then stores
  max(A[b, tile n]·(X[b]·W1) + b1, 0) into its output block.  The scratch therefore holds, between two
  points of one batch, the projection of that batch's block of X, and anything between two batches.
-/
import proofs.«152775_j41695542509689_1_alg».proof.Proof.Gen.KernelIdeal.Launch
import proofs.«152775_j41695542509689_1_alg».proof.Proof.Gen.KernelIdeal.Skeleton
import proofs.«152775_j41695542509689_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the pipeline stages -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first point of the batch that point `t` belongs to: four row tiles per batch. -/
def bf0 (t : Fin cfg0.N) : Fin cfg0.N := ⟨4 * (t.val / 4), by have := t.isLt; have h : cfg0.N = 128 := N_0; omega⟩

/-! ## The body's accesses: every load and store moves a whole buffer -/

abbrev rX0 : Rect S1x2048x64 := Rect.unit (s := S1x2048x64) ![0, 0, 0] S1x2048x64.size inb_S1x2048x64_S1x2048x64_0_0_0
abbrev rA0 : Rect S1x512x2048 := Rect.unit (s := S1x512x2048) ![0, 0, 0] S1x512x2048.size inb_S1x512x2048_S1x512x2048_0_0_0
abbrev rW0 : Rect S64x32 := Rect.unit (s := S64x32) ![0, 0] S64x32.size inb_S64x32_S64x32_0_0
abbrev rB0 : Rect S1x32 := Rect.unit (s := S1x32) ![0, 0] S1x32.size inb_S1x32_S1x32_0_0
abbrev rO0 : Rect S1x512x32 := Rect.unit (s := S1x512x32) ![0, 0, 0] S1x512x32.size inb_S1x512x32_S1x512x32_0_0_0
abbrev rS0 : Rect S2048x32 := Rect.unit (s := S2048x32) ![0, 0] S2048x32.size inb_S2048x32_S2048x32_0_0

/-- The scratch after the projection is stored: X-block · W1, from the staged blocks of X and W1. -/
def proj0 (x : Vec F S1x2048x64 .f32) (w : Vec F S64x32 .f32) : Vec F S2048x32 .f32 :=
  View.canon [⟨rS0, k0_pay1 (View.ld x rX0) (View.ld w rW0)⟩]

/-- The output block a point stores: from its tile of A, the scratch and the bias row. -/
def out0 (a : Vec F S1x512x2048 .f32) (s : Vec F S2048x32 .f32) (b : Vec F S1x32 .f32) : Vec F S1x512x32 .f32 :=
  View.canon [⟨rO0, k0_pay2 (View.ld a rA0) (View.ld s rS0) (View.ld b rB0)⟩]

/-- The scratch while point `t` computes its output (and after it): the projection of its batch's block of X. -/
def scr0 (c : Dev nD) (t : Fin cfg0.N) : Vec F S2048x32 .f32 :=
  proj0 (iblk0 V c 0 (bf0 t)) (iblk0 V c 2 (bf0 t))

/-! ## The body's branch on the row tile -/

/-- The condition of the body's one conditional: the row-tile coordinate is zero (the scalar chain of the printed
    body substituted). -/
abbrev cond0 (i : grid0.Coords) : Prop :=
  (Scalar.cmpi .ne (Scalar.extui (Scalar.cmpi .eq (BitVec.ofNat 32 (i 1).val) 0#32)) 0#32) = 1#1

/-- It holds at the first row tile of every batch: the points ≡ 0 (mod 4), decided over the grid. -/
theorem hcond0 : ∀ t : Fin cfg0.N, cond0 (grid0.coords t) ↔ t.val % 4 = 0 :=
  (by decide +kernel : ∀ t : Fin grid0.N, cond0 (grid0.coords t) ↔ t.val % 4 = 0)

/-! ## The scratch operand and the other scoped buffers -/

abbrev scM0 : Memref sig .tc .vmem S2048x32 .f32 := Memref.whole cc0_scratch0

/-- The scoped buffers of the core that this region neither stages nor uses: each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class invariant with the scratch operand spelt as an owned memref. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; try rfl

/-! ## Each whole-buffer store covers its buffer -/

/-- The one store into the scratch is through the whole-shape rectangle, so it covers the scratch. -/
theorem coverS0 (p : Vec F S2048x32 .f32) (y : S2048x32.Idx) :
    ∃ pc ∈ ([⟨rS0, p⟩] : List (View.Piece (Elt F) S2048x32 .f32)), y ∈ pc.1.set :=
  View.cover_of_tiled [⟨rS0, p⟩] S2048x32.size (by rfl) y

/-- The one store into the output block is through the whole-shape rectangle, so it covers the block. -/
theorem coverO0 (p : Vec F S1x512x32 .f32) (y : S1x512x32.Idx) :
    ∃ pc ∈ ([⟨rO0, p⟩] : List (View.Piece (Elt F) S1x512x32 .f32)), y ∈ pc.1.set :=
  View.cover_of_tiled [⟨rO0, p⟩] S1x512x32.size (by rfl) y

/-! ## The body's two runs -/

set_option maxHeartbeats 2000000 in
/-- FIRST TILE of a batch. On whole memrefs, the four inputs at read contents and the output block and the scratch at
    anything, the body stores the projection into the scratch, reads it back and stores the output block. -/
theorem sound_first0 (c : Dev nD) (E : Set ℕ) (i : grid0.Coords) (hc : cond0 i)
    (arg2 : Memref sig .tc .vmem S1x2048x64 .f32) (harg2 : arg2.IsWhole)
    (arg3 : Memref sig .tc .vmem S1x512x2048 .f32) (harg3 : arg3.IsWhole)
    (arg4 : Memref sig .tc .vmem S64x32 .f32) (harg4 : arg4.IsWhole)
    (arg5 : Memref sig .tc .vmem S1x32 .f32) (harg5 : arg5.IsWhole)
    (arg6 : Memref sig .tc .vmem S1x512x32 .f32) (harg6 : arg6.IsWhole)
    (arg7 : Memref sig .tc .vmem S2048x32 .f32) (harg7 : arg7.IsWhole)
    (x : Vec F S1x2048x64 .f32) (a : Vec F S1x512x2048 .f32) (w : Vec F S64x32 .f32) (b : Vec F S1x32 .f32)
    (K : PUnit → sProp 𝕄) :
    iprop(owns (c : Thread nD τ) arg2 fullShare x ∗ owns (c : Thread nD τ) arg3 fullShare a
        ∗ owns (c : Thread nD τ) arg4 fullShare w ∗ owns (c : Thread nD τ) arg5 fullShare b
        ∗ (∃ d, owns (c : Thread nD τ) arg6 fullShare d) ∗ (∃ d, owns (c : Thread nD τ) arg7 fullShare d)
        ∗ (iprop(owns (c : Thread nD τ) arg2 fullShare x ∗ owns (c : Thread nD τ) arg3 fullShare a
            ∗ owns (c : Thread nD τ) arg4 fullShare w ∗ owns (c : Thread nD τ) arg5 fullShare b
            ∗ owns (c : Thread nD τ) arg6 fullShare (out0 a (proj0 x w) b)
            ∗ owns (c : Thread nD τ) arg7 fullShare (proj0 x w)) -∗ K ⟨⟩))
      ⊢ wp frame (wpE (defs₀ (F := F)) Variants.none c none) E
          (cc0__gcn1_kernel i arg2 harg2 arg3 harg3 arg4 harg4 arg5 harg5 arg6 harg6 arg7 harg7) K := by
  simp only [cc0__gcn1_kernel_eq_skeleton]; unfold cc0__gcn1_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf2 hf3 hf4 hf5
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.readCov_eq_canon_ld _ _ _ (coverS0 _)]
    exact View.read_writes_eq_canon _ _ _ (coverO0 _)
  iexists _; isplitr
  swap; · iexact H7
  ipureintro
  sl_unfold_run_names
  exact View.read_writes_eq_canon _ _ _ (coverS0 _)

set_option maxHeartbeats 2000000 in
/-- A LATER TILE of a batch. The conditional is skipped: the body reads the scratch as it finds it and stores the
    output block; the scratch and the four inputs are left as they were. -/
theorem sound_rest0 (c : Dev nD) (E : Set ℕ) (i : grid0.Coords) (hc : ¬cond0 i)
    (arg2 : Memref sig .tc .vmem S1x2048x64 .f32) (harg2 : arg2.IsWhole)
    (arg3 : Memref sig .tc .vmem S1x512x2048 .f32) (harg3 : arg3.IsWhole)
    (arg4 : Memref sig .tc .vmem S64x32 .f32) (harg4 : arg4.IsWhole)
    (arg5 : Memref sig .tc .vmem S1x32 .f32) (harg5 : arg5.IsWhole)
    (arg6 : Memref sig .tc .vmem S1x512x32 .f32) (harg6 : arg6.IsWhole)
    (arg7 : Memref sig .tc .vmem S2048x32 .f32) (harg7 : arg7.IsWhole)
    (x : Vec F S1x2048x64 .f32) (a : Vec F S1x512x2048 .f32) (w : Vec F S64x32 .f32) (b : Vec F S1x32 .f32)
    (s : Vec F S2048x32 .f32) (K : PUnit → sProp 𝕄) :
    iprop(owns (c : Thread nD τ) arg2 fullShare x ∗ owns (c : Thread nD τ) arg3 fullShare a
        ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg2 fullShare x ∗ owns (c : Thread nD τ) arg3 fullShare a
            ∗ owns (c : Thread nD τ) arg4 fullShare w ∗ owns (c : Thread nD τ) arg5 fullShare b
            ∗ owns (c : Thread nD τ) arg6 fullShare (out0 a s b)
            ∗ owns (c : Thread nD τ) arg7 fullShare s) -∗ K ⟨⟩))
      ⊢ wp frame (wpE (defs₀ (F := F)) Variants.none c none) E
          (cc0__gcn1_kernel i arg2 harg2 arg3 harg3 arg4 harg4 arg5 harg5 arg6 harg6 arg7 harg7) K := by
  simp only [cc0__gcn1_kernel_eq_skeleton]; unfold cc0__gcn1_kernel_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf2 hf3 hf4 hf5 hf7
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverO0 _)
  iexists f7; isplitr; · ipureintro; rfl
  iexact H7

/-- The invariant before point `n`: between two batches (n ≡ 0 mod 4) the scratch holds anything; inside a batch
    it holds the projection of the batch's block of X. -/
def Phi0 (c : Dev nD) (n : ℕ) (hn : n ≤ cfg0.N) : sProp 𝕄 :=
  if h4 : n % 4 = 0 then Pipeline.ΦA spec0 c
  else iprop(iprop(owns (c : Thread nD τ) scM0 fullShare
      (proj0 (iblk0 V c 0 ⟨4 * (n / 4), by have h : cfg0.N = 128 := N_0; omega⟩) (iblk0 V c 2 ⟨4 * (n / 4), by have h : cfg0.N = 128 := N_0; omega⟩)) ∗ others0 c)
    ∗ (∃ r, prngReg c r))

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 (iblk0 V c 1 t) (scr0 V c t) (iblk0 V c 3 t)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) :
    (dat0 V c).after 4 t = out0 (iblk0 V c 1 t) (scr0 V c t) (iblk0 V c 3 t) := by dsimp only [dat0]

/-! ## What the proof data says, window by window -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]

/-- Each input window's current staging buffer holds its block at every point, fetched there or not: the body leaves
    the block in place, and where the pipeline does not fetch, the block index has not moved. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The invariant, case by case -/

/-- The projection of the block of X (and of W1) staged at point `k`: what the scratch holds through `k`'s batch. -/
def scrAt (c : Dev nD) (k : Fin cfg0.N) : Vec F S2048x32 .f32 := proj0 (iblk0 V c 0 k) (iblk0 V c 2 k)

theorem scr0_eq (c : Dev nD) (t : Fin cfg0.N) : scr0 V c t = scrAt V c (bf0 t) := rfl

/-- Between two batches the invariant is the class's. -/
theorem Phi0_zero (c : Dev nD) (n : ℕ) (hn : n ≤ cfg0.N) (h : n % 4 = 0) : Phi0 V c n hn = Pipeline.ΦA spec0 c := by
  unfold Phi0; rw [dif_pos h]

/-- Inside a batch the scratch holds the projection staged at the batch's first point. -/
theorem Phi0_pos (c : Dev nD) (n : ℕ) (hn : n ≤ cfg0.N) (h : ¬n % 4 = 0) (hk : 4 * (n / 4) < cfg0.N) :
    Phi0 V c n hn = iprop(iprop(owns (c : Thread nD τ) scM0 fullShare (scrAt V c ⟨4 * (n / 4), hk⟩) ∗ others0 c)
      ∗ (∃ r, prngReg c r)) := by
  unfold Phi0; rw [dif_neg h]; rfl

theorem Phi_castSucc (c : Dev nD) (t : Fin cfg0.N) :
    (dat0 V c).Φ t.castSucc = Phi0 V c t.val (Nat.le_of_lt t.isLt) := by
  dsimp only [dat0]; simp only [Fin.coe_castSucc]

theorem Phi_succ (c : Dev nD) (t : Fin cfg0.N) : (dat0 V c).Φ t.succ = Phi0 V c (t.val + 1) t.isLt := rfl

/-- The scratch named by the batch's first point is what the invariant wants after a later tile: the same name while
    the batch goes on (4·⌊(t+1)/4⌋ = 4·⌊t/4⌋), and no name once the batch's last tile is done. -/
theorem Phi0_step (c : Dev nD) (t : Fin cfg0.N) (hk : 4 * (t.val / 4) < cfg0.N) :
    iprop(iprop(owns (c : Thread nD τ) scM0 fullShare (scrAt V c ⟨4 * (t.val / 4), hk⟩) ∗ others0 c) ∗ (∃ r, prngReg c r))
      ⊢ Phi0 V c (t.val + 1) t.isLt := by
  by_cases h1 : (t.val + 1) % 4 = 0
  · rw [Phi0_zero V c _ _ h1, PhiA0_eq]
    iintro ⟨⟨HS, Hoth⟩, Hg⟩
    isplitl [HS Hoth]
    · isplitl [HS]
      · iexists _; iexact HS
      iexact Hoth
    iexact Hg
  · have hk1 : 4 * ((t.val + 1) / 4) < cfg0.N := by
      have := t.isLt; have hN : cfg0.N = 128 := N_0; omega
    rw [Phi0_pos V c _ _ h1 hk1]
    have e : (⟨4 * ((t.val + 1) / 4), hk1⟩ : Fin cfg0.N) = ⟨4 * (t.val / 4), hk⟩ := Fin.ext (by
      show 4 * ((t.val + 1) / 4) = 4 * (t.val / 4); omega)
    rw [e]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 2000000 in
/-- The body at any point. The inputs' memrefs hold their blocks. At a batch's first tile the scratch comes at anything
    and leaves at the projection of this point's blocks, which is the batch's name for it; at a later tile it comes
    under the batch's name, is read, and leaves unchanged. The core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    after0_0, after0_1, after0_2, after0_3, after0_4, Phi_castSucc, Phi_succ, scr0_eq]
  have hN : cfg0.N = 128 := N_0
  have ht := t.isLt
  by_cases h : t.val % 4 = 0
  · have h1 : ¬(t.val + 1) % 4 = 0 := by omega
    have hk1 : 4 * ((t.val + 1) / 4) < cfg0.N := by omega
    rw [Phi0_zero V c _ _ h, PhiA0_eq, Phi0_pos V c _ _ h1 hk1]
    have e1 : bf0 t = t := Fin.ext (by show 4 * (t.val / 4) = t.val; omega)
    have e2 : (⟨4 * ((t.val + 1) / 4), hk1⟩ : Fin cfg0.N) = t := Fin.ext (by
      show 4 * ((t.val + 1) / 4) = t.val; omega)
    rw [e1, e2]
    unfold scrAt
    iintro ⟨⟨⟨HS, Hoth⟩, Hg⟩, Ho, ⟨%d0, H0⟩, ⟨%d1, H1⟩, ⟨%d2, H2⟩, ⟨%d3, H3⟩, ⟨%d4, H4⟩⟩
    iapply (sound_first0 c Set.univ (grid0.coords t) ((hcond0 t).mpr h) _ _ _ _ _ _ _ _ _ _ _ _
      (iblk0 V c 0 t) (iblk0 V c 1 t) (iblk0 V c 2 t) (iblk0 V c 3 t) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4
  · have hk : 4 * (t.val / 4) < cfg0.N := by omega
    rw [Phi0_pos V c _ _ h hk, show bf0 t = ⟨4 * (t.val / 4), hk⟩ from rfl]
    iintro ⟨⟨⟨HS, Hoth⟩, Hg⟩, Ho, ⟨%d0, H0⟩, ⟨%d1, H1⟩, ⟨%d2, H2⟩, ⟨%d3, H3⟩, ⟨%d4, H4⟩⟩
    iapply (sound_rest0 c Set.univ (grid0.coords t) (fun hc => h ((hcond0 t).mp hc)) _ _ _ _ _ _ _ _ _ _ _ _
      (iblk0 V c 0 t) (iblk0 V c 1 t) (iblk0 V c 2 t) (iblk0 V c 3 t) (scrAt V c ⟨4 * (t.val / 4), hk⟩) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hoth Hg]
    · iapply (Phi0_step V c t hk)
      isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4

/-! ## What the region owes the launch -/

/-- The body obligation at every point. -/
theorem body_obligation0 (c : Dev nD) : BodyObligation (dat0 (F := F) V c) (defs₀ (F := F)) Variants.none () Set.univ := by
  intro t
  rw [bigSep_W0, bigSep_W0]
  exact sound_body0 V c t

/-- The class invariant is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- After the last point the invariant gives the class invariant back. -/
theorem hout0 (c : Dev nD) : (dat0 V c).Φ (Fin.last cfg0.N) ⊢ Pipeline.ΦA spec0 c := by
  rw [show (dat0 V c).Φ (Fin.last cfg0.N) = Phi0 V c cfg0.N (Nat.le_refl _) from rfl,
    Phi0_zero V c _ _ (by have hN : cfg0.N = 128 := N_0; omega)]

end Cert.KernelIdeal.Hand

end
-- ==== Proof.KI.Region1.lean ====
/-
  The second graph-convolution layer with the sum pool, as a region of @main.  Per batch b the projection
  H1[b]·W2 is computed once, at row tile 0, into a scratch buffer, and the pooled output block of the batch is
  reset to zero there; every row tile n then adds the column sums of max(A[b, tile n]·(H1[b]·W2) + b2, 0) to
  that block, which the pipeline writes back after the batch's fourth tile.  So inside a batch the scratch holds
  the projection of the batch's block of H1 and the output buffer holds the sum over the tiles done so far.
-/
import proofs.«152775_j41695542509689_1_alg».proof.Proof.Gen.KernelIdeal.Launch
import proofs.«152775_j41695542509689_1_alg».proof.Proof.Gen.KernelIdeal.Skeleton
import proofs.«152775_j41695542509689_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the pipeline stages -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first point of the batch that point `t` belongs to: four row tiles per batch. -/
def bf1 (t : Fin cfg1.N) : Fin cfg1.N := ⟨4 * (t.val / 4), by have := t.isLt; have h : cfg1.N = 128 := N_1; omega⟩

/-! ## The body's accesses: every load and store moves a whole buffer -/

abbrev rH1 : Rect S1x2048x32 := Rect.unit (s := S1x2048x32) ![0, 0, 0] S1x2048x32.size inb_S1x2048x32_S1x2048x32_0_0_0
abbrev rA1 : Rect S1x512x2048 := Rect.unit (s := S1x512x2048) ![0, 0, 0] S1x512x2048.size inb_S1x512x2048_S1x512x2048_0_0_0
abbrev rW1 : Rect S32x32 := Rect.unit (s := S32x32) ![0, 0] S32x32.size inb_S32x32_S32x32_0_0
abbrev rB1 : Rect S1x32 := Rect.unit (s := S1x32) ![0, 0] S1x32.size inb_S1x32_S1x32_0_0
abbrev rO1 : Rect S1x1x32 := Rect.unit (s := S1x1x32) ![0, 0, 0] S1x1x32.size inb_S1x1x32_S1x1x32_0_0_0
abbrev rS1 : Rect S2048x32 := Rect.unit (s := S2048x32) ![0, 0] S2048x32.size inb_S2048x32_S2048x32_0_0

/-- The scratch after the projection is stored: H1-block · W2, from the staged blocks of H1 and W2. -/
def proj1 (h : Vec F S1x2048x32 .f32) (w : Vec F S32x32 .f32) : Vec F S2048x32 .f32 :=
  View.canon [⟨rS1, k1_pay1 (View.ld h rH1) (View.ld w rW1)⟩]

/-- The pooled block as the batch's first tile resets it: zero. -/
def zero1 : Vec F S1x1x32 .f32 := View.canon [⟨rO1, k1_pay2 (F := F)⟩]

/-- The pooled block after one tile's update: what it held plus the tile's column sums. -/
def step1 (a : Vec F S1x512x2048 .f32) (s : Vec F S2048x32 .f32) (b : Vec F S1x32 .f32) (prev : Vec F S1x1x32 .f32) : Vec F S1x1x32 .f32 :=
  View.canon [⟨rO1, k1_pay3 (View.ld a rA1) (View.ld s rS1) (View.ld b rB1) (View.ld prev rO1)⟩]

/-- The scratch while point `t` computes (and after it): the projection of its batch's block of H1. -/
def scr1 (c : Dev nD) (t : Fin cfg1.N) : Vec F S2048x32 .f32 :=
  proj1 (iblk1 V c 0 (bf1 t)) (iblk1 V c 2 (bf1 t))

/-- The pooled output buffer after point `n`: the batch's first tile starts from zero, a later tile from what
    the tile before it left. -/
def acc1 (c : Dev nD) : (n : ℕ) → (hn : n < cfg1.N) → Vec F S1x1x32 .f32
  | 0, hn => step1 (iblk1 V c 1 ⟨0, hn⟩) (scr1 V c ⟨0, hn⟩) (iblk1 V c 3 ⟨0, hn⟩) zero1
  | n + 1, hn => step1 (iblk1 V c 1 ⟨n + 1, hn⟩) (scr1 V c ⟨n + 1, hn⟩) (iblk1 V c 3 ⟨n + 1, hn⟩)
      (if (n + 1) % 4 = 0 then zero1 else acc1 c n (Nat.lt_of_succ_lt hn))

theorem acc1_zero (c : Dev nD) (hn : 0 < cfg1.N) :
    acc1 V c 0 hn = step1 (iblk1 V c 1 ⟨0, hn⟩) (scr1 V c ⟨0, hn⟩) (iblk1 V c 3 ⟨0, hn⟩) zero1 := rfl

theorem acc1_succ (c : Dev nD) (n : ℕ) (hn : n + 1 < cfg1.N) :
    acc1 V c (n + 1) hn = step1 (iblk1 V c 1 ⟨n + 1, hn⟩) (scr1 V c ⟨n + 1, hn⟩) (iblk1 V c 3 ⟨n + 1, hn⟩)
      (if (n + 1) % 4 = 0 then zero1 else acc1 V c n (Nat.lt_of_succ_lt hn)) := rfl

/-! ## The scratch operand and the other scoped buffers -/

abbrev scM1 : Memref sig .tc .vmem S2048x32 .f32 := Memref.whole cc1_scratch0

/-- The scoped buffers of the core that this region neither stages nor uses (region 0's staging buffers and
    scratch): each whole at some contents.  `scopedRest1_eq` lists them before this region's own scratch. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

namespace R1

/-! ## The branch on the row tile -/

/-- The condition of the body's conditional: the row-tile coordinate is zero. -/
abbrev cond1 (i : grid1.Coords) : Prop :=
  (Scalar.cmpi .ne (Scalar.extui (Scalar.cmpi .eq (BitVec.ofNat 32 (i 1).val) 0#32)) 0#32) = 1#1

/-- It holds exactly at the first tile of each batch. -/
theorem hcond1 : ∀ t : Fin cfg1.N, cond1 (grid1.coords t) ↔ t.val % 4 = 0 :=
  (by decide +kernel : ∀ t : Fin grid1.N, cond1 (grid1.coords t) ↔ t.val % 4 = 0)

/-! ## Whole-buffer rectangles: zero offsets, and a first piece that covers -/

theorem zoff2 : (![0, 0] : Fin 2 → ℕ) = fun _ => 0 := funext fun a => by fin_cases a <;> rfl
theorem zoff3 : (![0, 0, 0] : Fin 3 → ℕ) = fun _ => 0 := funext fun a => by fin_cases a <;> rfl

/-- A list of pieces whose first is stored through the whole-buffer rectangle covers the buffer. -/
theorem cover_head {S : Shape} {e : EltTy} {off : Fin S.rank → ℕ} (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self, View.mem_set_unit_zero h inb y⟩

/-! ## The kernel function on whole memrefs -/

set_option maxHeartbeats 2000000 in
/-- At a batch's first tile: the projection goes to the scratch, the pooled buffer is reset to zero, read back and
    updated with the tile's column sums. -/
theorem sound_first1 (c : Dev nD) (E : Set ℕ) (i : grid1.Coords) (hc : cond1 i)
    (arg2 : Memref sig .tc .vmem S1x2048x32 .f32) (harg2 : arg2.IsWhole) (arg3 : Memref sig .tc .vmem S1x512x2048 .f32) (harg3 : arg3.IsWhole)
    (arg4 : Memref sig .tc .vmem S32x32 .f32) (harg4 : arg4.IsWhole) (arg5 : Memref sig .tc .vmem S1x32 .f32) (harg5 : arg5.IsWhole)
    (arg6 : Memref sig .tc .vmem S1x1x32 .f32) (harg6 : arg6.IsWhole) (arg7 : Memref sig .tc .vmem S2048x32 .f32) (harg7 : arg7.IsWhole)
    (h : Vec F S1x2048x32 .f32) (a : Vec F S1x512x2048 .f32) (w : Vec F S32x32 .f32) (b : Vec F S1x32 .f32)
    (K : PUnit → sProp 𝕄) :
    iprop(owns (c : Thread nD τ) arg2 fullShare h ∗ owns (c : Thread nD τ) arg3 fullShare a ∗ owns (c : Thread nD τ) arg4 fullShare w
        ∗ owns (c : Thread nD τ) arg5 fullShare b ∗ (∃ d, owns (c : Thread nD τ) arg6 fullShare d) ∗ (∃ d, owns (c : Thread nD τ) arg7 fullShare d)
        ∗ (iprop(owns (c : Thread nD τ) arg2 fullShare h ∗ owns (c : Thread nD τ) arg3 fullShare a ∗ owns (c : Thread nD τ) arg4 fullShare w
            ∗ owns (c : Thread nD τ) arg5 fullShare b ∗ owns (c : Thread nD τ) arg6 fullShare (step1 a (proj1 h w) b zero1)
            ∗ owns (c : Thread nD τ) arg7 fullShare (proj1 h w)) -∗ K ⟨⟩))
      ⊢ wp frame (wpE (defs₀ (F := F)) Variants.none c none) E
          (cc1__gcn2_pool_kernel i arg2 harg2 arg3 harg3 arg4 harg4 arg5 harg5 arg6 harg6 arg7 harg7) K := by
  simp only [cc1__gcn2_pool_kernel_eq_skeleton]; unfold cc1__gcn2_pool_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf2 hf3 hf4 hf5
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (cover_head zoff3 _ _ _), View.canon_cons_unit_zero (S := S1x1x32) zoff3]
    unfold step1
    rw [View.canon_unit_zero (S := S1x1x32) zoff3]
    rw [View.readCov_eq_canon_ld _ _ _ (cover_head zoff2 _ _ _), View.readCov_eq_canon_ld _ _ _ (cover_head zoff3 _ _ _)]
    rfl
  iexists _; isplitr
  swap; · iexact H7
  ipureintro
  sl_unfold_run_names
  exact View.read_writes_eq_canon _ _ _ (cover_head zoff2 _ _ _)

set_option maxHeartbeats 2000000 in
/-- At a later tile of a batch: the scratch is read, the pooled buffer is read and updated. -/
theorem sound_other1 (c : Dev nD) (E : Set ℕ) (i : grid1.Coords) (hc : ¬cond1 i)
    (arg2 : Memref sig .tc .vmem S1x2048x32 .f32) (harg2 : arg2.IsWhole) (arg3 : Memref sig .tc .vmem S1x512x2048 .f32) (harg3 : arg3.IsWhole)
    (arg4 : Memref sig .tc .vmem S32x32 .f32) (harg4 : arg4.IsWhole) (arg5 : Memref sig .tc .vmem S1x32 .f32) (harg5 : arg5.IsWhole)
    (arg6 : Memref sig .tc .vmem S1x1x32 .f32) (harg6 : arg6.IsWhole) (arg7 : Memref sig .tc .vmem S2048x32 .f32) (harg7 : arg7.IsWhole)
    (h : Vec F S1x2048x32 .f32) (a : Vec F S1x512x2048 .f32) (w : Vec F S32x32 .f32) (b : Vec F S1x32 .f32)
    (prev : Vec F S1x1x32 .f32) (s : Vec F S2048x32 .f32)
    (K : PUnit → sProp 𝕄) :
    iprop(owns (c : Thread nD τ) arg2 fullShare h ∗ owns (c : Thread nD τ) arg3 fullShare a ∗ owns (c : Thread nD τ) arg4 fullShare w
        ∗ owns (c : Thread nD τ) arg5 fullShare b ∗ owns (c : Thread nD τ) arg6 fullShare prev ∗ owns (c : Thread nD τ) arg7 fullShare s
        ∗ (iprop(owns (c : Thread nD τ) arg2 fullShare h ∗ owns (c : Thread nD τ) arg3 fullShare a ∗ owns (c : Thread nD τ) arg4 fullShare w
            ∗ owns (c : Thread nD τ) arg5 fullShare b ∗ owns (c : Thread nD τ) arg6 fullShare (step1 a s b prev)
            ∗ owns (c : Thread nD τ) arg7 fullShare s) -∗ K ⟨⟩))
      ⊢ wp frame (wpE (defs₀ (F := F)) Variants.none c none) E
          (cc1__gcn2_pool_kernel i arg2 harg2 arg3 harg3 arg4 harg4 arg5 harg5 arg6 harg6 arg7 harg7) K := by
  simp only [cc1__gcn2_pool_kernel_eq_skeleton]; unfold cc1__gcn2_pool_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf2 hf3 hf4 hf5 hf6 hf7
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_head zoff3 _ _ _)
  iexists f7; isplitr; · ipureintro; rfl
  iexact H7

end R1

open R1

/-- The class invariant with the scratch operand spelt as an owned memref (the scratch is the LAST of the scoped
    buffers this region does not stage). -/
theorem PhiA1_eq (c : Dev nD) :
    (Pipeline.ΦA spec1 c : sProp 𝕄)
      = iprop(iprop(others1 c ∗ (∃ d, owns (c : Thread nD τ) scM1 fullShare d)) ∗ (∃ r, prngReg c r)) := by
  unfold Pipeline.ΦA others1; rw [scopedRest1_eq]; simp only [scM1, owns_whole]
  refine BI.equiv_iff.mp ⟨(?_ : (_ : sProp 𝕄) ⊢ _), (?_ : (_ : sProp 𝕄) ⊢ _)⟩
  · iintro ⟨⟨H1, H2, H3, H4, H5, H6, H7, H8, H9, H10⟩, Hg⟩
    isplitr [Hg]
    · isplitr [H10]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      · iexact H10
    · iexact Hg
  · iintro ⟨⟨⟨H1, H2, H3, H4, H5, H6, H7, H8, H9⟩, H10⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · iexact Hg

/-- The invariant before point `n`: between two batches (n ≡ 0 mod 4) the scratch holds anything; inside a batch
    it holds the projection of the batch's block of H1. -/
def Phi1 (c : Dev nD) (n : ℕ) (hn : n ≤ cfg1.N) : sProp 𝕄 :=
  if h4 : n % 4 = 0 then Pipeline.ΦA spec1 c
  else iprop(iprop(others1 c ∗ owns (c : Thread nD τ) scM1 fullShare
      (proj1 (iblk1 V c 0 ⟨4 * (n / 4), by have h : cfg1.N = 128 := N_1; omega⟩) (iblk1 V c 2 ⟨4 * (n / 4), by have h : cfg1.N = 128 := N_1; omega⟩)))
    ∗ (∃ r, prngReg c r))

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) : (dat1 V c).after 4 t = acc1 V c t.val t.isLt := by dsimp only [dat1]

namespace R1

/-! ## What the body finds in each staging buffer -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]

/-- Each input window's current staging buffer holds its block at every point, fetched there or not: where it is
    not fetched its block index has not moved. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- Inside a batch (not at its first tile) the pooled output's current staging buffer holds what the tile before
    left: the point is not the first, and the buffer was not written back in between (a write-back only follows a
    batch's fourth tile). -/
theorem before1_4 (c : Dev nD) (t : Fin cfg1.N) (h4 : ¬t.val % 4 = 0) (d) :
    (dat1 V c).before 4 t d = acc1 V c (t.val - 1) (Nat.lt_of_le_of_lt (Nat.sub_le _ _) t.isLt) := by
  rw [Dat.before_out_kept _ 4 rfl t (by omega)
    (Bool.eq_false_iff.mpr fun h => by have := (flush1_4 _).mp h; dsimp only at this; omega)
    (fun _ => rfl) (fun _ _ => rfl)]
  dsimp only [dat1]

/-! ## The accumulator and the invariant, point by point -/

/-- At a batch's first tile the batch's first point is the point itself. -/
theorem bf1_first (t : Fin cfg1.N) (h4 : t.val % 4 = 0) : bf1 t = t :=
  Fin.ext (by unfold bf1; dsimp only; omega)

/-- The accumulator after a batch's first tile: one update of zero. -/
theorem acc1_first (c : Dev nD) (t : Fin cfg1.N) (h4 : t.val % 4 = 0) :
    acc1 V c t.val t.isLt
      = step1 (iblk1 V c 1 t) (proj1 (iblk1 V c 0 t) (iblk1 V c 2 t)) (iblk1 V c 3 t) zero1 := by
  obtain ⟨n, hn⟩ := t
  cases n with
  | zero => rw [acc1_zero]; unfold scr1; rw [bf1_first ⟨0, hn⟩ h4]
  | succ n => rw [acc1_succ, if_pos h4]; unfold scr1; rw [bf1_first ⟨n + 1, hn⟩ h4]

/-- The accumulator after a later tile: one update of what the tile before left. -/
theorem acc1_other (c : Dev nD) (t : Fin cfg1.N) (h4 : ¬t.val % 4 = 0) :
    acc1 V c t.val t.isLt
      = step1 (iblk1 V c 1 t) (scr1 V c t) (iblk1 V c 3 t)
          (acc1 V c (t.val - 1) (Nat.lt_of_le_of_lt (Nat.sub_le _ _) t.isLt)) := by
  obtain ⟨n, hn⟩ := t
  cases n with
  | zero => exact absurd (Nat.zero_mod 4) h4
  | succ n => rw [acc1_succ, if_neg h4]; rfl

/-- Between two batches the invariant is the class's. -/
theorem Phi1_pos (c : Dev nD) (n : ℕ) (hn : n ≤ cfg1.N) (h4 : n % 4 = 0) : Phi1 V c n hn = Pipeline.ΦA spec1 c := by
  unfold Phi1; rw [dif_pos h4]

/-- Before a later tile of a batch the scratch holds the batch's projection. -/
theorem Phi1_at_other (c : Dev nD) (t : Fin cfg1.N) (h4 : ¬t.val % 4 = 0) :
    Phi1 V c t.val (Nat.le_of_lt t.isLt)
      = iprop(iprop(others1 c ∗ owns (c : Thread nD τ) scM1 fullShare (scr1 V c t)) ∗ (∃ r, prngReg c r)) := by
  unfold Phi1; rw [dif_neg h4]; rfl

/-- After a batch's first tile the scratch holds the projection computed there. -/
theorem Phi1_succ_first (c : Dev nD) (t : Fin cfg1.N) (h4 : t.val % 4 = 0) :
    Phi1 V c (t.val + 1) t.isLt
      = iprop(iprop(others1 c ∗ owns (c : Thread nD τ) scM1 fullShare (proj1 (iblk1 V c 0 t) (iblk1 V c 2 t))) ∗ (∃ r, prngReg c r)) := by
  have hN : cfg1.N = 128 := N_1
  have hlt := t.isLt
  have e : (⟨4 * ((t.val + 1) / 4), by omega⟩ : Fin cfg1.N) = t := Fin.ext (by dsimp only; omega)
  unfold Phi1; rw [dif_neg (by omega), e]

/-- After a later tile that is not the batch's last the scratch still holds the batch's projection. -/
theorem Phi1_succ_other (c : Dev nD) (t : Fin cfg1.N) (h4 : ¬t.val % 4 = 0) (h5 : ¬(t.val + 1) % 4 = 0) :
    Phi1 V c (t.val + 1) t.isLt
      = iprop(iprop(others1 c ∗ owns (c : Thread nD τ) scM1 fullShare (scr1 V c t)) ∗ (∃ r, prngReg c r)) := by
  have hN : cfg1.N = 128 := N_1
  have hlt := t.isLt
  have e : (⟨4 * ((t.val + 1) / 4), by omega⟩ : Fin cfg1.N) = bf1 t := Fin.ext (by unfold bf1; dsimp only; omega)
  unfold Phi1; rw [dif_neg h5, e]; rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4000000 in
/-- The body at any point.  The inputs' memrefs hold their blocks.  At a batch's first tile the invariant hands the
    scratch at anything and takes it back at the projection; the pooled buffer is found at anything.  At a later
    tile the scratch is handed at the projection and the pooled buffer holds what the tile before left; after the
    batch's last tile the scratch's contents are forgotten. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    show (dat1 V c).Φ t.castSucc = Phi1 V c t.val (Nat.le_of_lt t.isLt) from rfl,
    show (dat1 V c).Φ t.succ = Phi1 V c (t.val + 1) t.isLt from rfl,
    after1_0, after1_1, after1_2, after1_3, after1_4]
  have hN : t.val < 128 := lt_of_lt_of_eq t.isLt (show cfg1.N = 128 from N_1)
  by_cases h4 : t.val % 4 = 0
  · rw [Phi1_pos V c _ _ h4, PhiA1_eq, Phi1_succ_first V c t h4, acc1_first V c t h4]
    iintro ⟨⟨⟨Hot, ⟨%ds, HS⟩⟩, Hg⟩, Ho, ⟨%d0, H0⟩, ⟨%d1, H1⟩, ⟨%d2, H2⟩, ⟨%d3, H3⟩, ⟨%d4, H4⟩⟩
    iapply (sound_first1 c Set.univ (grid1.coords t) ((hcond1 t).mpr h4)
      (win1_0.stage (cfg1.slots t 0)) (hstage1_0 ((cfg1.slots t 0).cast nbuf1_0))
      (win1_1.stage (cfg1.slots t 1)) (hstage1_1 ((cfg1.slots t 1).cast nbuf1_1))
      (win1_2.stage (cfg1.slots t 2)) (hstage1_2 ((cfg1.slots t 2).cast nbuf1_2))
      (win1_3.stage (cfg1.slots t 3)) (hstage1_3 ((cfg1.slots t 3).cast nbuf1_3))
      (win1_4.stage (cfg1.slots t 4)) (hstage1_4 ((cfg1.slots t 4).cast nbuf1_4))
      (Memref.whole cc1_scratch0) (Memref.isWhole_whole _)
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, H4, HS⟩
    isplitl [Hot HS Hg]
    · isplitr [Hg]
      · isplitl [Hot]; · iexact Hot
        iexact HS
      · iexact Hg
    isplitl [Ho]; · iexact Ho
    isplitl [H0]; · iexact H0
    isplitl [H1]; · iexact H1
    isplitl [H2]; · iexact H2
    isplitl [H3]; · iexact H3
    iexact H4
  · rw [Phi1_at_other V c t h4, acc1_other V c t h4]
    simp only [before1_4 V c t h4]
    by_cases h5 : (t.val + 1) % 4 = 0
    · rw [Phi1_pos V c _ _ h5, PhiA1_eq]
      iintro ⟨⟨⟨Hot, HS⟩, Hg⟩, Ho, ⟨%d0, H0⟩, ⟨%d1, H1⟩, ⟨%d2, H2⟩, ⟨%d3, H3⟩, ⟨%d4, H4⟩⟩
      iapply (sound_other1 c Set.univ (grid1.coords t) (fun h => h4 ((hcond1 t).mp h))
        (win1_0.stage (cfg1.slots t 0)) (hstage1_0 ((cfg1.slots t 0).cast nbuf1_0))
        (win1_1.stage (cfg1.slots t 1)) (hstage1_1 ((cfg1.slots t 1).cast nbuf1_1))
        (win1_2.stage (cfg1.slots t 2)) (hstage1_2 ((cfg1.slots t 2).cast nbuf1_2))
        (win1_3.stage (cfg1.slots t 3)) (hstage1_3 ((cfg1.slots t 3).cast nbuf1_3))
        (win1_4.stage (cfg1.slots t 4)) (hstage1_4 ((cfg1.slots t 4).cast nbuf1_4))
        (Memref.whole cc1_scratch0) (Memref.isWhole_whole _)
        (iblk1 V c 0 t) (iblk1 V c 1 t) (iblk1 V c 2 t) (iblk1 V c 3 t)
        (acc1 V c (t.val - 1) (Nat.lt_of_le_of_lt (Nat.sub_le _ _) t.isLt)) (scr1 V c t) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hot HS Hg]
      · isplitr [Hg]
        · isplitl [Hot]; · iexact Hot
          iexists _; iexact HS
        · iexact Hg
      isplitl [Ho]; · iexact Ho
      isplitl [H0]; · iexact H0
      isplitl [H1]; · iexact H1
      isplitl [H2]; · iexact H2
      isplitl [H3]; · iexact H3
      iexact H4
    · rw [Phi1_succ_other V c t h4 h5]
      iintro ⟨⟨⟨Hot, HS⟩, Hg⟩, Ho, ⟨%d0, H0⟩, ⟨%d1, H1⟩, ⟨%d2, H2⟩, ⟨%d3, H3⟩, ⟨%d4, H4⟩⟩
      iapply (sound_other1 c Set.univ (grid1.coords t) (fun h => h4 ((hcond1 t).mp h))
        (win1_0.stage (cfg1.slots t 0)) (hstage1_0 ((cfg1.slots t 0).cast nbuf1_0))
        (win1_1.stage (cfg1.slots t 1)) (hstage1_1 ((cfg1.slots t 1).cast nbuf1_1))
        (win1_2.stage (cfg1.slots t 2)) (hstage1_2 ((cfg1.slots t 2).cast nbuf1_2))
        (win1_3.stage (cfg1.slots t 3)) (hstage1_3 ((cfg1.slots t 3).cast nbuf1_3))
        (win1_4.stage (cfg1.slots t 4)) (hstage1_4 ((cfg1.slots t 4).cast nbuf1_4))
        (Memref.whole cc1_scratch0) (Memref.isWhole_whole _)
        (iblk1 V c 0 t) (iblk1 V c 1 t) (iblk1 V c 2 t) (iblk1 V c 3 t)
        (acc1 V c (t.val - 1) (Nat.lt_of_le_of_lt (Nat.sub_le _ _) t.isLt)) (scr1 V c t) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hot HS Hg]
      · isplitr [Hg]
        · isplitl [Hot]; · iexact Hot
          iexact HS
        · iexact Hg
      isplitl [Ho]; · iexact Ho
      isplitl [H0]; · iexact H0
      isplitl [H1]; · iexact H1
      isplitl [H2]; · iexact H2
      isplitl [H3]; · iexact H3
      iexact H4

end R1

/-! ## What the region owes the launch -/

/-- The body obligation at every point. -/
theorem body_obligation1 (c : Dev nD) : BodyObligation (dat1 (F := F) V c) (defs₀ (F := F)) Variants.none () Set.univ := by
  intro t
  rw [bigSep_W1, bigSep_W1]
  exact sound_body1 V c t

/-- The class invariant is the invariant before the first point. -/
theorem hin1 (c : Dev nD) : Pipeline.ΦA spec1 c ⊢ (dat1 V c).Φ 0 := by
  rw [show (dat1 V c).Φ 0 = Phi1 V c 0 (Nat.zero_le _) from rfl, Phi1_pos V c 0 _ (Nat.zero_mod 4)]

/-- After the last point the invariant gives the class invariant back. -/
theorem hout1 (c : Dev nD) : (dat1 V c).Φ (Fin.last cfg1.N) ⊢ Pipeline.ΦA spec1 c := by
  have hN : cfg1.N = 128 := N_1
  rw [show (dat1 V c).Φ (Fin.last cfg1.N) = Phi1 V c cfg1.N (Nat.le_refl _) from rfl, Phi1_pos V c _ _ (by omega)]

end Cert.KernelIdeal.Hand

end
-- ==== Proof.KI.Run.lean ====
/-
  The whole run of @main: the contents of every buffer of a core at each boundary between two items of @main
  (a stretch of host operations, or one of the two kernel regions), folded from the launch memory; the two
  regions as segments over those contents; and the run itself, whose final state holds every buffer at the
  fold's last stage.  The frame claim (the arguments end as launched) and the value of the result are both
  read off that last stage.
-/
import proofs.«152775_j41695542509689_1_alg».proof.Proof.Gen.KernelIdeal.Launch
import proofs.«152775_j41695542509689_1_alg».proof.Proof.Gen.KernelIdeal.Skeleton
import proofs.«152775_j41695542509689_1_alg».proof.Proof.Gen.KernelIdeal.Points
import proofs.«152775_j41695542509689_1_alg».proof.Proof.Gen.KernelIdeal.Regions
import proofs.«152775_j41695542509689_1_alg».proof.Proof.KI.Region0
import proofs.«152775_j41695542509689_1_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the bias row of layer 1 is reshaped (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline's write-backs leave, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the bias row of layer 2 is reshaped (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
/-- After the dense head's three stretches of host operations. -/
abbrev W5 : Dev nD → Valuation τ sig (Elt F) := fun c => StableHlo.after hostOps2 (W4 m c)
abbrev W6 : Dev nD → Valuation τ sig (Elt F) := fun c => StableHlo.after hostOps2_1 (W5 m c)
abbrev W7 : Dev nD → Valuation τ sig (Elt F) := fun c => StableHlo.after hostOps2_2 (W6 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

/-! ## The proof data of both pipelines, each at its region's entry contents -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

/-! ## What each item leaves unchanged

A stretch of host operations leaves every buffer it does not write; a region leaves every buffer that is no
window's array, and the array of an INPUT window as well (the pipeline only reads it). -/

/-- At region 0's exit each of its arrays holds what the pipeline leaves, every other buffer what it held at entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- The same at region 1's exit. -/
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- The first stretch writes the reshaped bias row of layer 1 only. -/
theorem W1_of (c : Dev nD) (r : Ref sig .tc) (h : r ∉ hostOps0_W) :
    W1 m c (Proc.devRef .tc r) = m ((c : Thread nD τ).loc r) :=
  StableHlo.after_of_writes_sub hostOps0 _ hostOps0_writes h
/-- The second stretch writes the reshaped bias row of layer 2 only. -/
theorem W3_of (c : Dev nD) (r : Ref sig .tc) (h : r ∉ hostOps1_W) :
    W3 m c (Proc.devRef .tc r) = W2 m c (Proc.devRef .tc r) :=
  StableHlo.after_of_writes_sub hostOps1 _ hostOps1_writes h
/-- The dense head's three stretches write their own intermediate values and the result only. -/
theorem W7_of (c : Dev nD) (r : Ref sig .tc) (h2 : r ∉ hostOps2_W) (h21 : r ∉ hostOps2_1_W) (h22 : r ∉ hostOps2_2_W) :
    W7 m c (Proc.devRef .tc r) = W4 m c (Proc.devRef .tc r) :=
  (StableHlo.after_of_writes_sub hostOps2_2 _ hostOps2_2_writes h22).trans <|
    (StableHlo.after_of_writes_sub hostOps2_1 _ hostOps2_1_writes h21).trans <|
      StableHlo.after_of_writes_sub hostOps2 _ hostOps2_writes h2
/-- Region 0 leaves the array of an input window as it found it: the write-backs folded over an input are none. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
/-- Region 1 likewise. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))

/-! ## The thread state between two items -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (each region's
    invariant takes it in and gives it back) and the core owing nothing. -/
abbrev R (c : Dev nD) : sProp 𝕄 := iprop((∃ r, prngReg c r) ∗ ∃ W, owes (c : Thread nD τ) (0 : CellTallies nD τ sig Unit) W)
/-- A stretch of host operations as a segment: over the unscoped buffers from the contents `W`, `R` riding along;
    it ends with those buffers at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without what the core owes: every unscoped buffer at the last stage, the generator
    register at some state. -/
abbrev Tₙ (c : Dev nD) : sProp 𝕄 := iprop(StableHlo.held (c : Thread nD τ) (Pipeline.ucRefs τ sig) (W7 m c) ∗ ∃ r, prngReg c r)

/-- The last stretch's exit state is the last thread state beside the core owing nothing. -/
theorem hlast (c : Dev nD) :
    (iprop(StableHlo.held (c : Thread nD τ) (Pipeline.ucRefs τ sig) (W7 m c) ∗ R c) : sProp 𝕄)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The two regions as segments -/

set_option backward.isDefEq.respectTransparency.types false in
/-- Region 0 over the thread state: entered from every unscoped buffer at `W1`, left at `W2`.  Its arrays are split
    out of the unscoped buffers and put back at the exit contents; the generator register and the scoped buffers
    no window stages make the class invariant, which is the region's invariant before its first point, and the
    invariant after its last point gives them back; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V1 m) c).Φ 0 from rfl]
    refine BIBase.Entails.trans ?_ (hin0 (V1 m) c)
    unfold Pipeline.ΦA
    iintro ⟨Hp, -, Hr⟩
    isplitl [Hr]; · iexact Hr
    iexact Hp
  hout c := by
    rw [Pipeline.ownSems0_none, show (pdats m 0 c).Φ (Fin.last _) = (dat0 (V1 m) c).Φ (Fin.last cfg0.N) from rfl]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`, in the same way. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    refine BIBase.Entails.trans ?_ (hin1 (V3 m) c)
    unfold Pipeline.ΦA
    iintro ⟨Hp, -, Hr⟩
    isplitl [Hr]; · iexact Hr
    iexact Hp
  hout c := by
    rw [Pipeline.ownSems0_none, show (pdats m 1 c).Φ (Fin.last _) = (dat1 (V3 m) c).Φ (Fin.last cfg1.N) from rfl]
    refine BIBase.Entails.trans (hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments -/

/-- @main's seven items in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)) ]

/-- @main is the run of the segments: it is the chain of its seven items, and so is the segments' run. -/
theorem main_run (c : Dev nD) : main (F := F) c = Pipeline.Seg.run (segs m) := by
  rw [main_chain c, Pipeline.Seg.run_eq_chain]
  rfl

/-! ## The run -/

set_option backward.isDefEq.respectTransparency.types false in
/-- Every weakly fair execution of @main from memory `m` with zero counters terminates, and in every final
    state each unscoped buffer of each core holds the fold's last stage. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => hlast m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- No item of @main writes an argument: at the last stage each argument's buffer is as launched. -/
theorem W7_main_arg0 (c : Dev nD) : W7 m c (Proc.devRef .tc main_arg0) = m ((c : Thread nD τ).loc main_arg0) :=
  (W7_of m c main_arg0 (by decide) (by decide) (by decide)).trans <| (W4_of_ne m c main_arg0 (by decide)).trans <|
    (W3_of m c main_arg0 (by decide)).trans <| (W2_in m c 0 rfl).trans <| W1_of m c main_arg0 (by decide)
theorem W7_main_arg1 (c : Dev nD) : W7 m c (Proc.devRef .tc main_arg1) = m ((c : Thread nD τ).loc main_arg1) :=
  (W7_of m c main_arg1 (by decide) (by decide) (by decide)).trans <| (W4_in m c 1 rfl).trans <|
    (W3_of m c main_arg1 (by decide)).trans <| (W2_in m c 1 rfl).trans <| W1_of m c main_arg1 (by decide)
theorem W7_main_arg2 (c : Dev nD) : W7 m c (Proc.devRef .tc main_arg2) = m ((c : Thread nD τ).loc main_arg2) :=
  (W7_of m c main_arg2 (by decide) (by decide) (by decide)).trans <| (W4_of_ne m c main_arg2 (by decide)).trans <|
    (W3_of m c main_arg2 (by decide)).trans <| (W2_in m c 2 rfl).trans <| W1_of m c main_arg2 (by decide)
theorem W7_main_arg3 (c : Dev nD) : W7 m c (Proc.devRef .tc main_arg3) = m ((c : Thread nD τ).loc main_arg3) :=
  (W7_of m c main_arg3 (by decide) (by decide) (by decide)).trans <| (W4_of_ne m c main_arg3 (by decide)).trans <|
    (W3_of m c main_arg3 (by decide)).trans <| (W2_of_ne m c main_arg3 (by decide)).trans <| W1_of m c main_arg3 (by decide)
theorem W7_main_arg4 (c : Dev nD) : W7 m c (Proc.devRef .tc main_arg4) = m ((c : Thread nD τ).loc main_arg4) :=
  (W7_of m c main_arg4 (by decide) (by decide) (by decide)).trans <| (W4_in m c 2 rfl).trans <|
    (W3_of m c main_arg4 (by decide)).trans <| (W2_of_ne m c main_arg4 (by decide)).trans <| W1_of m c main_arg4 (by decide)
theorem W7_main_arg5 (c : Dev nD) : W7 m c (Proc.devRef .tc main_arg5) = m ((c : Thread nD τ).loc main_arg5) :=
  (W7_of m c main_arg5 (by decide) (by decide) (by decide)).trans <| (W4_of_ne m c main_arg5 (by decide)).trans <|
    (W3_of m c main_arg5 (by decide)).trans <| (W2_of_ne m c main_arg5 (by decide)).trans <| W1_of m c main_arg5 (by decide)
theorem W7_main_arg6 (c : Dev nD) : W7 m c (Proc.devRef .tc main_arg6) = m ((c : Thread nD τ).loc main_arg6) :=
  (W7_of m c main_arg6 (by decide) (by decide) (by decide)).trans <| (W4_of_ne m c main_arg6 (by decide)).trans <|
    (W3_of m c main_arg6 (by decide)).trans <| (W2_of_ne m c main_arg6 (by decide)).trans <| W1_of m c main_arg6 (by decide)
theorem W7_main_arg7 (c : Dev nD) : W7 m c (Proc.devRef .tc main_arg7) = m ((c : Thread nD τ).loc main_arg7) :=
  (W7_of m c main_arg7 (by decide) (by decide) (by decide)).trans <| (W4_of_ne m c main_arg7 (by decide)).trans <|
    (W3_of m c main_arg7 (by decide)).trans <| (W2_of_ne m c main_arg7 (by decide)).trans <| W1_of m c main_arg7 (by decide)
theorem W7_main_arg8 (c : Dev nD) : W7 m c (Proc.devRef .tc main_arg8) = m ((c : Thread nD τ).loc main_arg8) :=
  (W7_of m c main_arg8 (by decide) (by decide) (by decide)).trans <| (W4_of_ne m c main_arg8 (by decide)).trans <|
    (W3_of m c main_arg8 (by decide)).trans <| (W2_of_ne m c main_arg8 (by decide)).trans <| W1_of m c main_arg8 (by decide)
theorem W7_main_arg9 (c : Dev nD) : W7 m c (Proc.devRef .tc main_arg9) = m ((c : Thread nD τ).loc main_arg9) :=
  (W7_of m c main_arg9 (by decide) (by decide) (by decide)).trans <| (W4_of_ne m c main_arg9 (by decide)).trans <|
    (W3_of m c main_arg9 (by decide)).trans <| (W2_of_ne m c main_arg9 (by decide)).trans <| W1_of m c main_arg9 (by decide)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame claim at any instance: the run terminates and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W7_main_arg0 m c),
      (h c _ (mem_uc main_arg1 (by decide))).trans (W7_main_arg1 m c),
      (h c _ (mem_uc main_arg2 (by decide))).trans (W7_main_arg2 m c),
      (h c _ (mem_uc main_arg3 (by decide))).trans (W7_main_arg3 m c),
      (h c _ (mem_uc main_arg4 (by decide))).trans (W7_main_arg4 m c),
      (h c _ (mem_uc main_arg5 (by decide))).trans (W7_main_arg5 m c),
      (h c _ (mem_uc main_arg6 (by decide))).trans (W7_main_arg6 m c),
      (h c _ (mem_uc main_arg7 (by decide))).trans (W7_main_arg7 m c),
      (h c _ (mem_uc main_arg8 (by decide))).trans (W7_main_arg8 m c),
      (h c _ (mem_uc main_arg9 (by decide))).trans (W7_main_arg9 m c)⟩) (run_all m ρ)

/-- The run with the result named: the result buffer ends at the fold's last stage, the arguments as launched. -/
theorem run_value : θ_run defs (onTc (τ := τ) (main (F := F))) ⟨m, fun _ => 0, ρ⟩ (fun r => ∀ c : Dev nD,
      r.2.mem ((c.tc : Thread nD τ).loc main_v13) = W7 m c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v13 (by decide)),
      (h c _ (mem_uc main_arg0 (by decide))).trans (W7_main_arg0 m c),
      (h c _ (mem_uc main_arg1 (by decide))).trans (W7_main_arg1 m c),
      (h c _ (mem_uc main_arg2 (by decide))).trans (W7_main_arg2 m c),
      (h c _ (mem_uc main_arg3 (by decide))).trans (W7_main_arg3 m c),
      (h c _ (mem_uc main_arg4 (by decide))).trans (W7_main_arg4 m c),
      (h c _ (mem_uc main_arg5 (by decide))).trans (W7_main_arg5 m c),
      (h c _ (mem_uc main_arg6 (by decide))).trans (W7_main_arg6 m c),
      (h c _ (mem_uc main_arg7 (by decide))).trans (W7_main_arg7 m c),
      (h c _ (mem_uc main_arg8 (by decide))).trans (W7_main_arg8 m c),
      (h c _ (mem_uc main_arg9 (by decide))).trans (W7_main_arg9 m c)⟩) (run_all m ρ)

end Cert.KernelIdeal.Hand

end
-- ==== Proof.Spec.lean ====
/-
  The mathematics both programs compute, over the extended reals, index by index.  One graph-convolution
  layer is max(A·(X·W) + b, 0): the projection X·W summed over the feature axis, then A times it summed over
  the node axis.  The pool is the sum over the 2048 nodes of a batch, which the reference takes in one sum
  from the zero word z and the kernel in four tiles of 512 rows accumulated from z; the two agree because
  addition of extended reals is commutative and associative (no finiteness is needed: nothing is distributed
  or cancelled).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The zero word of f32 read at the ideal instance (it is the real 0: `Ideal.ofBits_zero_f32`). -/
abbrev z : EReal := Ideal.ofBits .f32 0x00000000#32

abbrev SX : Shape := ⟨3, ![32, 2048, 64]⟩
abbrev SA : Shape := ⟨3, ![32, 2048, 2048]⟩
abbrev SH : Shape := ⟨3, ![32, 2048, 32]⟩
abbrev SW1 : Shape := ⟨2, ![64, 32]⟩
abbrev SW2 : Shape := ⟨2, ![32, 32]⟩
abbrev SB : Shape := ⟨2, ![1, 32]⟩
abbrev SP : Shape := ⟨2, ![32, 32]⟩

/-- Layer 1 at (b, n, c): max(Σ_m A[b,n,m] · (Σ_f X[b,m,f] · W1[f,c]) + b1[0,c], z). -/
def h1 (x : SX.Idx → EReal) (a : SA.Idx → EReal) (w : SW1.Idx → EReal) (b : SB.Idx → EReal) : SH.Idx → EReal :=
  fun i => max ((∑ m : Fin 2048, a (ix3 (i 0) (i 1) m) * ∑ f : Fin 64, x (ix3 (i 0) m f) * w (ix2 f (i 2))) + b (ix2 (0 : Fin 1) (i 2))) z

/-- Layer 2 at (b, n, c): the same over the 32 channels of layer 1's result. -/
def h2 (h : SH.Idx → EReal) (a : SA.Idx → EReal) (w : SW2.Idx → EReal) (b : SB.Idx → EReal) : SH.Idx → EReal :=
  fun i => max ((∑ m : Fin 2048, a (ix3 (i 0) (i 1) m) * ∑ k : Fin 32, h (ix3 (i 0) m k) * w (ix2 k (i 2))) + b (ix2 (0 : Fin 1) (i 2))) z

/-- Row `512·k + r` of a batch: row r of tile k. -/
def row (k : Fin 4) (r : Fin 512) : Fin 2048 := ⟨512 * k.val + r.val, by have := k.isLt; have := r.isLt; omega⟩

/-- The pool as the reference takes it: z plus the sum over all 2048 nodes. -/
def poolR (g : SH.Idx → EReal) : SP.Idx → EReal :=
  fun j => z + ∑ n : Fin 2048, g (ix3 (j 0) n (j 1))

/-- One tile's column sum. -/
def tile (g : SH.Idx → EReal) (j : SP.Idx) (k : Fin 4) : EReal := ∑ r : Fin 512, g (ix3 (j 0) (row k r) (j 1))

/-- The pool as the kernel accumulates it: from z, tile after tile. -/
def poolK (g : SH.Idx → EReal) : SP.Idx → EReal :=
  fun j => (((z + tile g j 0) + tile g j 1) + tile g j 2) + tile g j 3

/-- Row `512·k + r` is the image of the pair (k, r) under the standard bijection
    Fin 4 × Fin 512 ≃ Fin (4·512), which sends (k, r) to r + 512·k. -/
theorem finProdFinEquiv_eq_row (k : Fin 4) (r : Fin 512) :
    (finProdFinEquiv (k, r) : Fin (4 * 512)) = row k r := by
  apply Fin.ext
  show r.val + 512 * k.val = 512 * k.val + r.val
  omega

/-- A sum over the 2048 rows, in any additive commutative monoid, is the sum over the four tiles of the
    sums over each tile's 512 rows: reindex along the bijection above, then split the sum over pairs. -/
theorem sum_rows_eq_sum_tiles {M : Type} [AddCommMonoid M] (f : Fin 2048 → M) :
    ∑ n : Fin 2048, f n = ∑ k : Fin 4, ∑ r : Fin 512, f (row k r) := by
  rw [← Equiv.sum_comp (finProdFinEquiv : Fin 4 × Fin 512 ≃ Fin (4 * 512)) f, Fintype.sum_prod_type]
  simp only [finProdFinEquiv_eq_row]

/-- The sum over 2048 rows is the sum over four tiles of 512 rows: the two pools agree. -/
theorem poolK_eq_poolR (g : SH.Idx → EReal) : poolK g = poolR g := by
  funext j
  show (((z + tile g j 0) + tile g j 1) + tile g j 2) + tile g j 3
      = z + ∑ n : Fin 2048, g (ix3 (j 0) n (j 1))
  rw [sum_rows_eq_sum_tiles (fun n => g (ix3 (j 0) n (j 1))), Fin.sum_univ_four]
  simp only [tile, add_assoc]

/-! ## The bias rows, the dense head, the whole result -/

abbrev SV32 : Shape := ⟨1, ![32]⟩
abbrev SWf1 : Shape := ⟨2, ![32, 512]⟩
abbrev SV512 : Shape := ⟨1, ![512]⟩
abbrev SWf2 : Shape := ⟨2, ![512, 1]⟩
abbrev SV1 : Shape := ⟨1, ![1]⟩
abbrev SO : Shape := ⟨2, ![32, 1]⟩

/-- A bias vector as the 1×32 row both kernels stage. -/
def brow (b : SV32.Idx → EReal) : SB.Idx → EReal := fun i => b (ix1 (i 1))

/-- The dense head at (b, 0): Σ_h max(Σ_k P[b,k]·Wf1[k,h] + bf1[h], z) · Wf2[h,0] + bf2[0]. -/
def head (p : SP.Idx → EReal) (wf1 : SWf1.Idx → EReal) (bf1 : SV512.Idx → EReal) (wf2 : SWf2.Idx → EReal) (bf2 : SV1.Idx → EReal) : SO.Idx → EReal :=
  fun i => (∑ h : Fin 512, max ((∑ k : Fin 32, p (ix2 (i 0) k) * wf1 (ix2 k h)) + bf1 (ix1 h)) z * wf2 (ix2 h (i 1))) + bf2 (ix1 (0 : Fin 1))

/-- The whole network, the pool taken as the reference takes it. -/
def out (x : SX.Idx → EReal) (a : SA.Idx → EReal) (w1 : SW1.Idx → EReal) (b1 : SV32.Idx → EReal) (w2 : SW2.Idx → EReal) (b2 : SV32.Idx → EReal)
    (wf1 : SWf1.Idx → EReal) (bf1 : SV512.Idx → EReal) (wf2 : SWf2.Idx → EReal) (bf2 : SV1.Idx → EReal) : SO.Idx → EReal :=
  head (poolR (h2 (h1 x a w1 (brow b1)) a w2 (brow b2))) wf1 bf1 wf2 bf2

end Cert.Spec

end
-- ==== Proof.KI.Value0.lean ====
/-
  Layer 1's result array after region 0, at the ideal instance: block (b, n) of the array is what point
  (b, n) stored, and that block read at (0, r, c) is max(Σ_m A[b, 512n+r, m]·(Σ_f X[b,m,f]·W1[f,c]) + b1row[0,c], z).
-/
import proofs.«152775_j41695542509689_1_alg».proof.Proof.Gen.KernelIdeal.Launch
import proofs.«152775_j41695542509689_1_alg».proof.Proof.Gen.KernelIdeal.Skeleton
import proofs.«152775_j41695542509689_1_alg».proof.Proof.Gen.KernelIdeal.Points
import proofs.«152775_j41695542509689_1_alg».proof.Proof.KI.Region0
import proofs.«152775_j41695542509689_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-! ## Zero offsets, however spelt -/

theorem hz2 : (![0, 0] : Fin 2 → Nat) = fun _ => 0 := funext fun a => by fin_cases a <;> rfl
theorem hz3 : (![0, 0, 0] : Fin 3 → Nat) = fun _ => 0 := funext fun a => by fin_cases a <;> rfl

/-! ## The projection's product X-block · W1 at an index -/

theorem lhs_proj_0 (i : S2048x32.Idx) (q : dot_S2048x64_S64x32_S2048x32_1_0_0_1_n_n.contr.Idx) :
    (dot_S2048x64_S64x32_S2048x32_1_0_0_1_n_n.lhsIdx i q 0).val = (i 0).val := by
  unfold DotDims.lhsIdx
  rw [dif_neg (show ¬(0 : Fin S2048x64.rank) ∈ dot_S2048x64_S64x32_S2048x32_1_0_0_1_n_n.lhsBatch by decide), dif_pos (show (0 : Fin S2048x64.rank) ∈ dot_S2048x64_S64x32_S2048x32_1_0_0_1_n_n.lhsNonContracting by decide)]
  rfl
theorem lhs_proj_1 (i : S2048x32.Idx) (q : dot_S2048x64_S64x32_S2048x32_1_0_0_1_n_n.contr.Idx) :
    (dot_S2048x64_S64x32_S2048x32_1_0_0_1_n_n.lhsIdx i q 1).val = (q ⟨0, by decide⟩).val :=
  dot_S2048x64_S64x32_S2048x32_1_0_0_1_n_n.lhsIdx_val_of_single rfl i q
theorem rhs_proj_0 (i : S2048x32.Idx) (q : dot_S2048x64_S64x32_S2048x32_1_0_0_1_n_n.contr.Idx) :
    (dot_S2048x64_S64x32_S2048x32_1_0_0_1_n_n.rhsIdx i q 0).val = (q ⟨0, by decide⟩).val :=
  dot_S2048x64_S64x32_S2048x32_1_0_0_1_n_n.rhsIdx_val_of_single rfl i q
theorem rhs_proj_1 (i : S2048x32.Idx) (q : dot_S2048x64_S64x32_S2048x32_1_0_0_1_n_n.contr.Idx) :
    (dot_S2048x64_S64x32_S2048x32_1_0_0_1_n_n.rhsIdx i q 1).val = (i 1).val := by
  unfold DotDims.rhsIdx
  rw [dif_neg (show ¬(1 : Fin S64x32.rank) ∈ dot_S2048x64_S64x32_S2048x32_1_0_0_1_n_n.rhsBatch by decide), dif_pos (show (1 : Fin S64x32.rank) ∈ dot_S2048x64_S64x32_S2048x32_1_0_0_1_n_n.rhsNonContracting by decide)]
  rfl

/-- The [2048,64] × [64,32] product into a zero accumulator, at (p, q): the sum over the 64 features. -/
theorem matmul_proj_apply (x : FVec Ideal S2048x64 .bf16) (w : FVec Ideal S64x32 .bf16) (p : Fin 2048) (q : Fin 32) :
    matmul dot_S2048x64_S64x32_S2048x32_1_0_0_1_n_n none x w (constant (F := Ideal) S2048x32 .f32 0x00000000#32) (ix2 p q)
      = ∑ f : Fin 64, x (ix2 p f) * w (ix2 f q) := by
  simp only [matmul]
  rw [Ideal.matmul_constant_zero_apply, ← Equiv.sum_comp (contrEquiv1 dot_S2048x64_S64x32_S2048x32_1_0_0_1_n_n 64 rfl rfl).symm]
  refine Finset.sum_congr rfl fun k _ => ?_
  have hk := contrEquiv1_symm_val dot_S2048x64_S64x32_S2048x32_1_0_0_1_n_n 64 rfl rfl k
  have el : dot_S2048x64_S64x32_S2048x32_1_0_0_1_n_n.lhsIdx (ix2 p q) ((contrEquiv1 dot_S2048x64_S64x32_S2048x32_1_0_0_1_n_n 64 rfl rfl).symm k) = ix2 p k := funext fun a => Fin.ext (by
    match a with
    | ⟨0, _⟩ => exact lhs_proj_0 _ _
    | ⟨1, _⟩ => exact (lhs_proj_1 _ _).trans hk)
  have er : dot_S2048x64_S64x32_S2048x32_1_0_0_1_n_n.rhsIdx (ix2 p q) ((contrEquiv1 dot_S2048x64_S64x32_S2048x32_1_0_0_1_n_n 64 rfl rfl).symm k) = ix2 k q := funext fun a => Fin.ext (by
    match a with
    | ⟨0, _⟩ => exact (rhs_proj_0 _ _).trans hk
    | ⟨1, _⟩ => exact rhs_proj_1 _ _)
  rw [el, er]

/-- The projection's payload at (p, q): Σ_f X[0,p,f]·W1[f,q] (the format changes are the identity on extended reals). -/
theorem pay1_apply (x : FVec Ideal S1x2048x64 .f32) (w : FVec Ideal S64x32 .f32) (p : Fin 2048) (q : Fin 32) :
    k0_pay1 x w (ix2 p q) = ∑ f : Fin 64, x (ix3 (0 : Fin 1) p f) * w (ix2 f q) := by
  unfold k0_pay1
  rw [shapeCast_self]
  refine (matmul_proj_apply _ _ p q).trans ?_
  refine Finset.sum_congr rfl fun f _ => ?_
  rw [truncf_apply, truncf_apply]
  congr 1
  exact shapeCast_dropUnit_apply ![2048, 64] x _ (ix2 p f) |>.trans (congrArg x (by
    funext a; match a with | ⟨0, _⟩ => rfl | ⟨1, _⟩ => rfl | ⟨2, _⟩ => rfl))

/-! ## The tile's product A-tile · scratch at an index -/

theorem lhs_agg_0 (i : S512x32.Idx) (q : dot_S512x2048_S2048x32_S512x32_1_0_0_1_n_n.contr.Idx) :
    (dot_S512x2048_S2048x32_S512x32_1_0_0_1_n_n.lhsIdx i q 0).val = (i 0).val := by
  unfold DotDims.lhsIdx
  rw [dif_neg (show ¬(0 : Fin S512x2048.rank) ∈ dot_S512x2048_S2048x32_S512x32_1_0_0_1_n_n.lhsBatch by decide), dif_pos (show (0 : Fin S512x2048.rank) ∈ dot_S512x2048_S2048x32_S512x32_1_0_0_1_n_n.lhsNonContracting by decide)]
  rfl
theorem lhs_agg_1 (i : S512x32.Idx) (q : dot_S512x2048_S2048x32_S512x32_1_0_0_1_n_n.contr.Idx) :
    (dot_S512x2048_S2048x32_S512x32_1_0_0_1_n_n.lhsIdx i q 1).val = (q ⟨0, by decide⟩).val :=
  dot_S512x2048_S2048x32_S512x32_1_0_0_1_n_n.lhsIdx_val_of_single rfl i q
theorem rhs_agg_0 (i : S512x32.Idx) (q : dot_S512x2048_S2048x32_S512x32_1_0_0_1_n_n.contr.Idx) :
    (dot_S512x2048_S2048x32_S512x32_1_0_0_1_n_n.rhsIdx i q 0).val = (q ⟨0, by decide⟩).val :=
  dot_S512x2048_S2048x32_S512x32_1_0_0_1_n_n.rhsIdx_val_of_single rfl i q
theorem rhs_agg_1 (i : S512x32.Idx) (q : dot_S512x2048_S2048x32_S512x32_1_0_0_1_n_n.contr.Idx) :
    (dot_S512x2048_S2048x32_S512x32_1_0_0_1_n_n.rhsIdx i q 1).val = (i 1).val := by
  unfold DotDims.rhsIdx
  rw [dif_neg (show ¬(1 : Fin S2048x32.rank) ∈ dot_S512x2048_S2048x32_S512x32_1_0_0_1_n_n.rhsBatch by decide), dif_pos (show (1 : Fin S2048x32.rank) ∈ dot_S512x2048_S2048x32_S512x32_1_0_0_1_n_n.rhsNonContracting by decide)]
  rfl

/-- The [512,2048] × [2048,32] product into a zero accumulator, at (r, q): the sum over the 2048 nodes. -/
theorem matmul_agg_apply (a : FVec Ideal S512x2048 .bf16) (s : FVec Ideal S2048x32 .bf16) (r : Fin 512) (q : Fin 32) :
    matmul dot_S512x2048_S2048x32_S512x32_1_0_0_1_n_n none a s (constant (F := Ideal) S512x32 .f32 0x00000000#32) (ix2 r q)
      = ∑ m : Fin 2048, a (ix2 r m) * s (ix2 m q) := by
  simp only [matmul]
  rw [Ideal.matmul_constant_zero_apply, ← Equiv.sum_comp (contrEquiv1 dot_S512x2048_S2048x32_S512x32_1_0_0_1_n_n 2048 rfl rfl).symm]
  refine Finset.sum_congr rfl fun k _ => ?_
  have hk := contrEquiv1_symm_val dot_S512x2048_S2048x32_S512x32_1_0_0_1_n_n 2048 rfl rfl k
  have el : dot_S512x2048_S2048x32_S512x32_1_0_0_1_n_n.lhsIdx (ix2 r q) ((contrEquiv1 dot_S512x2048_S2048x32_S512x32_1_0_0_1_n_n 2048 rfl rfl).symm k) = ix2 r k := funext fun ax => Fin.ext (by
    match ax with
    | ⟨0, _⟩ => exact lhs_agg_0 _ _
    | ⟨1, _⟩ => exact (lhs_agg_1 _ _).trans hk)
  have er : dot_S512x2048_S2048x32_S512x32_1_0_0_1_n_n.rhsIdx (ix2 r q) ((contrEquiv1 dot_S512x2048_S2048x32_S512x32_1_0_0_1_n_n 2048 rfl rfl).symm k) = ix2 k q := funext fun ax => Fin.ext (by
    match ax with
    | ⟨0, _⟩ => exact (rhs_agg_0 _ _).trans hk
    | ⟨1, _⟩ => exact rhs_agg_1 _ _)
  rw [el, er]

/-- The output payload at (0, r, q): max(Σ_m A[0,r,m]·S[m,q] + b[0,q], z). -/
theorem pay2_apply (a : FVec Ideal S1x512x2048 .f32) (s : FVec Ideal S2048x32 .f32) (b : FVec Ideal S1x32 .f32) (r : Fin 512) (q : Fin 32) :
    k0_pay2 a s b (ix3 (0 : Fin 1) r q)
      = max ((∑ m : Fin 2048, a (ix3 (0 : Fin 1) r m) * s (ix2 m q)) + b (ix2 (0 : Fin 1) q)) Spec.z := by
  unfold k0_pay2
  refine (shapeCast_ab_1ab_apply _ _ (0 : Fin 1) r q).trans ?_
  rw [maximumf_apply, addf_apply]
  refine congrArg₂ max (congrArg₂ (· + ·) ?_ ?_) rfl
  · refine (matmul_agg_apply _ _ r q).trans ?_
    refine Finset.sum_congr rfl fun m _ => ?_
    rw [truncf_apply, truncf_apply]
    exact congrArg (· * s (ix2 m q)) (shapeCast_1ab_ab_apply a _ r m)
  · rw [shapeCast_self]
    exact broadcastTo_1b_ab_apply b _ r q

/-! ## The scratch and the output block at an index -/

/-- The scratch after the projection's store, at (p, q). -/
theorem proj0_apply (x : FVec Ideal S1x2048x64 .f32) (w : FVec Ideal S64x32 .f32) (p : Fin 2048) (q : Fin 32) :
    (proj0 (F := Ideal) x w : FVec Ideal S2048x32 .f32) (ix2 p q) = ∑ f : Fin 64, x (ix3 (0 : Fin 1) p f) * w (ix2 f q) := by
  unfold proj0
  rw [View.canon_unit_zero hz2]
  simp only [View.ld_unit_zero (S := S1x2048x64) hz3, View.ld_unit_zero (S := S64x32) hz2]
  exact pay1_apply x w p q

/-- The output block a point stores, at (0, r, q). -/
theorem out0_apply (a : FVec Ideal S1x512x2048 .f32) (s : FVec Ideal S2048x32 .f32) (b : FVec Ideal S1x32 .f32) (r : Fin 512) (q : Fin 32) :
    (out0 (F := Ideal) a s b : FVec Ideal S1x512x32 .f32) (ix3 (0 : Fin 1) r q)
      = max ((∑ m : Fin 2048, a (ix3 (0 : Fin 1) r m) * s (ix2 m q)) + b (ix2 (0 : Fin 1) q)) Spec.z := by
  unfold out0
  rw [View.canon_unit_zero hz3]
  simp only [View.ld_unit_zero (S := S1x512x2048) hz3, View.ld_unit_zero (S := S2048x32) hz2, View.ld_unit_zero (S := S1x32) hz2]
  exact pay2_apply a s b r q

/-! ## The printed index maps, decided over the grid -/

/-- Point t = 4b + n stages batch b of X, row tile n of batch b of A, all of W1 and of the bias row, and stores
    row tile n of batch b of the output. -/
theorem idx_facts0 : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 4 ∧ win0_4.index t (1 : Fin 3) = t.val % 4 ∧ win0_4.index t (2 : Fin 3) = 0 :=
  (by decide +kernel : ∀ t : Fin grid0.N, _)

/-! ## The staged blocks as parts of the arrays -/

/-- Window 0's block at point t is batch t / 4 of X. -/
theorem xblk_apply (c : Dev nD) (t : Fin cfg0.N) (p : Fin 2048) (f : Fin 64) (k : S32x2048x64.Idx)
    (hk0 : (k 0).val = t.val / 4) (hk1 : (k 1).val = p.val) (hk2 : (k 2).val = f.val) :
    (iblk0 V c 0 t : FVec Ideal S1x2048x64 .f32) (ix3 (0 : Fin 1) p f) = (V c main_arg0 : FVec Ideal S32x2048x64 .f32) k := by
  obtain ⟨e0, e1, e2, -⟩ := idx_facts0 t
  unfold iblk0
  rw [View.read_apply]
  show V c main_arg0 _ = V c main_arg0 _
  congr 1
  funext a
  apply Fin.ext
  match a with
  | ⟨0, _⟩ => show win0_0.index t (0 : Fin 3) * 1 + 1 * (0 : Fin 1).val = (k 0).val; rw [e0, hk0]; simp
  | ⟨1, _⟩ => show win0_0.index t (1 : Fin 3) * 2048 + 1 * p.val = (k 1).val; rw [e1, hk1]; omega
  | ⟨2, _⟩ => show win0_0.index t (2 : Fin 3) * 64 + 1 * f.val = (k 2).val; rw [e2, hk2]; omega

/-- Window 1's block at point t is rows 512·(t % 4) … of batch t / 4 of A. -/
theorem ablk_apply (c : Dev nD) (t : Fin cfg0.N) (r : Fin 512) (m : Fin 2048) (k : S32x2048x2048.Idx)
    (hk0 : (k 0).val = t.val / 4) (hk1 : (k 1).val = 512 * (t.val % 4) + r.val) (hk2 : (k 2).val = m.val) :
    (iblk0 V c 1 t : FVec Ideal S1x512x2048 .f32) (ix3 (0 : Fin 1) r m) = (V c main_arg1 : FVec Ideal S32x2048x2048 .f32) k := by
  obtain ⟨-, -, -, e0, e1, e2, -⟩ := idx_facts0 t
  unfold iblk0
  rw [View.read_apply]
  show V c main_arg1 _ = V c main_arg1 _
  congr 1
  funext a
  apply Fin.ext
  match a with
  | ⟨0, _⟩ => show win0_1.index t (0 : Fin 3) * 1 + 1 * (0 : Fin 1).val = (k 0).val; rw [e0, hk0]; simp
  | ⟨1, _⟩ => show win0_1.index t (1 : Fin 3) * 512 + 1 * r.val = (k 1).val; rw [e1, hk1]; omega
  | ⟨2, _⟩ => show win0_1.index t (2 : Fin 3) * 2048 + 1 * m.val = (k 2).val; rw [e2, hk2]; omega

/-- Window 2's block at any point is W1. -/
theorem wblk_apply (c : Dev nD) (t : Fin cfg0.N) (f : Fin 64) (q : Fin 32) :
    (iblk0 V c 2 t : FVec Ideal S64x32 .f32) (ix2 f q) = (V c main_arg2 : FVec Ideal S64x32 .f32) (ix2 f q) := by
  obtain ⟨-, -, -, -, -, -, e0, e1, -⟩ := idx_facts0 t
  unfold iblk0
  rw [View.read_apply]
  show V c main_arg2 _ = V c main_arg2 _
  congr 1
  funext a
  apply Fin.ext
  match a with
  | ⟨0, _⟩ => show win0_2.index t (0 : Fin 2) * 64 + 1 * f.val = f.val; rw [e0]; omega
  | ⟨1, _⟩ => show win0_2.index t (1 : Fin 2) * 32 + 1 * q.val = q.val; rw [e1]; omega

/-- Window 3's block at any point is the bias row. -/
theorem bblk_apply (c : Dev nD) (t : Fin cfg0.N) (q : Fin 32) :
    (iblk0 V c 3 t : FVec Ideal S1x32 .f32) (ix2 (0 : Fin 1) q) = (V c main_v0 : FVec Ideal S1x32 .f32) (ix2 (0 : Fin 1) q) := by
  obtain ⟨-, -, -, -, -, -, -, -, e0, e1, -⟩ := idx_facts0 t
  unfold iblk0
  rw [View.read_apply]
  show V c main_v0 _ = V c main_v0 _
  congr 1
  funext a
  apply Fin.ext
  match a with
  | ⟨0, _⟩ => show win0_3.index t (0 : Fin 2) * 1 + 1 * (0 : Fin 1).val = (0 : Fin 1).val; rw [e0]; simp
  | ⟨1, _⟩ => show win0_3.index t (1 : Fin 2) * 32 + 1 * q.val = q.val; rw [e1]; omega

/-! ## What a point stores is its block of layer 1's result -/

/-- Layer 1's result as one function of the four arrays the region reads. -/
abbrev G1 (c : Dev nD) : FVec Ideal S32x2048x32 .f32 :=
  Spec.h1 (V c main_arg0 : FVec Ideal S32x2048x64 .f32) (V c main_arg1 : FVec Ideal S32x2048x2048 .f32)
    (V c main_arg2 : FVec Ideal S64x32 .f32) (V c main_v0 : FVec Ideal S1x32 .f32)

/-- Over any arrays and blocks: if the staged blocks are batch bt of X, the rows of batch bt of A that hold row rr at
    local row r, W1 and the bias row, then the stored block at (0, r, q) is layer 1's result at (bt, rr, q). -/
theorem point_apply (X : FVec Ideal S32x2048x64 .f32) (A : FVec Ideal S32x2048x2048 .f32) (W : FVec Ideal S64x32 .f32) (B : FVec Ideal S1x32 .f32)
    (xb : FVec Ideal S1x2048x64 .f32) (ab : FVec Ideal S1x512x2048 .f32) (wb : FVec Ideal S64x32 .f32) (bb : FVec Ideal S1x32 .f32)
    (bt : Fin 32) (rr : Fin 2048) (q : Fin 32) (r : Fin 512)
    (hx : ∀ (p : Fin 2048) (f : Fin 64), xb (ix3 (0 : Fin 1) p f) = X (ix3 bt p f))
    (ha : ∀ m : Fin 2048, ab (ix3 (0 : Fin 1) r m) = A (ix3 bt rr m))
    (hw : ∀ (f : Fin 64) (q : Fin 32), wb (ix2 f q) = W (ix2 f q))
    (hb : ∀ q : Fin 32, bb (ix2 (0 : Fin 1) q) = B (ix2 (0 : Fin 1) q)) :
    (out0 (F := Ideal) ab (proj0 (F := Ideal) xb wb) bb : FVec Ideal S1x512x32 .f32) (ix3 (0 : Fin 1) r q) = Spec.h1 X A W B (ix3 bt rr q) := by
  refine (out0_apply ab (proj0 (F := Ideal) xb wb) bb r q).trans ?_
  show _ = max ((∑ m : Fin 2048, A (ix3 bt rr m) * ∑ f : Fin 64, X (ix3 bt m f) * W (ix2 f q)) + B (ix2 (0 : Fin 1) q)) Spec.z
  refine congrArg₂ max (congrArg₂ (· + ·) (Finset.sum_congr rfl fun m _ => ?_) (hb q)) rfl
  rw [ha m]
  refine congrArg (A (ix3 bt rr m) * ·) ?_
  refine (proj0_apply xb wb m q).trans (Finset.sum_congr rfl fun f _ => ?_)
  rw [hx m f, hw f q]

/-- Point t's stored block at y is layer 1's result at the index with batch t / 4, row 512·(t % 4) + y 1, column y 2. -/
theorem point_eq (c : Dev nD) (t : Fin cfg0.N) (y : S1x512x32.Idx) (i : S32x2048x32.Idx)
    (h0 : (i 0).val = t.val / 4) (h1 : (i 1).val = 512 * (t.val % 4) + (y 1).val) (h2 : (i 2).val = (y 2).val) :
    (out0 (F := Ideal) (iblk0 V c 1 t) (scr0 V c t) (iblk0 V c 3 t) : FVec Ideal S1x512x32 .f32) y = G1 V c i := by
  obtain ⟨u, r, q, rfl⟩ : ∃ (u : Fin 1) (r : Fin 512) (q : Fin 32), y = ix3 u r q := ⟨y 0, y 1, y 2, eq_ix3 y⟩
  obtain ⟨bt, rr, q', rfl⟩ : ∃ (bt : Fin 32) (rr : Fin 2048) (q' : Fin 32), i = ix3 bt rr q' := ⟨i 0, i 1, i 2, eq_ix3 i⟩
  obtain rfl : u = 0 := Subsingleton.elim _ _
  obtain rfl : q = q' := Fin.ext h2.symm
  have h0' : bt.val = t.val / 4 := h0
  have h1' : rr.val = 512 * (t.val % 4) + r.val := h1
  unfold scr0
  refine point_apply (V c main_arg0) (V c main_arg1) (V c main_arg2) (V c main_v0)
    (iblk0 V c 0 (bf0 t)) (iblk0 V c 1 t) (iblk0 V c 2 (bf0 t)) (iblk0 V c 3 t) bt rr q r ?_ ?_ ?_ ?_
  · intro p f
    exact xblk_apply V c (bf0 t) p f (ix3 bt p f) (by show bt.val = (4 * (t.val / 4)) / 4; omega) rfl rfl
  · intro m
    exact ablk_apply V c t r m (ix3 bt rr m) h0' h1' rfl
  · intro f q
    exact wblk_apply V c (bf0 t) f q
  · intro q
    exact bblk_apply V c t q

/-- What point t writes back is block t of layer 1's result. -/
theorem flushed_eq (c : Dev nD) (t : Fin cfg0.N) :
    (dat0 (F := Ideal) V c).flushed 4 t = ((cfg0.win 4).blk t).view.read (Elt Ideal) (G1 V c) := by
  show (cfg0.win 4).cut (grid0.coords t) ((dat0 (F := Ideal) V c).after 4 t) = _
  rw [after0_4]
  obtain ⟨-, -, -, -, -, -, -, -, -, -, e0, e1, e2⟩ := idx_facts0 t
  funext j
  rw [View.read_apply]
  have hj0 : (j 0).val < 1 := (j 0).isLt
  have hj1 : (j 1).val < 512 := (j 1).isLt
  have hj2 : (j 2).val < 32 := (j 2).isLt
  refine point_eq V c t ((cfg0.win 4).xinj (grid0.coords t) j) (((cfg0.win 4).blk t).view.emb j) ?_ ?_ ?_
  · show win0_4.index t (0 : Fin 3) * 1 + 1 * (j 0).val = t.val / 4; omega
  · show win0_4.index t (1 : Fin 3) * 512 + 1 * (j 1).val = 512 * (t.val % 4) + (j 1).val; omega
  · show win0_4.index t (2 : Fin 3) * 32 + 1 * (j 2).val = (j 2).val; omega

/-- An index of the array is in point t's block iff each coordinate is in the block's range on its axis. -/
theorem mem_blk (t : Fin cfg0.N) (i : S32x2048x32.Idx) :
    i ∈ ((cfg0.win 4).blk t).view.set ↔ ∀ a : Fin 3, win0_4.index t a * S1x512x32.size a ≤ (i a).val ∧ (i a).val < win0_4.index t a * S1x512x32.size a + S1x512x32.size a := by
  show i ∈ ((View.whole main_v1).slice (win0_4.rect t)).set ↔ _
  rw [View.set_slice_whole, Rect.mem_set_unit]
  exact Iff.rfl

/-- Row r of batch b lies in the block of point 4b + r / 512: the blocks tile the array. -/
theorem cover (i : S32x2048x32.Idx) :
    ∃ t : Fin cfg0.N, (cfg0.win 4).flush t = true ∧ i ∈ ((cfg0.win 4).blk t).view.set := by
  have hN : cfg0.N = 128 := N_0
  have hi0 : (i 0).val < 32 := (i 0).isLt
  have hi1 : (i 1).val < 2048 := (i 1).isLt
  have hi2 : (i 2).val < 32 := (i 2).isLt
  obtain ⟨t, ht⟩ : ∃ t : Fin cfg0.N, t.val = 4 * (i 0).val + (i 1).val / 512 := ⟨⟨4 * (i 0).val + (i 1).val / 512, by omega⟩, rfl⟩
  obtain ⟨-, -, -, -, -, -, -, -, -, -, e0, e1, e2⟩ := idx_facts0 t
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 32 ≤ (i 2).val ∧ (i 2).val < win0_4.index t (2 : Fin 3) * 32 + 32; omega

/-- Region 0 leaves layer 1's result in its output array. -/
theorem arr1_eq (c : Dev nD) :
    ((dat0 (F := Ideal) V c).arrAt 4 cfg0.N : FVec Ideal S32x2048x32 .f32)
      = Spec.h1 (V c main_arg0 : FVec Ideal S32x2048x64 .f32) (V c main_arg1 : FVec Ideal S32x2048x2048 .f32)
          (V c main_arg2 : FVec Ideal S64x32 .f32) (V c main_v0 : FVec Ideal S1x32 .f32) :=
  (dat0 (F := Ideal) V c).arrAt_eq_of_cover 4 (G1 V c) (fun t _ => flushed_eq V c t) cover

end Cert.KernelIdeal.Hand

end
-- ==== Proof.KI.Value1.lean ====
/-
  The pooled array after region 1, at the ideal instance: block b of the array is what the batch's fourth tile
  left in the output buffer, the sum from z of the four tiles' column sums of layer 2's result.
-/
import proofs.«152775_j41695542509689_1_alg».proof.Proof.Gen.KernelIdeal.Launch
import proofs.«152775_j41695542509689_1_alg».proof.Proof.Gen.KernelIdeal.Skeleton
import proofs.«152775_j41695542509689_1_alg».proof.Proof.Gen.KernelIdeal.Points
import proofs.«152775_j41695542509689_1_alg».proof.Proof.KI.Region1
import proofs.«152775_j41695542509689_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

namespace Pool

/-! ## The arrays the region reads, at their literal types -/

/-- Layer 1's result H1 [32,2048,32], the adjacency A [32,2048,2048], the weights W2 [32,32] and the bias row
    [1,32], as the region finds them. -/
abbrev arrH (c : Dev nD) : FVec Ideal S32x2048x32 .f32 := V c main_v1
abbrev arrA (c : Dev nD) : FVec Ideal S32x2048x2048 .f32 := V c main_arg1
abbrev arrW (c : Dev nD) : FVec Ideal S32x32 .f32 := V c main_arg4
abbrev arrB (c : Dev nD) : FVec Ideal S1x32 .f32 := V c main_v2

/-- Equal factors, equal summands, equal arguments of a maximum: equal results, over the extended reals. -/
theorem mul_eq {a a' b b' : EReal} (h1 : a = a') (h2 : b = b') : a * b = a' * b' := by rw [h1, h2]
theorem add_eq {a a' b b' : EReal} (h1 : a = a') (h2 : b = b') : a + b = a' + b' := by rw [h1, h2]
theorem max_eq {a a' b b' : EReal} (h1 : a = a') (h2 : b = b') : max a b = max a' b' := by rw [h1, h2]

/-! ## Zero offsets, however spelt -/

theorem hz2 : (![0, 0] : Fin 2 → Nat) = fun _ => 0 := funext fun a => by fin_cases a <;> rfl
theorem hz3 : (![0, 0, 0] : Fin 3 → Nat) = fun _ => 0 := funext fun a => by fin_cases a <;> rfl

/-! ## The projection's product read at an index -/

theorem lhsP_0 (i : S2048x32.Idx) (q : dot_S2048x32_S32x32_S2048x32_1_0_0_1_n_n.contr.Idx) :
    (dot_S2048x32_S32x32_S2048x32_1_0_0_1_n_n.lhsIdx i q 0).val = (i 0).val := by
  unfold DotDims.lhsIdx
  rw [dif_neg (show ¬(0 : Fin S2048x32.rank) ∈ dot_S2048x32_S32x32_S2048x32_1_0_0_1_n_n.lhsBatch by decide), dif_pos (show (0 : Fin S2048x32.rank) ∈ dot_S2048x32_S32x32_S2048x32_1_0_0_1_n_n.lhsNonContracting by decide)]
  rfl
theorem lhsP_1 (i : S2048x32.Idx) (q : dot_S2048x32_S32x32_S2048x32_1_0_0_1_n_n.contr.Idx) :
    (dot_S2048x32_S32x32_S2048x32_1_0_0_1_n_n.lhsIdx i q 1).val = (q ⟨0, by decide⟩).val :=
  dot_S2048x32_S32x32_S2048x32_1_0_0_1_n_n.lhsIdx_val_of_single rfl i q
theorem rhsP_0 (i : S2048x32.Idx) (q : dot_S2048x32_S32x32_S2048x32_1_0_0_1_n_n.contr.Idx) :
    (dot_S2048x32_S32x32_S2048x32_1_0_0_1_n_n.rhsIdx i q 0).val = (q ⟨0, by decide⟩).val :=
  dot_S2048x32_S32x32_S2048x32_1_0_0_1_n_n.rhsIdx_val_of_single rfl i q
theorem rhsP_1 (i : S2048x32.Idx) (q : dot_S2048x32_S32x32_S2048x32_1_0_0_1_n_n.contr.Idx) :
    (dot_S2048x32_S32x32_S2048x32_1_0_0_1_n_n.rhsIdx i q 1).val = (i 1).val := by
  unfold DotDims.rhsIdx
  rw [dif_neg (show ¬(1 : Fin S32x32.rank) ∈ dot_S2048x32_S32x32_S2048x32_1_0_0_1_n_n.rhsBatch by decide), dif_pos (show (1 : Fin S32x32.rank) ∈ dot_S2048x32_S32x32_S2048x32_1_0_0_1_n_n.rhsNonContracting by decide)]
  rfl

/-- The [2048,32]·[32,32] product into the zero splat, at (m, c): the sum over the 32 channels. -/
theorem matmulP_apply (x : FVec Ideal S2048x32 .bf16) (y : FVec Ideal S32x32 .bf16) (m : Fin 2048) (c : Fin 32) :
    matmul dot_S2048x32_S32x32_S2048x32_1_0_0_1_n_n none x y (constant (F := Ideal) S2048x32 .f32 0x00000000#32) (ix2 m c)
      = ∑ k : Fin 32, x (ix2 m k) * y (ix2 k c) := by
  simp only [matmul]
  rw [Ideal.matmul_constant_zero_apply, ← Equiv.sum_comp (contrEquiv1 dot_S2048x32_S32x32_S2048x32_1_0_0_1_n_n 32 rfl rfl).symm]
  refine Finset.sum_congr rfl fun k _ => ?_
  have hk := contrEquiv1_symm_val dot_S2048x32_S32x32_S2048x32_1_0_0_1_n_n 32 rfl rfl k
  have el : dot_S2048x32_S32x32_S2048x32_1_0_0_1_n_n.lhsIdx (ix2 m c) ((contrEquiv1 dot_S2048x32_S32x32_S2048x32_1_0_0_1_n_n 32 rfl rfl).symm k) = ix2 m k := funext fun a => Fin.ext (by
    match a with
    | ⟨0, _⟩ => exact lhsP_0 _ _
    | ⟨1, _⟩ => exact (lhsP_1 _ _).trans hk)
  have er : dot_S2048x32_S32x32_S2048x32_1_0_0_1_n_n.rhsIdx (ix2 m c) ((contrEquiv1 dot_S2048x32_S32x32_S2048x32_1_0_0_1_n_n 32 rfl rfl).symm k) = ix2 k c := funext fun a => Fin.ext (by
    match a with
    | ⟨0, _⟩ => exact (rhsP_0 _ _).trans hk
    | ⟨1, _⟩ => exact rhsP_1 _ _)
  rw [el, er]

/-- The scratch after the projection, at (m, c): Σ_j H[0,m,j]·W[j,c]. -/
theorem proj1_apply (h : FVec Ideal S1x2048x32 .f32) (w : FVec Ideal S32x32 .f32) (m : Fin 2048) (c : Fin 32) :
    proj1 (F := Ideal) h w (ix2 m c) = ∑ j : Fin 32, h (ix3 (0 : Fin 1) m j) * w (ix2 j c) := by
  unfold proj1
  rw [View.canon_unit_zero hz2]
  simp only [View.ld_unit_zero (S := S1x2048x32) hz3, View.ld_unit_zero (S := S32x32) hz2]
  unfold k1_pay1
  rw [shapeCast_self]
  refine (matmulP_apply _ _ m c).trans ?_
  refine Finset.sum_congr rfl fun j _ => ?_
  refine congrArg (· * w (ix2 j c)) ?_
  exact shapeCast_1ab_ab_apply h shapeCasts_S1x2048x32_S2048x32 m j

/-! ## The tile's product read at an index -/

theorem lhsA_0 (i : S512x32.Idx) (q : dot_S512x2048_S2048x32_S512x32_1_0_0_1_n_n.contr.Idx) :
    (dot_S512x2048_S2048x32_S512x32_1_0_0_1_n_n.lhsIdx i q 0).val = (i 0).val := by
  unfold DotDims.lhsIdx
  rw [dif_neg (show ¬(0 : Fin S512x2048.rank) ∈ dot_S512x2048_S2048x32_S512x32_1_0_0_1_n_n.lhsBatch by decide), dif_pos (show (0 : Fin S512x2048.rank) ∈ dot_S512x2048_S2048x32_S512x32_1_0_0_1_n_n.lhsNonContracting by decide)]
  rfl
theorem lhsA_1 (i : S512x32.Idx) (q : dot_S512x2048_S2048x32_S512x32_1_0_0_1_n_n.contr.Idx) :
    (dot_S512x2048_S2048x32_S512x32_1_0_0_1_n_n.lhsIdx i q 1).val = (q ⟨0, by decide⟩).val :=
  dot_S512x2048_S2048x32_S512x32_1_0_0_1_n_n.lhsIdx_val_of_single rfl i q
theorem rhsA_0 (i : S512x32.Idx) (q : dot_S512x2048_S2048x32_S512x32_1_0_0_1_n_n.contr.Idx) :
    (dot_S512x2048_S2048x32_S512x32_1_0_0_1_n_n.rhsIdx i q 0).val = (q ⟨0, by decide⟩).val :=
  dot_S512x2048_S2048x32_S512x32_1_0_0_1_n_n.rhsIdx_val_of_single rfl i q
theorem rhsA_1 (i : S512x32.Idx) (q : dot_S512x2048_S2048x32_S512x32_1_0_0_1_n_n.contr.Idx) :
    (dot_S512x2048_S2048x32_S512x32_1_0_0_1_n_n.rhsIdx i q 1).val = (i 1).val := by
  unfold DotDims.rhsIdx
  rw [dif_neg (show ¬(1 : Fin S2048x32.rank) ∈ dot_S512x2048_S2048x32_S512x32_1_0_0_1_n_n.rhsBatch by decide), dif_pos (show (1 : Fin S2048x32.rank) ∈ dot_S512x2048_S2048x32_S512x32_1_0_0_1_n_n.rhsNonContracting by decide)]
  rfl

/-- The [512,2048]·[2048,32] product into the zero splat, at (r, c): the sum over the 2048 nodes. -/
theorem matmulA_apply (x : FVec Ideal S512x2048 .bf16) (y : FVec Ideal S2048x32 .bf16) (r : Fin 512) (c : Fin 32) :
    matmul dot_S512x2048_S2048x32_S512x32_1_0_0_1_n_n none x y (constant (F := Ideal) S512x32 .f32 0x00000000#32) (ix2 r c)
      = ∑ m : Fin 2048, x (ix2 r m) * y (ix2 m c) := by
  simp only [matmul]
  rw [Ideal.matmul_constant_zero_apply, ← Equiv.sum_comp (contrEquiv1 dot_S512x2048_S2048x32_S512x32_1_0_0_1_n_n 2048 rfl rfl).symm]
  refine Finset.sum_congr rfl fun k _ => ?_
  have hk := contrEquiv1_symm_val dot_S512x2048_S2048x32_S512x32_1_0_0_1_n_n 2048 rfl rfl k
  have el : dot_S512x2048_S2048x32_S512x32_1_0_0_1_n_n.lhsIdx (ix2 r c) ((contrEquiv1 dot_S512x2048_S2048x32_S512x32_1_0_0_1_n_n 2048 rfl rfl).symm k) = ix2 r k := funext fun a => Fin.ext (by
    match a with
    | ⟨0, _⟩ => exact lhsA_0 _ _
    | ⟨1, _⟩ => exact (lhsA_1 _ _).trans hk)
  have er : dot_S512x2048_S2048x32_S512x32_1_0_0_1_n_n.rhsIdx (ix2 r c) ((contrEquiv1 dot_S512x2048_S2048x32_S512x32_1_0_0_1_n_n 2048 rfl rfl).symm k) = ix2 k c := funext fun a => Fin.ext (by
    match a with
    | ⟨0, _⟩ => exact (rhsA_0 _ _).trans hk
    | ⟨1, _⟩ => exact rhsA_1 _ _)
  rw [el, er]

/-- The sum over the 512 rows of a [512,32] vector, at column c. -/
theorem colsum_apply (x : FVec Ideal S512x32 .f32) (hφ : FKind.Formats .f32) (hacc : (0x00000000#32 : BitVec 32) = 0x00000000#32) (c : Fin 32) :
    multiReduction (F := Ideal) .add [0] S32 x 0x00000000#32 reduces_S512x32_S32 hφ hacc (ix1 c) = ∑ r : Fin 512, x (ix2 r c) := by
  refine (Ideal.multiReduction_add_single x 0x00000000#32 reduces_S512x32_S32 hφ hacc (ix1 c)).trans ?_
  refine Finset.sum_congr rfl fun r _ => congrArg x ?_
  funext a
  match a with
  | ⟨0, _⟩ => rfl
  | ⟨1, _⟩ => rfl

/-- The reset block is the zero word everywhere. -/
theorem zero1_apply (i : S1x1x32.Idx) : zero1 (F := Ideal) i = Spec.z := by
  unfold zero1
  rw [View.canon_unit_zero hz3]
  rfl

/-- One tile's update at column c: what the block held plus the tile's column sum
    Σ_r max(Σ_m A[0,r,m]·S[m,c] + B[0,c], z). -/
theorem step1_apply (a : FVec Ideal S1x512x2048 .f32) (s : FVec Ideal S2048x32 .f32) (b : FVec Ideal S1x32 .f32)
    (prev : FVec Ideal S1x1x32 .f32) (c : Fin 32) :
    step1 (F := Ideal) a s b prev (ix3 (0 : Fin 1) (0 : Fin 1) c)
      = prev (ix3 (0 : Fin 1) (0 : Fin 1) c)
        + ∑ r : Fin 512, max ((∑ m : Fin 2048, a (ix3 (0 : Fin 1) r m) * s (ix2 m c)) + b (ix2 (0 : Fin 1) c)) Spec.z := by
  unfold step1
  rw [View.canon_unit_zero hz3]
  simp only [View.ld_unit_zero (S := S1x512x2048) hz3, View.ld_unit_zero (S := S2048x32) hz2, View.ld_unit_zero (S := S1x32) hz2,
    View.ld_unit_zero (S := S1x1x32) hz3]
  unfold k1_pay3
  refine (shapeCast_ab_1ab_apply _ shapeCasts_S1x32_S1x1x32 (0 : Fin 1) (0 : Fin 1) c).trans ?_
  refine (addf_apply _ _ _).trans ?_
  refine congrArg₂ (· + ·) (shapeCast_1ab_ab_apply prev shapeCasts_S1x1x32_S1x32 (0 : Fin 1) c) ?_
  refine (shapeCast_a_1a_apply _ shapeCasts_S32_S1x32 (0 : Fin 1) c).trans ?_
  refine (colsum_apply _ _ _ c).trans ?_
  refine Finset.sum_congr rfl fun r _ => ?_
  refine (maximumf_apply _ _ _).trans ?_
  refine congrArg₂ max ?_ rfl
  refine (addf_apply _ _ _).trans ?_
  refine congrArg₂ (· + ·) ?_ ?_
  · refine (matmulA_apply _ _ r c).trans ?_
    refine Finset.sum_congr rfl fun m _ => ?_
    refine congrArg (· * s (ix2 m c)) ?_
    exact shapeCast_1ab_ab_apply a shapeCasts_S1x512x2048_S512x2048 r m
  · refine (broadcastTo_1b_ab_apply _ broadcasts_S1x32_S512x32 r c).trans ?_
    rw [shapeCast_self]

/-! ## The staged blocks read at an index

Point t = 4·b + n is batch b, row tile n.  The index maps, evaluated at each of the 128 points: the block of H1
and the pooled block sit at (b, 0, 0), A's tile at (b, n, 0), W2 and the bias row at (0, 0).  A block's
coordinate in its array is the block index times the block's size plus the coordinate inside the block. -/

theorem idx_facts1 : ∀ t : Fin cfg1.N,
    win1_0.index t (0 : Fin 3) = t.val / 4 ∧ win1_0.index t (1 : Fin 3) = 0 ∧ win1_0.index t (2 : Fin 3) = 0
    ∧ win1_1.index t (0 : Fin 3) = t.val / 4 ∧ win1_1.index t (1 : Fin 3) = t.val % 4 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val / 4 ∧ win1_4.index t (1 : Fin 3) = 0 ∧ win1_4.index t (2 : Fin 3) = 0 :=
  (by decide +kernel : ∀ t : Fin grid1.N, _)

/-- The staged block of H1 at point t is batch t/4 of H1. -/
theorem iblkH_apply (c : Dev nD) (t : Fin cfg1.N) (b : Fin 32) (hb : b.val = t.val / 4) (m : Fin 2048) (j : Fin 32) :
    (iblk1 V c 0 t : Vec Ideal S1x2048x32 .f32) (ix3 (0 : Fin 1) m j)
      = arrH V c (ix3 b m j) := by
  obtain ⟨e0, e1, e2, -⟩ := idx_facts1 t
  unfold iblk1
  rw [View.read_apply]
  show V c main_v1 _ = V c main_v1 _
  congr 1
  funext a
  apply Fin.ext
  match a with
  | ⟨0, _⟩ => show win1_0.index t (0 : Fin 3) * 1 + 1 * 0 = b.val; rw [e0, hb]; omega
  | ⟨1, _⟩ => show win1_0.index t (1 : Fin 3) * 2048 + 1 * m.val = m.val; rw [e1]; omega
  | ⟨2, _⟩ => show win1_0.index t (2 : Fin 3) * 32 + 1 * j.val = j.val; rw [e2]; omega

/-- The staged tile of A at point t is rows 512·(t%4) … of batch t/4 of A. -/
theorem iblkA_apply (c : Dev nD) (t : Fin cfg1.N) (b : Fin 32) (hb : b.val = t.val / 4) (n : Fin 4) (hn : n.val = t.val % 4)
    (r : Fin 512) (m : Fin 2048) :
    (iblk1 V c 1 t : Vec Ideal S1x512x2048 .f32) (ix3 (0 : Fin 1) r m)
      = arrA V c (ix3 b (Spec.row n r) m) := by
  obtain ⟨-, -, -, e0, e1, e2, -⟩ := idx_facts1 t
  unfold iblk1
  rw [View.read_apply]
  show V c main_arg1 _ = V c main_arg1 _
  congr 1
  funext a
  apply Fin.ext
  match a with
  | ⟨0, _⟩ => show win1_1.index t (0 : Fin 3) * 1 + 1 * 0 = b.val; rw [e0, hb]; omega
  | ⟨1, _⟩ => show win1_1.index t (1 : Fin 3) * 512 + 1 * r.val = 512 * n.val + r.val; rw [e1, hn]; omega
  | ⟨2, _⟩ => show win1_1.index t (2 : Fin 3) * 2048 + 1 * m.val = m.val; rw [e2]; omega

/-- The staged block of W2 is W2. -/
theorem iblkW_apply (c : Dev nD) (t : Fin cfg1.N) (j : Fin 32) (k : Fin 32) :
    (iblk1 V c 2 t : Vec Ideal S32x32 .f32) (ix2 j k) = arrW V c (ix2 j k) := by
  obtain ⟨-, -, -, -, -, -, e0, e1, -⟩ := idx_facts1 t
  unfold iblk1
  rw [View.read_apply]
  show V c main_arg4 _ = V c main_arg4 _
  congr 1
  funext a
  apply Fin.ext
  match a with
  | ⟨0, _⟩ => show win1_2.index t (0 : Fin 2) * 32 + 1 * j.val = j.val; rw [e0]; omega
  | ⟨1, _⟩ => show win1_2.index t (1 : Fin 2) * 32 + 1 * k.val = k.val; rw [e1]; omega

/-- The staged bias row is the bias row. -/
theorem iblkB_apply (c : Dev nD) (t : Fin cfg1.N) (k : Fin 32) :
    (iblk1 V c 3 t : Vec Ideal S1x32 .f32) (ix2 (0 : Fin 1) k) = arrB V c (ix2 (0 : Fin 1) k) := by
  obtain ⟨-, -, -, -, -, -, -, -, e0, e1, -⟩ := idx_facts1 t
  unfold iblk1
  rw [View.read_apply]
  show V c main_v2 _ = V c main_v2 _
  congr 1
  funext a
  apply Fin.ext
  match a with
  | ⟨0, _⟩ => show win1_3.index t (0 : Fin 2) * 1 + 1 * 0 = 0; rw [e0]
  | ⟨1, _⟩ => show win1_3.index t (1 : Fin 2) * 32 + 1 * k.val = k.val; rw [e1]; omega

/-! ## One point's update, and the four tiles of a batch -/

/-- Layer 2's result as a function of the arrays the region finds. -/
abbrev g2 (c : Dev nD) : Spec.SH.Idx → EReal := Spec.h2 (arrH V c) (arrA V c) (arrW V c) (arrB V c)

/-- The scratch at point t, at (m, k): the projection of batch t/4 of H1. -/
theorem scr1_apply (c : Dev nD) (t : Fin cfg1.N) (b : Fin 32) (hb : b.val = t.val / 4) (m : Fin 2048) (k : Fin 32) :
    scr1 (F := Ideal) V c t (ix2 m k) = ∑ j : Fin 32, arrH V c (ix3 b m j) * arrW V c (ix2 j k) := by
  have hb' : b.val = (bf1 t).val / 4 := by
    show b.val = 4 * (t.val / 4) / 4
    omega
  unfold scr1
  refine (proj1_apply (iblk1 V c 0 (bf1 t)) (iblk1 V c 2 (bf1 t)) m k).trans ?_
  refine Finset.sum_congr rfl fun j _ => ?_
  exact mul_eq (iblkH_apply V c (bf1 t) b hb' m j) (iblkW_apply V c (bf1 t) j k)

/-- Point t = 4·b + n adds tile n's column sum of layer 2's result for batch b to what the block held. -/
theorem step_point (c : Dev nD) (t : Fin cfg1.N) (b : Fin 32) (hb : b.val = t.val / 4) (n : Fin 4) (hn : n.val = t.val % 4)
    (prev : FVec Ideal S1x1x32 .f32) (k : Fin 32) :
    step1 (F := Ideal) (iblk1 V c 1 t) (scr1 V c t) (iblk1 V c 3 t) prev (ix3 (0 : Fin 1) (0 : Fin 1) k)
      = prev (ix3 (0 : Fin 1) (0 : Fin 1) k) + Spec.tile (g2 V c) (ix2 b k) n := by
  refine (step1_apply (iblk1 V c 1 t) (scr1 V c t) (iblk1 V c 3 t) prev k).trans ?_
  refine add_eq rfl ?_
  unfold Spec.tile
  refine Finset.sum_congr rfl fun r _ => ?_
  show _ = max ((∑ m : Fin 2048, arrA V c (ix3 b (Spec.row n r) m) * ∑ j : Fin 32, arrH V c (ix3 b m j) * arrW V c (ix2 j k))
    + arrB V c (ix2 (0 : Fin 1) k)) Spec.z
  refine max_eq (add_eq ?_ (iblkB_apply V c t k)) rfl
  refine Finset.sum_congr rfl fun m _ => ?_
  exact mul_eq (iblkA_apply V c t b hb n hn r m) (scr1_apply V c t b hb m k)

/-- At a batch's first point the block restarts from zero. -/
theorem acc1_first (c : Dev nD) (p : ℕ) (hp : p % 4 = 0) (h : p < cfg1.N) :
    acc1 V c p h = step1 (iblk1 V c 1 ⟨p, h⟩) (scr1 V c ⟨p, h⟩) (iblk1 V c 3 ⟨p, h⟩) zero1 := by
  cases p with
  | zero => exact acc1_zero V c h
  | succ n => rw [acc1_succ, if_pos hp]

/-- At a later point of a batch it goes on from what the point before left. -/
theorem acc1_next (c : Dev nD) (n : ℕ) (hn4 : ¬(n + 1) % 4 = 0) (h : n + 1 < cfg1.N) :
    acc1 V c (n + 1) h = step1 (iblk1 V c 1 ⟨n + 1, h⟩) (scr1 V c ⟨n + 1, h⟩) (iblk1 V c 3 ⟨n + 1, h⟩)
      (acc1 V c n (Nat.lt_of_succ_lt h)) := by
  rw [acc1_succ, if_neg hn4]

/-- The pooled block through the four points p, p+1, p+2, p+3 of batch b (p = 4·b): from zero, tile after tile. -/
theorem acc1_batch (c : Dev nD) (p : ℕ) (hp : p % 4 = 0) (h3 : p + 3 < cfg1.N) (b : Fin 32) (hb : b.val = p / 4) (k : Fin 32) :
    acc1 V c (p + 3) h3 (ix3 (0 : Fin 1) (0 : Fin 1) k) = Spec.poolK (g2 V c) (ix2 b k) := by
  have h0 : p < cfg1.N := by omega
  have h1 : p + 1 < cfg1.N := by omega
  have h2 : p + 2 < cfg1.N := by omega
  have e0 : acc1 V c p h0 (ix3 (0 : Fin 1) (0 : Fin 1) k) = Spec.z + Spec.tile (g2 V c) (ix2 b k) 0 := by
    rw [acc1_first V c p hp h0]
    refine (step_point V c ⟨p, h0⟩ b (by show b.val = p / 4; exact hb) 0 (by show (0 : Fin 4).val = p % 4; rw [hp]; rfl) (zero1 (F := Ideal)) k).trans ?_
    rw [zero1_apply]
  have e1 : acc1 V c (p + 1) h1 (ix3 (0 : Fin 1) (0 : Fin 1) k) = (Spec.z + Spec.tile (g2 V c) (ix2 b k) 0) + Spec.tile (g2 V c) (ix2 b k) 1 := by
    rw [acc1_next V c p (by omega) h1]
    refine (step_point V c ⟨p + 1, h1⟩ b (by show b.val = (p + 1) / 4; omega) 1 (by show (1 : Fin 4).val = (p + 1) % 4; have : (1 : Fin 4).val = 1 := rfl; omega) _ k).trans ?_
    rw [e0]
  have e2 : acc1 V c (p + 2) h2 (ix3 (0 : Fin 1) (0 : Fin 1) k) = ((Spec.z + Spec.tile (g2 V c) (ix2 b k) 0) + Spec.tile (g2 V c) (ix2 b k) 1) + Spec.tile (g2 V c) (ix2 b k) 2 := by
    rw [acc1_next V c (p + 1) (by omega) h2]
    refine (step_point V c ⟨p + 2, h2⟩ b (by show b.val = (p + 2) / 4; omega) 2 (by show (2 : Fin 4).val = (p + 2) % 4; have : (2 : Fin 4).val = 2 := rfl; omega) _ k).trans ?_
    rw [e1]
  rw [acc1_next V c (p + 2) (by omega) h3]
  refine (step_point V c ⟨p + 3, h3⟩ b (by show b.val = (p + 3) / 4; omega) 3 (by show (3 : Fin 4).val = (p + 3) % 4; have : (3 : Fin 4).val = 3 := rfl; omega) _ k).trans ?_
  rw [e2]
  rfl

/-! ## From blocks to the array

Only a batch's fourth tile (t % 4 = 3) writes the pooled block back, to block t/4 of the array; the 32 batches'
blocks cover the [32,1,32] array. -/

/-- What the array ends holding: at (b, 0, k) the tile-accumulated pool of layer 2's result. -/
abbrev G (c : Dev nD) : FVec Ideal S32x1x32 .f32 := fun i => Spec.poolK (g2 V c) (ix2 (i 0) (i 2))

/-- What a batch's last point writes back is its block of `G`. -/
theorem flushed_eq (c : Dev nD) (t : Fin cfg1.N) (hf : (cfg1.win 4).flush t = true) :
    (dat1 (F := Ideal) V c).flushed 4 t = ((cfg1.win 4).blk t).view.read (Elt Ideal) (G V c) := by
  have hN : cfg1.N = 128 := N_1
  have ht : t.val % 4 = 3 := (flush1_4 t).mp hf
  show (cfg1.win 4).cut (grid1.coords t) ((dat1 V c).after 4 t) = _
  rw [after1_4]
  obtain ⟨-, -, -, -, -, -, -, -, -, -, e0, e1, e2⟩ := idx_facts1 t
  obtain ⟨tv, hlt⟩ := t
  obtain ⟨p, rfl⟩ : ∃ p, tv = p + 3 := ⟨tv - 3, by have : tv % 4 = 3 := ht; omega⟩
  have hp : p % 4 = 0 := by have : (p + 3) % 4 = 3 := ht; omega
  funext y
  obtain ⟨u, v, k, rfl⟩ : ∃ (u : Fin 1) (v : Fin 1) (k : Fin 32), y = ix3 u v k := ⟨y 0, y 1, y 2, eq_ix3 y⟩
  obtain rfl : u = 0 := Subsingleton.elim _ _
  obtain rfl : v = 0 := Subsingleton.elim _ _
  have hb : p / 4 < 32 := by omega
  refine (acc1_batch V c p hp hlt ⟨p / 4, hb⟩ rfl k).trans ?_
  rw [View.read_apply]
  show Spec.poolK (g2 V c) (ix2 (⟨p / 4, hb⟩ : Fin 32) k)
    = Spec.poolK (g2 V c) (ix2 ((((cfg1.win 4).blk ⟨p + 3, hlt⟩).view.emb (ix3 (0 : Fin 1) (0 : Fin 1) k)) 0)
        ((((cfg1.win 4).blk ⟨p + 3, hlt⟩).view.emb (ix3 (0 : Fin 1) (0 : Fin 1) k)) 2))
  have h0 : (((cfg1.win 4).blk ⟨p + 3, hlt⟩).view.emb (ix3 (0 : Fin 1) (0 : Fin 1) k)) 0 = (⟨p / 4, hb⟩ : Fin 32) :=
    Fin.ext (by
      show win1_4.index ⟨p + 3, hlt⟩ (0 : Fin 3) * 1 + 1 * 0 = p / 4
      rw [e0]; show (p + 3) / 4 * 1 + 1 * 0 = p / 4; omega)
  have h2 : (((cfg1.win 4).blk ⟨p + 3, hlt⟩).view.emb (ix3 (0 : Fin 1) (0 : Fin 1) k)) 2 = k :=
    Fin.ext (by
      show win1_4.index ⟨p + 3, hlt⟩ (2 : Fin 3) * 32 + 1 * k.val = k.val
      rw [e2]; omega)
  rw [h0, h2]

/-- An index of the array is in point t's block iff each coordinate is in the block's range on its axis. -/
theorem mem_blk (t : Fin cfg1.N) (i : S32x1x32.Idx) :
    i ∈ ((cfg1.win 4).blk t).view.set ↔ ∀ a : Fin 3, win1_4.index t a * S1x1x32.size a ≤ (i a).val ∧ (i a).val < win1_4.index t a * S1x1x32.size a + S1x1x32.size a := by
  show i ∈ ((View.whole main_v3).slice (win1_4.rect t)).set ↔ _
  rw [View.set_slice_whole, Rect.mem_set_unit]
  exact Iff.rfl

/-- Block b of the array is covered by batch b's last point 4·b + 3. -/
theorem cover (i : S32x1x32.Idx) : ∃ t : Fin cfg1.N, (cfg1.win 4).flush t = true ∧ i ∈ ((cfg1.win 4).blk t).view.set := by
  have hN : cfg1.N = 128 := N_1
  have hi0 : (i 0).val < 32 := (i 0).isLt
  have hi1 : (i 1).val < 1 := (i 1).isLt
  have hi2 : (i 2).val < 32 := (i 2).isLt
  have hlt : 4 * (i 0).val + 3 < cfg1.N := by omega
  refine ⟨⟨4 * (i 0).val + 3, hlt⟩, (flush1_4 _).mpr (by show (4 * (i 0).val + 3) % 4 = 3; omega), ?_⟩
  obtain ⟨-, -, -, -, -, -, -, -, -, -, e0, e1, e2⟩ := idx_facts1 ⟨4 * (i 0).val + 3, hlt⟩
  rw [mem_blk]
  intro a
  match a with
  | ⟨0, _⟩ =>
    show win1_4.index ⟨4 * (i 0).val + 3, hlt⟩ (0 : Fin 3) * 1 ≤ (i 0).val ∧ (i 0).val < win1_4.index ⟨4 * (i 0).val + 3, hlt⟩ (0 : Fin 3) * 1 + 1
    rw [e0]; show (4 * (i 0).val + 3) / 4 * 1 ≤ (i 0).val ∧ (i 0).val < (4 * (i 0).val + 3) / 4 * 1 + 1; omega
  | ⟨1, _⟩ =>
    show win1_4.index ⟨4 * (i 0).val + 3, hlt⟩ (1 : Fin 3) * 1 ≤ (i 1).val ∧ (i 1).val < win1_4.index ⟨4 * (i 0).val + 3, hlt⟩ (1 : Fin 3) * 1 + 1
    rw [e1]; omega
  | ⟨2, _⟩ =>
    show win1_4.index ⟨4 * (i 0).val + 3, hlt⟩ (2 : Fin 3) * 32 ≤ (i 2).val ∧ (i 2).val < win1_4.index ⟨4 * (i 0).val + 3, hlt⟩ (2 : Fin 3) * 32 + 32
    rw [e2]; omega

end Pool

/-- Region 1 leaves the tile-accumulated pool of layer 2's result in its output array. -/
theorem arr3_eq (c : Dev nD) :
    ((dat1 (F := Ideal) V c).arrAt 4 cfg1.N : FVec Ideal S32x1x32 .f32)
      = fun i => Spec.poolK (Spec.h2 (V c main_v1 : FVec Ideal S32x2048x32 .f32) (V c main_arg1 : FVec Ideal S32x2048x2048 .f32)
          (V c main_arg4 : FVec Ideal S32x32 .f32) (V c main_v2 : FVec Ideal S1x32 .f32)) (ix2 (i 0) (i 2)) :=
  (dat1 (F := Ideal) V c).arrAt_eq_of_cover 4 (Pool.G V c) (fun t hf => Pool.flushed_eq V c t hf) Pool.cover

end Cert.KernelIdeal.Hand

end
-- ==== Proof.KI.Result.lean ====
/-
  The kernel program's result at the ideal instance: the fold of @main's items read at the result buffer.
  Region 0 leaves layer 1's result, region 1 the tile-accumulated pool of layer 2's result over it, and the
  dense head's host operations apply to that pool; the four-tile pool is the sum over all nodes, so the result
  is the specification's `out` of the argument arrays.
-/
import proofs.«152775_j41695542509689_1_alg».proof.Proof.Gen.KernelIdeal.Launch
import proofs.«152775_j41695542509689_1_alg».proof.Proof.Gen.KernelIdeal.Skeleton
import proofs.«152775_j41695542509689_1_alg».proof.Proof.Gen.KernelIdeal.Points
import proofs.«152775_j41695542509689_1_alg».proof.Proof.KI.Run
import proofs.«152775_j41695542509689_1_alg».proof.Proof.KI.Value0
import proofs.«152775_j41695542509689_1_alg».proof.Proof.KI.Value1
import Idealize.ShloMosaic.Lib.StableHlo.Run
import proofs.«152775_j41695542509689_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ)

namespace Res

/-! ## The dense head's operations read at an index

Each host operation of the head is read at an index over variables of the literal array types; the two
contractions are the sums over the one contracted axis, the two-step broadcasts of a bias vector read the
vector at the column (or at its only entry), and the broadcast scalar constant is the zero word. -/

section Ops

private theorem d1_lhs_0 (i : S32x512.Idx) (q : dot_S32x32_S32x512_S32x512_1_0_0_1_n_n.contr.Idx) :
    (dot_S32x32_S32x512_S32x512_1_0_0_1_n_n.lhsIdx i q 0).val = (i 0).val := by
  unfold DotDims.lhsIdx
  rw [dif_neg (show ¬(0 : Fin S32x32.rank) ∈ dot_S32x32_S32x512_S32x512_1_0_0_1_n_n.lhsBatch by decide), dif_pos (show (0 : Fin S32x32.rank) ∈ dot_S32x32_S32x512_S32x512_1_0_0_1_n_n.lhsNonContracting by decide)]
  rfl
private theorem d1_lhs_1 (i : S32x512.Idx) (q : dot_S32x32_S32x512_S32x512_1_0_0_1_n_n.contr.Idx) :
    (dot_S32x32_S32x512_S32x512_1_0_0_1_n_n.lhsIdx i q 1).val = (q ⟨0, by decide⟩).val :=
  dot_S32x32_S32x512_S32x512_1_0_0_1_n_n.lhsIdx_val_of_single rfl i q
private theorem d1_rhs_0 (i : S32x512.Idx) (q : dot_S32x32_S32x512_S32x512_1_0_0_1_n_n.contr.Idx) :
    (dot_S32x32_S32x512_S32x512_1_0_0_1_n_n.rhsIdx i q 0).val = (q ⟨0, by decide⟩).val :=
  dot_S32x32_S32x512_S32x512_1_0_0_1_n_n.rhsIdx_val_of_single rfl i q
private theorem d1_rhs_1 (i : S32x512.Idx) (q : dot_S32x32_S32x512_S32x512_1_0_0_1_n_n.contr.Idx) :
    (dot_S32x32_S32x512_S32x512_1_0_0_1_n_n.rhsIdx i q 1).val = (i 1).val := by
  unfold DotDims.rhsIdx
  rw [dif_neg (show ¬(1 : Fin S32x512.rank) ∈ dot_S32x32_S32x512_S32x512_1_0_0_1_n_n.rhsBatch by decide), dif_pos (show (1 : Fin S32x512.rank) ∈ dot_S32x32_S32x512_S32x512_1_0_0_1_n_n.rhsNonContracting by decide)]
  rfl

/-- The first dense product at (b, h): the sum over the 32 pooled channels. -/
theorem dot1_apply (x : FVec Ideal S32x32 .f32) (y : FVec Ideal S32x512 .f32) (b : Fin 32) (h : Fin 512) :
    Host.dotGeneral dot_S32x32_S32x512_S32x512_1_0_0_1_n_n none x y (ix2 b h) = ∑ k : Fin 32, x (ix2 b k) * y (ix2 k h) := by
  simp only [Host.dotGeneral]
  rw [Ideal.dotGeneral_apply, ← Equiv.sum_comp (ValueIdx.contrEquiv1 dot_S32x32_S32x512_S32x512_1_0_0_1_n_n 32 rfl rfl).symm]
  refine Finset.sum_congr rfl fun k _ => ?_
  have hk := ValueIdx.contrEquiv1_symm_val dot_S32x32_S32x512_S32x512_1_0_0_1_n_n 32 rfl rfl k
  have el : dot_S32x32_S32x512_S32x512_1_0_0_1_n_n.lhsIdx (ix2 b h) ((ValueIdx.contrEquiv1 dot_S32x32_S32x512_S32x512_1_0_0_1_n_n 32 rfl rfl).symm k) = ix2 b k := funext fun a => Fin.ext (by
    match a with
    | ⟨0, _⟩ => exact d1_lhs_0 _ _
    | ⟨1, _⟩ => exact (d1_lhs_1 _ _).trans hk)
  have er : dot_S32x32_S32x512_S32x512_1_0_0_1_n_n.rhsIdx (ix2 b h) ((ValueIdx.contrEquiv1 dot_S32x32_S32x512_S32x512_1_0_0_1_n_n 32 rfl rfl).symm k) = ix2 k h := funext fun a => Fin.ext (by
    match a with
    | ⟨0, _⟩ => exact (d1_rhs_0 _ _).trans hk
    | ⟨1, _⟩ => exact d1_rhs_1 _ _)
  rw [el, er]

private theorem d2_lhs_0 (i : S32x1.Idx) (q : dot_S32x512_S512x1_S32x1_1_0_0_1_n_n.contr.Idx) :
    (dot_S32x512_S512x1_S32x1_1_0_0_1_n_n.lhsIdx i q 0).val = (i 0).val := by
  unfold DotDims.lhsIdx
  rw [dif_neg (show ¬(0 : Fin S32x512.rank) ∈ dot_S32x512_S512x1_S32x1_1_0_0_1_n_n.lhsBatch by decide), dif_pos (show (0 : Fin S32x512.rank) ∈ dot_S32x512_S512x1_S32x1_1_0_0_1_n_n.lhsNonContracting by decide)]
  rfl
private theorem d2_lhs_1 (i : S32x1.Idx) (q : dot_S32x512_S512x1_S32x1_1_0_0_1_n_n.contr.Idx) :
    (dot_S32x512_S512x1_S32x1_1_0_0_1_n_n.lhsIdx i q 1).val = (q ⟨0, by decide⟩).val :=
  dot_S32x512_S512x1_S32x1_1_0_0_1_n_n.lhsIdx_val_of_single rfl i q
private theorem d2_rhs_0 (i : S32x1.Idx) (q : dot_S32x512_S512x1_S32x1_1_0_0_1_n_n.contr.Idx) :
    (dot_S32x512_S512x1_S32x1_1_0_0_1_n_n.rhsIdx i q 0).val = (q ⟨0, by decide⟩).val :=
  dot_S32x512_S512x1_S32x1_1_0_0_1_n_n.rhsIdx_val_of_single rfl i q
private theorem d2_rhs_1 (i : S32x1.Idx) (q : dot_S32x512_S512x1_S32x1_1_0_0_1_n_n.contr.Idx) :
    (dot_S32x512_S512x1_S32x1_1_0_0_1_n_n.rhsIdx i q 1).val = (i 1).val := by
  unfold DotDims.rhsIdx
  rw [dif_neg (show ¬(1 : Fin S512x1.rank) ∈ dot_S32x512_S512x1_S32x1_1_0_0_1_n_n.rhsBatch by decide), dif_pos (show (1 : Fin S512x1.rank) ∈ dot_S32x512_S512x1_S32x1_1_0_0_1_n_n.rhsNonContracting by decide)]
  rfl

/-- The second dense product at (b, o): the sum over the 512 hidden units. -/
theorem dot2_apply (x : FVec Ideal S32x512 .f32) (y : FVec Ideal S512x1 .f32) (b : Fin 32) (o : Fin 1) :
    Host.dotGeneral dot_S32x512_S512x1_S32x1_1_0_0_1_n_n none x y (ix2 b o) = ∑ h : Fin 512, x (ix2 b h) * y (ix2 h o) := by
  simp only [Host.dotGeneral]
  rw [Ideal.dotGeneral_apply, ← Equiv.sum_comp (ValueIdx.contrEquiv1 dot_S32x512_S512x1_S32x1_1_0_0_1_n_n 512 rfl rfl).symm]
  refine Finset.sum_congr rfl fun k _ => ?_
  have hk := ValueIdx.contrEquiv1_symm_val dot_S32x512_S512x1_S32x1_1_0_0_1_n_n 512 rfl rfl k
  have el : dot_S32x512_S512x1_S32x1_1_0_0_1_n_n.lhsIdx (ix2 b o) ((ValueIdx.contrEquiv1 dot_S32x512_S512x1_S32x1_1_0_0_1_n_n 512 rfl rfl).symm k) = ix2 b k := funext fun a => Fin.ext (by
    match a with
    | ⟨0, _⟩ => exact d2_lhs_0 _ _
    | ⟨1, _⟩ => exact (d2_lhs_1 _ _).trans hk)
  have er : dot_S32x512_S512x1_S32x1_1_0_0_1_n_n.rhsIdx (ix2 b o) ((ValueIdx.contrEquiv1 dot_S32x512_S512x1_S32x1_1_0_0_1_n_n 512 rfl rfl).symm k) = ix2 k o := funext fun a => Fin.ext (by
    match a with
    | ⟨0, _⟩ => exact (d2_rhs_0 _ _).trans hk
    | ⟨1, _⟩ => exact d2_rhs_1 _ _)
  rw [el, er]

/-- The pooled array [32, 1, 32] reshaped to [32, 32] reads, at (b, k), the array at (b, 0, k). -/
theorem pool_reshape_apply (p : FVec Ideal S32x1x32 .f32) (b : Fin 32) (k : Fin 32) :
    shapeCast S32x32 p shapeCasts_S32x1x32_S32x32 (ix2 b k) = p (ix3 b (0 : Fin 1) k) :=
  shapeCast_apply p shapeCasts_S32x1x32_S32x32 _ _ (by
    rw [Shape.rowMajor_val_three, Shape.rowMajor_val_two]
    show (b.val * 1 + 0) * 32 + k.val = b.val * 32 + k.val
    omega)

/-- The first bias vector, broadcast to a row and then down the 32 rows, reads at (b, h) the vector at h. -/
theorem bias1_apply (v : FVec Ideal S512 .f32) (b : Fin 32) (h : Fin 512) :
    broadcastInDim S32x512 ![0, 1] bcast_S1x512_S32x512_0_1 (broadcastInDim S1x512 ![1] bcast_S512_S1x512_1 v) (ix2 b h) = v (ix1 h) := by
  refine (broadcastInDim_apply _ bcast_S1x512_S32x512_0_1 _ (ix2 b h) (ix2 (0 : Fin 1) h) (fun a => match a with
    | ⟨0, _⟩ => by show 0 = if (1 : Nat) = 1 then 0 else b.val; rw [if_pos rfl]
    | ⟨1, _⟩ => by show h.val = if (512 : Nat) = 1 then 0 else h.val; rw [if_neg (by decide)])).trans ?_
  exact broadcastInDim_apply _ bcast_S512_S1x512_1 v (ix2 (0 : Fin 1) h) (ix1 h) (fun a => match a with
    | ⟨0, _⟩ => by show h.val = if (512 : Nat) = 1 then 0 else h.val; rw [if_neg (by decide)])

/-- The second bias vector (one entry), broadcast to [1, 1] and then down the 32 rows, reads its entry. -/
theorem bias2_apply (v : FVec Ideal S1 .f32) (b : Fin 32) (o : Fin 1) :
    broadcastInDim S32x1 ![0, 1] bcast_S1x1_S32x1_0_1 (broadcastInDim S1x1 ![1] bcast_S1_S1x1_1 v) (ix2 b o) = v (ix1 (0 : Fin 1)) := by
  refine (broadcastInDim_apply _ bcast_S1x1_S32x1_0_1 _ (ix2 b o) (ix2 (0 : Fin 1) (0 : Fin 1)) (fun a => match a with
    | ⟨0, _⟩ => by show 0 = if (1 : Nat) = 1 then 0 else b.val; rw [if_pos rfl]
    | ⟨1, _⟩ => by show 0 = if (1 : Nat) = 1 then 0 else o.val; rw [if_pos rfl])).trans ?_
  exact broadcastInDim_apply _ bcast_S1_S1x1_1 v (ix2 (0 : Fin 1) (0 : Fin 1)) (ix1 (0 : Fin 1)) (fun a => match a with
    | ⟨0, _⟩ => by show 0 = if (1 : Nat) = 1 then 0 else 0; rw [if_pos rfl])

/-- The scalar zero constant broadcast to [32, 512] reads the zero word everywhere. -/
theorem zero_apply (j : S32x512.Idx) :
    broadcastInDim S32x512 ![] bcast_S_S32x512 (constant (F := Ideal) S_ .f32 0x00000000#32) j = Spec.z :=
  broadcastInDim_apply _ bcast_S_S32x512 (constant (F := Ideal) S_ .f32 0x00000000#32) j (fun a => a.elim0) (fun a => a.elim0)

end Ops

/-! ## The head as one function -/

/-- The head's twelve host operations applied to the pooled array and the head's weights. -/
def headK (p : FVec Ideal S32x1x32 .f32) (wf1 : FVec Ideal S32x512 .f32) (bf1 : FVec Ideal S512 .f32)
    (wf2 : FVec Ideal S512x1 .f32) (bf2 : FVec Ideal S1 .f32) : FVec Ideal S32x1 .f32 :=
  addf (Host.dotGeneral dot_S32x512_S512x1_S32x1_1_0_0_1_n_n none
      (maximumf
        (addf (Host.dotGeneral dot_S32x32_S32x512_S32x512_1_0_0_1_n_n none (shapeCast S32x32 p shapeCasts_S32x1x32_S32x32) wf1)
          (broadcastInDim S32x512 ![0, 1] bcast_S1x512_S32x512_0_1 (broadcastInDim S1x512 ![1] bcast_S512_S1x512_1 bf1)))
        (broadcastInDim S32x512 ![] bcast_S_S32x512 (constant (F := Ideal) S_ .f32 0x00000000#32)))
      wf2)
    (broadcastInDim S32x1 ![0, 1] bcast_S1x1_S32x1_0_1 (broadcastInDim S1x1 ![1] bcast_S1_S1x1_1 bf2))

/-- The head at (b, o): Σ_h max(Σ_k p[b,0,k]·Wf1[k,h] + bf1[h], z) · Wf2[h,o] + bf2[0]. -/
theorem headK_apply (p : FVec Ideal S32x1x32 .f32) (wf1 : FVec Ideal S32x512 .f32) (bf1 : FVec Ideal S512 .f32)
    (wf2 : FVec Ideal S512x1 .f32) (bf2 : FVec Ideal S1 .f32) (b : Fin 32) (o : Fin 1) :
    headK p wf1 bf1 wf2 bf2 (ix2 b o)
      = (∑ h : Fin 512, max ((∑ k : Fin 32, p (ix3 b (0 : Fin 1) k) * wf1 (ix2 k h)) + bf1 (ix1 h)) Spec.z * wf2 (ix2 h o))
          + bf2 (ix1 (0 : Fin 1)) := by
  unfold headK
  rw [addf_apply, dot2_apply, bias2_apply]
  congr 1
  refine Finset.sum_congr rfl fun h _ => ?_
  rw [maximumf_apply, addf_apply, dot1_apply, bias1_apply, zero_apply]
  simp only [pool_reshape_apply]

/-! ## The buffers at each boundary

No item of the program writes an argument, so an argument read at any boundary is the launch content; the two
bias rows are the reshapes [32] → [1, 32] of their vectors; region 0's output array is layer 1's result and
region 1's the tile-accumulated pool of layer 2's result over it. -/

section Stages

/-! ### At region 0's entry -/

theorem V1_arg0 (c : Dev nD) : V1 m c main_arg0 = m ((c : Thread nD τ).loc main_arg0) := by
  show StableHlo.after hostOps0 _ (Proc.devRef .tc main_arg0) = _
  after_results
theorem V1_arg1 (c : Dev nD) : V1 m c main_arg1 = m ((c : Thread nD τ).loc main_arg1) := by
  show StableHlo.after hostOps0 _ (Proc.devRef .tc main_arg1) = _
  after_results
theorem V1_arg2 (c : Dev nD) : V1 m c main_arg2 = m ((c : Thread nD τ).loc main_arg2) := by
  show StableHlo.after hostOps0 _ (Proc.devRef .tc main_arg2) = _
  after_results
theorem V1_arg4 (c : Dev nD) : V1 m c main_arg4 = m ((c : Thread nD τ).loc main_arg4) := by
  show StableHlo.after hostOps0 _ (Proc.devRef .tc main_arg4) = _
  after_results
theorem V1_arg5 (c : Dev nD) : V1 m c main_arg5 = m ((c : Thread nD τ).loc main_arg5) := by
  show StableHlo.after hostOps0 _ (Proc.devRef .tc main_arg5) = _
  after_results
theorem V1_arg6 (c : Dev nD) : V1 m c main_arg6 = m ((c : Thread nD τ).loc main_arg6) := by
  show StableHlo.after hostOps0 _ (Proc.devRef .tc main_arg6) = _
  after_results
theorem V1_arg7 (c : Dev nD) : V1 m c main_arg7 = m ((c : Thread nD τ).loc main_arg7) := by
  show StableHlo.after hostOps0 _ (Proc.devRef .tc main_arg7) = _
  after_results
theorem V1_arg8 (c : Dev nD) : V1 m c main_arg8 = m ((c : Thread nD τ).loc main_arg8) := by
  show StableHlo.after hostOps0 _ (Proc.devRef .tc main_arg8) = _
  after_results
theorem V1_arg9 (c : Dev nD) : V1 m c main_arg9 = m ((c : Thread nD τ).loc main_arg9) := by
  show StableHlo.after hostOps0 _ (Proc.devRef .tc main_arg9) = _
  after_results

/-- Layer 1's bias row is the reshape of its bias vector. -/
theorem V1_v0 (c : Dev nD) :
    (V1 m c main_v0 : FVec Ideal S1x32 .f32) = Spec.brow (m ((c : Thread nD τ).loc main_arg3) : FVec Ideal S32 .f32) := by
  show StableHlo.after hostOps0 _ (Proc.devRef .tc main_v0) = _
  after_results
  funext j
  rw [eq_ix2 j]
  exact shapeCast_a_1a_apply _ _ _ _

/-! ### At region 0's exit -/

/-- Region 0's output array holds layer 1's result of the launch contents. -/
theorem V2_v1 (c : Dev nD) :
    (V2 m c main_v1 : FVec Ideal S32x2048x32 .f32)
      = Spec.h1 (m ((c : Thread nD τ).loc main_arg0) : FVec Ideal S32x2048x64 .f32) (m ((c : Thread nD τ).loc main_arg1) : FVec Ideal S32x2048x2048 .f32)
          (m ((c : Thread nD τ).loc main_arg2) : FVec Ideal S64x32 .f32) (Spec.brow (m ((c : Thread nD τ).loc main_arg3) : FVec Ideal S32 .f32)) := by
  refine (W2_arr m c 4).trans ?_
  rw [arr1_eq (V1 m) c, V1_arg0, V1_arg1, V1_arg2, V1_v0]

/-- A region's input array is unchanged by it. -/
theorem V2_arg1 (c : Dev nD) : V2 m c main_arg1 = m ((c : Thread nD τ).loc main_arg1) := by
  refine (W2_arr m c 1).trans ?_
  rw [(dat0 (V1 m) c).arrAt_in 1 rfl _, A_eq0]
  exact V1_arg1 m c
theorem V2_arg4 (c : Dev nD) : V2 m c main_arg4 = m ((c : Thread nD τ).loc main_arg4) :=
  (W2_of_ne m c main_arg4 (by decide)).trans (V1_arg4 m c)
theorem V2_arg5 (c : Dev nD) : V2 m c main_arg5 = m ((c : Thread nD τ).loc main_arg5) :=
  (W2_of_ne m c main_arg5 (by decide)).trans (V1_arg5 m c)
theorem V2_arg6 (c : Dev nD) : V2 m c main_arg6 = m ((c : Thread nD τ).loc main_arg6) :=
  (W2_of_ne m c main_arg6 (by decide)).trans (V1_arg6 m c)
theorem V2_arg7 (c : Dev nD) : V2 m c main_arg7 = m ((c : Thread nD τ).loc main_arg7) :=
  (W2_of_ne m c main_arg7 (by decide)).trans (V1_arg7 m c)
theorem V2_arg8 (c : Dev nD) : V2 m c main_arg8 = m ((c : Thread nD τ).loc main_arg8) :=
  (W2_of_ne m c main_arg8 (by decide)).trans (V1_arg8 m c)
theorem V2_arg9 (c : Dev nD) : V2 m c main_arg9 = m ((c : Thread nD τ).loc main_arg9) :=
  (W2_of_ne m c main_arg9 (by decide)).trans (V1_arg9 m c)

/-! ### At region 1's entry -/

theorem V3_v1 (c : Dev nD) : V3 m c main_v1 = V2 m c main_v1 := by
  show StableHlo.after hostOps1 _ (Proc.devRef .tc main_v1) = _
  after_results
theorem V3_arg1 (c : Dev nD) : V3 m c main_arg1 = m ((c : Thread nD τ).loc main_arg1) := by
  refine Eq.trans ?_ (V2_arg1 m c)
  show StableHlo.after hostOps1 _ (Proc.devRef .tc main_arg1) = _
  after_results
theorem V3_arg4 (c : Dev nD) : V3 m c main_arg4 = m ((c : Thread nD τ).loc main_arg4) := by
  refine Eq.trans ?_ (V2_arg4 m c)
  show StableHlo.after hostOps1 _ (Proc.devRef .tc main_arg4) = _
  after_results
theorem V3_arg6 (c : Dev nD) : V3 m c main_arg6 = m ((c : Thread nD τ).loc main_arg6) := by
  refine Eq.trans ?_ (V2_arg6 m c)
  show StableHlo.after hostOps1 _ (Proc.devRef .tc main_arg6) = _
  after_results
theorem V3_arg7 (c : Dev nD) : V3 m c main_arg7 = m ((c : Thread nD τ).loc main_arg7) := by
  refine Eq.trans ?_ (V2_arg7 m c)
  show StableHlo.after hostOps1 _ (Proc.devRef .tc main_arg7) = _
  after_results
theorem V3_arg8 (c : Dev nD) : V3 m c main_arg8 = m ((c : Thread nD τ).loc main_arg8) := by
  refine Eq.trans ?_ (V2_arg8 m c)
  show StableHlo.after hostOps1 _ (Proc.devRef .tc main_arg8) = _
  after_results
theorem V3_arg9 (c : Dev nD) : V3 m c main_arg9 = m ((c : Thread nD τ).loc main_arg9) := by
  refine Eq.trans ?_ (V2_arg9 m c)
  show StableHlo.after hostOps1 _ (Proc.devRef .tc main_arg9) = _
  after_results

/-- Layer 2's bias row is the reshape of its bias vector. -/
theorem V3_v2 (c : Dev nD) :
    (V3 m c main_v2 : FVec Ideal S1x32 .f32) = Spec.brow (m ((c : Thread nD τ).loc main_arg5) : FVec Ideal S32 .f32) := by
  rw [← V2_arg5 m c]
  show StableHlo.after hostOps1 _ (Proc.devRef .tc main_v2) = _
  after_results
  funext j
  rw [eq_ix2 j]
  exact shapeCast_a_1a_apply _ _ _ _

/-! ### At region 1's exit -/

theorem V4_arg6 (c : Dev nD) : V4 m c main_arg6 = m ((c : Thread nD τ).loc main_arg6) :=
  (W4_of_ne m c main_arg6 (by decide)).trans (V3_arg6 m c)
theorem V4_arg7 (c : Dev nD) : V4 m c main_arg7 = m ((c : Thread nD τ).loc main_arg7) :=
  (W4_of_ne m c main_arg7 (by decide)).trans (V3_arg7 m c)
theorem V4_arg8 (c : Dev nD) : V4 m c main_arg8 = m ((c : Thread nD τ).loc main_arg8) :=
  (W4_of_ne m c main_arg8 (by decide)).trans (V3_arg8 m c)
theorem V4_arg9 (c : Dev nD) : V4 m c main_arg9 = m ((c : Thread nD τ).loc main_arg9) :=
  (W4_of_ne m c main_arg9 (by decide)).trans (V3_arg9 m c)

/-- Layer 2's result of the launch contents, over layer 1's. -/
abbrev G (c : Dev nD) : Spec.SH.Idx → EReal :=
  Spec.h2 (Spec.h1 (m ((c : Thread nD τ).loc main_arg0) : FVec Ideal S32x2048x64 .f32) (m ((c : Thread nD τ).loc main_arg1) : FVec Ideal S32x2048x2048 .f32)
      (m ((c : Thread nD τ).loc main_arg2) : FVec Ideal S64x32 .f32) (Spec.brow (m ((c : Thread nD τ).loc main_arg3) : FVec Ideal S32 .f32)))
    (m ((c : Thread nD τ).loc main_arg1) : FVec Ideal S32x2048x2048 .f32) (m ((c : Thread nD τ).loc main_arg4) : FVec Ideal S32x32 .f32)
    (Spec.brow (m ((c : Thread nD τ).loc main_arg5) : FVec Ideal S32 .f32))

/-- Region 1's output array holds the tile-accumulated pool of layer 2's result. -/
theorem V4_v3 (c : Dev nD) :
    (V4 m c main_v3 : FVec Ideal S32x1x32 .f32) = fun i => Spec.poolK (G m c) (ix2 (i 0) (i 2)) := by
  refine (W4_arr m c 4).trans ?_
  rw [arr3_eq (V3 m) c, V3_v1, V2_v1, V3_arg1, V3_arg4, V3_v2]

/-! ### After the head -/

/-- The result buffer holds the head's operations applied to region 1's output array and the head's weights. -/
theorem W7_v13 (c : Dev nD) :
    (W7 (F := Ideal) m c (Proc.devRef .tc main_v13) : FVec Ideal S32x1 .f32)
      = headK (V4 m c main_v3) (V4 m c main_arg6) (V4 m c main_arg7) (V4 m c main_arg8) (V4 m c main_arg9) := by
  show StableHlo.after hostOps2_2 _ (Proc.devRef .tc main_v13) = _
  after_results
  rfl

end Stages

end Res

open Res in
/-- The result buffer at the fold's last stage is the specification's `out` of the launch contents of the arguments. -/
theorem kernel_result (c : Dev nD) :
    (W7 (F := Ideal) m c (Proc.devRef .tc main_v13) : FVec Ideal S32x1 .f32)
      = Spec.out (m ((c : Thread nD τ).loc main_arg0) : FVec Ideal S32x2048x64 .f32) (m ((c : Thread nD τ).loc main_arg1) : FVec Ideal S32x2048x2048 .f32) (m ((c : Thread nD τ).loc main_arg2) : FVec Ideal S64x32 .f32) (m ((c : Thread nD τ).loc main_arg3) : FVec Ideal S32 .f32)
          (m ((c : Thread nD τ).loc main_arg4) : FVec Ideal S32x32 .f32) (m ((c : Thread nD τ).loc main_arg5) : FVec Ideal S32 .f32) (m ((c : Thread nD τ).loc main_arg6) : FVec Ideal S32x512 .f32) (m ((c : Thread nD τ).loc main_arg7) : FVec Ideal S512 .f32) (m ((c : Thread nD τ).loc main_arg8) : FVec Ideal S512x1 .f32) (m ((c : Thread nD τ).loc main_arg9) : FVec Ideal S1 .f32) := by
  rw [W7_v13, V4_v3, V4_arg6, V4_arg7, V4_arg8, V4_arg9]
  funext j
  rw [eq_ix2 j]
  refine (headK_apply _ _ _ _ _ (j 0) (j 1)).trans ?_
  unfold Spec.out Spec.head
  rw [← Spec.poolK_eq_poolR]
  rfl

end Cert.KernelIdeal.Hand

end
-- ==== Proof.RefValue.lean ====
/-
  The reference's result at the ideal instance, read back operation by operation from its generated run: two
  graph-convolution layers as batched products, the sum over the node axis from the zero word, and the dense
  head — the specification's `out` of the argument arrays.
-/
import proofs.«152775_j41695542509689_1_alg».proof.Proof.Gen.ReferenceIdeal.Run
import proofs.«152775_j41695542509689_1_alg».proof.Proof.Gen.ReferenceIdeal.Read
import proofs.«152775_j41695542509689_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefValue

open Idealize.ShloMosaic Idealize.ShloMosaic.TcCoe Idealize.SL.Sem Idealize.ShloMosaic.ValueIdx
open Cert.ReferenceIdeal Cert.ReferenceIdeal.Gen

/-! ## Layer 1: max(A·(X·W1) + b1, 0)

A batched product reads its left operand at the coordinates (b, n, ·) and its right one at (·, c) or
(b, ·, c), the dot standing for the contracted axis; these are the indices the specification sums over. -/

/-- The projection X·W1 at (b, m, c): the sum over the 64 features. -/
theorem v0_at (x0 : (⟨S32x2048x64, .f32⟩ : BufTy).Contents (Elt Ideal)) (x2 : (⟨S64x32, .f32⟩ : BufTy).Contents (Elt Ideal))
    (b : Fin 32) (m : Fin 2048) (c : Fin 32) :
    Read.val_main_v0 (F := Ideal) x0 x2 (ix3 b m c) = ∑ f : Fin 64, x0 (ix3 b m f) * x2 (ix2 f c) := by
  rw [Read.val_main_v0_apply]
  refine Finset.sum_congr rfl fun f _ => ?_
  have el : Read.lidx_main_v0 (ix3 b m c) f = ix3 b m f :=
    funext fun a => Fin.ext (by match a with | ⟨0, _⟩ => rfl | ⟨1, _⟩ => rfl | ⟨2, _⟩ => rfl)
  have er : Read.ridx_main_v0 (ix3 b m c) f = ix2 f c :=
    funext fun a => Fin.ext (by match a with | ⟨0, _⟩ => rfl | ⟨1, _⟩ => rfl)
  rw [el, er]

/-- The aggregation A·(X·W1) at (b, n, c): the sum over the 2048 nodes of A[b,n,m] times the projection at (b, m, c). -/
theorem v1_at (x0 : (⟨S32x2048x64, .f32⟩ : BufTy).Contents (Elt Ideal)) (x1 : (⟨S32x2048x2048, .f32⟩ : BufTy).Contents (Elt Ideal))
    (x2 : (⟨S64x32, .f32⟩ : BufTy).Contents (Elt Ideal)) (b : Fin 32) (n : Fin 2048) (c : Fin 32) :
    Read.val_main_v1 (F := Ideal) x0 x1 x2 (ix3 b n c)
      = ∑ m : Fin 2048, x1 (ix3 b n m) * ∑ f : Fin 64, x0 (ix3 b m f) * x2 (ix2 f c) := by
  rw [Read.val_main_v1_apply]
  refine Finset.sum_congr rfl fun m _ => ?_
  have el : Read.lidx_main_v1 (ix3 b n c) m = ix3 b n m :=
    funext fun a => Fin.ext (by match a with | ⟨0, _⟩ => rfl | ⟨1, _⟩ => rfl | ⟨2, _⟩ => rfl)
  have er : Read.ridx_main_v1 (ix3 b n c) m = ix3 b m c :=
    funext fun a => Fin.ext (by match a with | ⟨0, _⟩ => rfl | ⟨1, _⟩ => rfl | ⟨2, _⟩ => rfl)
  rw [el, er, v0_at]

/-- The bias of layer 1 broadcast to (b, n, c) is the bias row at (0, c). -/
theorem v3_at (x3 : (⟨S32, .f32⟩ : BufTy).Contents (Elt Ideal)) (b : Fin 32) (n : Fin 2048) (c : Fin 32) :
    Read.val_main_v3 (F := Ideal) x3 (ix3 b n c) = Spec.brow x3 (ix2 (0 : Fin 1) c) := by
  rw [Read.val_main_v3_apply, Read.val_main_v2_apply]
  unfold Spec.brow
  exact congrArg x3 (funext fun a => Fin.ext (by match a with | ⟨0, _⟩ => rfl))

/-- The zero constant broadcast over layer 1's shape is the zero word everywhere. -/
theorem relu0_at (i : S32x2048x32.Idx) : Read.val_main_call0_v0 (F := Ideal) i = Spec.z := by
  rw [Read.val_main_call0_v0_apply, Read.val_main_call0_cst_apply]
  rfl

/-- Layer 1 of the reference is the specification's first layer of the arguments. -/
theorem v5_eq (x0 : (⟨S32x2048x64, .f32⟩ : BufTy).Contents (Elt Ideal)) (x1 : (⟨S32x2048x2048, .f32⟩ : BufTy).Contents (Elt Ideal))
    (x2 : (⟨S64x32, .f32⟩ : BufTy).Contents (Elt Ideal)) (x3 : (⟨S32, .f32⟩ : BufTy).Contents (Elt Ideal)) :
    Read.val_main_v5 (F := Ideal) x0 x1 x2 x3 = Spec.h1 x0 x1 x2 (Spec.brow x3) := by
  funext i
  obtain ⟨b, n, c, rfl⟩ : ∃ (b : Fin 32) (n : Fin 2048) (c : Fin 32), i = ix3 b n c := ⟨i 0, i 1, i 2, eq_ix3 i⟩
  rw [Read.val_main_v5_apply, Read.val_main_v4_apply, v1_at, v3_at, relu0_at, Ideal.maximumf_def, Ideal.addf_def]
  rfl

/-! ## Layer 2: max(A·(H·W2) + b2, 0), H the first layer's result; only H's values at (b, m, k) enter -/

/-- The projection H·W2 at (b, m, c): the sum over the 32 channels of layer 1. -/
theorem v6_at (x0 : (⟨S32x2048x64, .f32⟩ : BufTy).Contents (Elt Ideal)) (x1 : (⟨S32x2048x2048, .f32⟩ : BufTy).Contents (Elt Ideal))
    (x2 : (⟨S64x32, .f32⟩ : BufTy).Contents (Elt Ideal)) (x3 : (⟨S32, .f32⟩ : BufTy).Contents (Elt Ideal)) (x4 : (⟨S32x32, .f32⟩ : BufTy).Contents (Elt Ideal))
    (b : Fin 32) (m : Fin 2048) (c : Fin 32) :
    Read.val_main_v6 (F := Ideal) x0 x1 x2 x3 x4 (ix3 b m c)
      = ∑ k : Fin 32, Read.val_main_v5 (F := Ideal) x0 x1 x2 x3 (ix3 b m k) * x4 (ix2 k c) := by
  rw [Read.val_main_v6_apply]
  refine Finset.sum_congr rfl fun k _ => ?_
  have el : Read.lidx_main_v6 (ix3 b m c) k = ix3 b m k :=
    funext fun a => Fin.ext (by match a with | ⟨0, _⟩ => rfl | ⟨1, _⟩ => rfl | ⟨2, _⟩ => rfl)
  have er : Read.ridx_main_v6 (ix3 b m c) k = ix2 k c :=
    funext fun a => Fin.ext (by match a with | ⟨0, _⟩ => rfl | ⟨1, _⟩ => rfl)
  rw [el, er]

/-- The aggregation A·(H·W2) at (b, n, c). -/
theorem v7_at (x0 : (⟨S32x2048x64, .f32⟩ : BufTy).Contents (Elt Ideal)) (x1 : (⟨S32x2048x2048, .f32⟩ : BufTy).Contents (Elt Ideal))
    (x2 : (⟨S64x32, .f32⟩ : BufTy).Contents (Elt Ideal)) (x3 : (⟨S32, .f32⟩ : BufTy).Contents (Elt Ideal)) (x4 : (⟨S32x32, .f32⟩ : BufTy).Contents (Elt Ideal))
    (b : Fin 32) (n : Fin 2048) (c : Fin 32) :
    Read.val_main_v7 (F := Ideal) x0 x1 x2 x3 x4 (ix3 b n c)
      = ∑ m : Fin 2048, x1 (ix3 b n m) * ∑ k : Fin 32, Read.val_main_v5 (F := Ideal) x0 x1 x2 x3 (ix3 b m k) * x4 (ix2 k c) := by
  rw [Read.val_main_v7_apply]
  refine Finset.sum_congr rfl fun m _ => ?_
  have el : Read.lidx_main_v7 (ix3 b n c) m = ix3 b n m :=
    funext fun a => Fin.ext (by match a with | ⟨0, _⟩ => rfl | ⟨1, _⟩ => rfl | ⟨2, _⟩ => rfl)
  have er : Read.ridx_main_v7 (ix3 b n c) m = ix3 b m c :=
    funext fun a => Fin.ext (by match a with | ⟨0, _⟩ => rfl | ⟨1, _⟩ => rfl | ⟨2, _⟩ => rfl)
  rw [el, er, v6_at]

/-- The bias of layer 2 broadcast to (b, n, c) is the bias row at (0, c). -/
theorem v9_at (x5 : (⟨S32, .f32⟩ : BufTy).Contents (Elt Ideal)) (b : Fin 32) (n : Fin 2048) (c : Fin 32) :
    Read.val_main_v9 (F := Ideal) x5 (ix3 b n c) = Spec.brow x5 (ix2 (0 : Fin 1) c) := by
  rw [Read.val_main_v9_apply, Read.val_main_v8_apply]
  unfold Spec.brow
  exact congrArg x5 (funext fun a => Fin.ext (by match a with | ⟨0, _⟩ => rfl))

/-- The second zero constant broadcast over the layer's shape is the zero word everywhere. -/
theorem relu1_at (i : S32x2048x32.Idx) : Read.val_main_call1_v0 (F := Ideal) i = Spec.z := by
  rw [Read.val_main_call1_v0_apply, Read.val_main_call1_cst_apply]
  rfl

/-- Layer 2 of the reference is the specification's second layer of the reference's layer 1. -/
theorem v11_eq (x0 : (⟨S32x2048x64, .f32⟩ : BufTy).Contents (Elt Ideal)) (x1 : (⟨S32x2048x2048, .f32⟩ : BufTy).Contents (Elt Ideal))
    (x2 : (⟨S64x32, .f32⟩ : BufTy).Contents (Elt Ideal)) (x3 : (⟨S32, .f32⟩ : BufTy).Contents (Elt Ideal)) (x4 : (⟨S32x32, .f32⟩ : BufTy).Contents (Elt Ideal))
    (x5 : (⟨S32, .f32⟩ : BufTy).Contents (Elt Ideal)) :
    Read.val_main_v11 (F := Ideal) x0 x1 x2 x3 x4 x5
      = Spec.h2 (Read.val_main_v5 (F := Ideal) x0 x1 x2 x3) x1 x4 (Spec.brow x5) := by
  funext i
  obtain ⟨b, n, c, rfl⟩ : ∃ (b : Fin 32) (n : Fin 2048) (c : Fin 32), i = ix3 b n c := ⟨i 0, i 1, i 2, eq_ix3 i⟩
  rw [Read.val_main_v11_apply, Read.val_main_v10_apply, v7_at, v9_at, relu1_at, Ideal.maximumf_def, Ideal.addf_def]
  rfl

/-! ## The pool: the zero word plus the sum over the 2048 nodes of a batch -/

/-- The reference's reduction over the node axis is the specification's pool of the reference's layer 2. -/
theorem v12_eq (x0 : (⟨S32x2048x64, .f32⟩ : BufTy).Contents (Elt Ideal)) (x1 : (⟨S32x2048x2048, .f32⟩ : BufTy).Contents (Elt Ideal))
    (x2 : (⟨S64x32, .f32⟩ : BufTy).Contents (Elt Ideal)) (x3 : (⟨S32, .f32⟩ : BufTy).Contents (Elt Ideal)) (x4 : (⟨S32x32, .f32⟩ : BufTy).Contents (Elt Ideal))
    (x5 : (⟨S32, .f32⟩ : BufTy).Contents (Elt Ideal)) :
    Read.val_main_v12 (F := Ideal) x0 x1 x2 x3 x4 x5 = Spec.poolR (Read.val_main_v11 (F := Ideal) x0 x1 x2 x3 x4 x5) := by
  funext j
  obtain ⟨b, c, rfl⟩ : ∃ (b : Fin 32) (c : Fin 32), j = ix2 b c := ⟨j 0, j 1, eq_ix2 j⟩
  rw [Read.val_main_v12_apply, Read.val_main_cst_apply]
  generalize Read.val_main_v11 (F := Ideal) x0 x1 x2 x3 x4 x5 = g
  unfold Spec.poolR
  refine congrArg (Spec.z + ·) (Finset.sum_congr rfl fun n _ => congrArg g ?_)
  exact funext fun a => Fin.ext (by match a with | ⟨0, _⟩ => rfl | ⟨1, _⟩ => rfl | ⟨2, _⟩ => rfl)

/-! ## The dense head: max(P·Wf1 + bf1, 0)·Wf2 + bf2, P the pooled array; only P's values at (b, k) enter -/

/-- P·Wf1 at (b, h): the sum over the 32 pooled channels. -/
theorem v13_at (x0 : (⟨S32x2048x64, .f32⟩ : BufTy).Contents (Elt Ideal)) (x1 : (⟨S32x2048x2048, .f32⟩ : BufTy).Contents (Elt Ideal))
    (x2 : (⟨S64x32, .f32⟩ : BufTy).Contents (Elt Ideal)) (x3 : (⟨S32, .f32⟩ : BufTy).Contents (Elt Ideal)) (x4 : (⟨S32x32, .f32⟩ : BufTy).Contents (Elt Ideal))
    (x5 : (⟨S32, .f32⟩ : BufTy).Contents (Elt Ideal)) (x6 : (⟨S32x512, .f32⟩ : BufTy).Contents (Elt Ideal)) (b : Fin 32) (h : Fin 512) :
    Read.val_main_v13 (F := Ideal) x0 x1 x2 x3 x4 x5 x6 (ix2 b h)
      = ∑ k : Fin 32, Read.val_main_v12 (F := Ideal) x0 x1 x2 x3 x4 x5 (ix2 b k) * x6 (ix2 k h) := by
  rw [Read.val_main_v13_apply]
  refine Finset.sum_congr rfl fun k _ => ?_
  have el : Read.lidx_main_v13 (ix2 b h) k = ix2 b k :=
    funext fun a => Fin.ext (by match a with | ⟨0, _⟩ => rfl | ⟨1, _⟩ => rfl)
  have er : Read.ridx_main_v13 (ix2 b h) k = ix2 k h :=
    funext fun a => Fin.ext (by match a with | ⟨0, _⟩ => rfl | ⟨1, _⟩ => rfl)
  rw [el, er]

/-- The hidden bias broadcast to (b, h) is the bias at h. -/
theorem v15_at (x7 : (⟨S512, .f32⟩ : BufTy).Contents (Elt Ideal)) (b : Fin 32) (h : Fin 512) :
    Read.val_main_v15 (F := Ideal) x7 (ix2 b h) = x7 (ix1 h) := by
  rw [Read.val_main_v15_apply, Read.val_main_v14_apply]
  exact congrArg x7 (funext fun a => Fin.ext (by match a with | ⟨0, _⟩ => rfl))

/-- The third zero constant broadcast over the hidden shape is the zero word everywhere. -/
theorem relu2_at (i : S32x512.Idx) : Read.val_main_call2_v0 (F := Ideal) i = Spec.z := by
  rw [Read.val_main_call2_v0_apply, Read.val_main_call2_cst_apply]
  rfl

/-- The hidden activation at (b, h). -/
theorem v17_at (x0 : (⟨S32x2048x64, .f32⟩ : BufTy).Contents (Elt Ideal)) (x1 : (⟨S32x2048x2048, .f32⟩ : BufTy).Contents (Elt Ideal))
    (x2 : (⟨S64x32, .f32⟩ : BufTy).Contents (Elt Ideal)) (x3 : (⟨S32, .f32⟩ : BufTy).Contents (Elt Ideal)) (x4 : (⟨S32x32, .f32⟩ : BufTy).Contents (Elt Ideal))
    (x5 : (⟨S32, .f32⟩ : BufTy).Contents (Elt Ideal)) (x6 : (⟨S32x512, .f32⟩ : BufTy).Contents (Elt Ideal)) (x7 : (⟨S512, .f32⟩ : BufTy).Contents (Elt Ideal)) (b : Fin 32) (h : Fin 512) :
    Read.val_main_v17 (F := Ideal) x0 x1 x2 x3 x4 x5 x6 x7 (ix2 b h)
      = max ((∑ k : Fin 32, Read.val_main_v12 (F := Ideal) x0 x1 x2 x3 x4 x5 (ix2 b k) * x6 (ix2 k h)) + x7 (ix1 h)) Spec.z := by
  rw [Read.val_main_v17_apply, Read.val_main_v16_apply, v13_at, v15_at, relu2_at, Ideal.maximumf_def, Ideal.addf_def]

/-- The output product at (b, o): the sum over the 512 hidden units. -/
theorem v18_at (x0 : (⟨S32x2048x64, .f32⟩ : BufTy).Contents (Elt Ideal)) (x1 : (⟨S32x2048x2048, .f32⟩ : BufTy).Contents (Elt Ideal))
    (x2 : (⟨S64x32, .f32⟩ : BufTy).Contents (Elt Ideal)) (x3 : (⟨S32, .f32⟩ : BufTy).Contents (Elt Ideal)) (x4 : (⟨S32x32, .f32⟩ : BufTy).Contents (Elt Ideal))
    (x5 : (⟨S32, .f32⟩ : BufTy).Contents (Elt Ideal)) (x6 : (⟨S32x512, .f32⟩ : BufTy).Contents (Elt Ideal)) (x7 : (⟨S512, .f32⟩ : BufTy).Contents (Elt Ideal)) (x8 : (⟨S512x1, .f32⟩ : BufTy).Contents (Elt Ideal)) (b : Fin 32) (o : Fin 1) :
    Read.val_main_v18 (F := Ideal) x0 x1 x2 x3 x4 x5 x6 x7 x8 (ix2 b o)
      = ∑ h : Fin 512, Read.val_main_v17 (F := Ideal) x0 x1 x2 x3 x4 x5 x6 x7 (ix2 b h) * x8 (ix2 h o) := by
  rw [Read.val_main_v18_apply]
  refine Finset.sum_congr rfl fun h _ => ?_
  have el : Read.lidx_main_v18 (ix2 b o) h = ix2 b h :=
    funext fun a => Fin.ext (by match a with | ⟨0, _⟩ => rfl | ⟨1, _⟩ => rfl)
  have er : Read.ridx_main_v18 (ix2 b o) h = ix2 h o :=
    funext fun a => Fin.ext (by match a with | ⟨0, _⟩ => rfl | ⟨1, _⟩ => rfl)
  rw [el, er]

/-- The output bias broadcast to (b, o) is the bias's one element. -/
theorem v20_at (x9 : (⟨S1, .f32⟩ : BufTy).Contents (Elt Ideal)) (b : Fin 32) (o : Fin 1) :
    Read.val_main_v20 (F := Ideal) x9 (ix2 b o) = x9 (ix1 (0 : Fin 1)) := by
  rw [Read.val_main_v20_apply, Read.val_main_v19_apply]
  exact congrArg x9 (funext fun a => Fin.ext (by match a with | ⟨0, _⟩ => rfl))

/-- The reference's dense head is the specification's head of the reference's pooled array. -/
theorem v21_eq (x0 : (⟨S32x2048x64, .f32⟩ : BufTy).Contents (Elt Ideal)) (x1 : (⟨S32x2048x2048, .f32⟩ : BufTy).Contents (Elt Ideal))
    (x2 : (⟨S64x32, .f32⟩ : BufTy).Contents (Elt Ideal)) (x3 : (⟨S32, .f32⟩ : BufTy).Contents (Elt Ideal)) (x4 : (⟨S32x32, .f32⟩ : BufTy).Contents (Elt Ideal))
    (x5 : (⟨S32, .f32⟩ : BufTy).Contents (Elt Ideal)) (x6 : (⟨S32x512, .f32⟩ : BufTy).Contents (Elt Ideal)) (x7 : (⟨S512, .f32⟩ : BufTy).Contents (Elt Ideal))
    (x8 : (⟨S512x1, .f32⟩ : BufTy).Contents (Elt Ideal)) (x9 : (⟨S1, .f32⟩ : BufTy).Contents (Elt Ideal)) :
    Read.val_main_v21 (F := Ideal) x0 x1 x2 x3 x4 x5 x6 x7 x8 x9
      = Spec.head (Read.val_main_v12 (F := Ideal) x0 x1 x2 x3 x4 x5) x6 x7 x8 x9 := by
  funext i
  obtain ⟨b, o, rfl⟩ : ∃ (b : Fin 32) (o : Fin 1), i = ix2 b o := ⟨i 0, i 1, eq_ix2 i⟩
  rw [Read.val_main_v21_apply, v18_at, v20_at, Ideal.addf_def]
  simp only [v17_at]
  rfl

/-- The reference's result, as the generated read-back names it, is the specification's `out` of the arguments. -/
theorem ref_result (x0 : (⟨S32x2048x64, .f32⟩ : BufTy).Contents (Elt Ideal)) (x1 : (⟨S32x2048x2048, .f32⟩ : BufTy).Contents (Elt Ideal)) (x2 : (⟨S64x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x512, .f32⟩ : BufTy).Contents (Elt Ideal)) (x7 : (⟨S512, .f32⟩ : BufTy).Contents (Elt Ideal)) (x8 : (⟨S512x1, .f32⟩ : BufTy).Contents (Elt Ideal)) (x9 : (⟨S1, .f32⟩ : BufTy).Contents (Elt Ideal)) :
    Read.val_main_v21 (F := Ideal) x0 x1 x2 x3 x4 x5 x6 x7 x8 x9 = Spec.out x0 x1 x2 x3 x4 x5 x6 x7 x8 x9 := by
  rw [v21_eq, v12_eq, v11_eq, v5_eq]
  rfl

end Cert.ReferenceIdeal.RefValue

end
-- ==== Proof.lean ====
/-
  Two stacked graph-convolution layers, a sum pool over the nodes and a two-layer dense head: the kernel
  program (two pipelined kernels, each caching its projection X·W per batch in a scratch buffer, the second
  accumulating the pool tile by tile in its output block, the head on the host) against the plain reference.
  Over the extended reals both compute  head(Σ_n relu(A·(relu(A·(X·W1) + b1)·W2) + b2))  index by index:
  the kernel's changes of float format are the identity there, each of its matrix products contracts a whole
  axis in one step exactly as the reference's batched products do, and its pool differs from the reference's
  only in the grouping of one sum (four tiles of 512 rows accumulated from the zero word against one sum over
  2048 rows from the zero word), which commutativity and associativity of addition settle: no finiteness of the
  inputs is used.  The frames: the reference's is its run with the result dropped; each kernel program's run
  is the chain of its seven items (host stretch, region, host stretch, region, three host stretches), every
  buffer's contents folded from the launch memory through them, the arguments read back unchanged at the end.
  The idealization rewrote nothing, so `preserves` is the trivial proposition.
-/
import proofs.«152775_j41695542509689_1_alg».proof.Defs
import proofs.«152775_j41695542509689_1_alg».proof.Proof.Gen.Kernel
import proofs.«152775_j41695542509689_1_alg».proof.Proof.Gen.KernelIdeal
import proofs.«152775_j41695542509689_1_alg».proof.Proof.Gen.ReferenceIdeal
import proofs.«152775_j41695542509689_1_alg».proof.Proof.Gen.Pre_finite_inputs
import proofs.«152775_j41695542509689_1_alg».proof.Proof.Gen.ReferenceIdeal.Run
import proofs.«152775_j41695542509689_1_alg».proof.Proof.Gen.ReferenceIdeal.Read
import proofs.«152775_j41695542509689_1_alg».proof.Proof.K.Run
import proofs.«152775_j41695542509689_1_alg».proof.Proof.KI.Run
import proofs.«152775_j41695542509689_1_alg».proof.Proof.KI.Result
import proofs.«152775_j41695542509689_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_kernel : Cert.frame_Kernel := fun m ρ _ => Cert.Kernel.Hand.frame m ρ

/-- So does the idealized kernel program. -/
theorem frame_kernelIdeal : Cert.frame_KernelIdeal := fun m ρ _ => Cert.KernelIdeal.Hand.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the specification's `out` of the
    arguments in their result buffers: the kernel program's fold read at its result (`kernel_result`), the
    reference's run read back operation by operation (`ref_result`). -/
theorem algebraic : Cert.algebraic_KernelIdeal_ReferenceIdeal := by
  intro m ρ m' ρ' _ hagree
  refine ⟨fun c => Cert.KernelIdeal.Hand.W7 (F := Ideal) m c (Proc.devRef .tc Cert.KernelIdeal.main_v13),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.ref_result,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]
  exact (Cert.KernelIdeal.Hand.kernel_result m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
